-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x82 : Shape := ⟨2, ![200000, 82]⟩
abbrev S6400000x6 : Shape := ⟨2, ![6400000, 6]⟩
abbrev S6400000 : Shape := ⟨1, ![6400000]⟩
abbrev S82x10 : Shape := ⟨2, ![82, 10]⟩
abbrev S16x10 : Shape := ⟨2, ![16, 10]⟩
abbrev S20x10 : Shape := ⟨2, ![20, 10]⟩
abbrev S_ : Shape := ⟨0, ![]⟩

class Facts : Prop where
  bcast_S_S200000x82 : S_.BroadcastsInDim S200000x82 (![] : Fin 0 → Fin S200000x82.rank)
  reducesTo_S200000x82_S_d0_1 : S200000x82.ReducesTo [0, 1] S_
  h_S_ : 0 < S_.numel
  bcast_S_S6400000x6 : S_.BroadcastsInDim S6400000x6 (![] : Fin 0 → Fin S6400000x6.rank)
  reducesTo_S6400000x6_S_d0_1 : S6400000x6.ReducesTo [0, 1] S_
  bcast_S_S82x10 : S_.BroadcastsInDim S82x10 (![] : Fin 0 → Fin S82x10.rank)
  reducesTo_S82x10_S_d0_1 : S82x10.ReducesTo [0, 1] S_
  bcast_S_S16x10 : S_.BroadcastsInDim S16x10 (![] : Fin 0 → Fin S16x10.rank)
  reducesTo_S16x10_S_d0_1 : S16x10.ReducesTo [0, 1] S_
  bcast_S_S20x10 : S_.BroadcastsInDim S20x10 (![] : Fin 0 → Fin S20x10.rank)
  reducesTo_S20x10_S_d0_1 : S20x10.ReducesTo [0, 1] S_
  bcast_S_S6400000 : S_.BroadcastsInDim S6400000 (![] : Fin 0 → Fin S6400000.rank)
  reducesTo_S6400000_S_d0 : S6400000.ReducesTo [0] S_

variable [Facts]

def fn_part1 {F : FTy → Type} [FloatOps F] (main_arg2 : IVec S6400000 32) (main_arg6 : FVec F S20x10 .f32) (main_v13 : IVec S_ 1) (main_v16 : IVec S16x10 1) : IVec S_ 1 :=
  let main_c_5 : IVec S_ 1 := constantI S_ 1 1#1
  let main_v17 : IVec S_ 1 := (fun x v => Host.reduce IntOp.andi x v reducesTo_S16x10_S_d0_1 h_S_) main_v16 main_c_5
  let main_v18 : IVec S_ 1 := andi main_v13 main_v17
  let main_v19 : FVec F S20x10 .f32 := Host.absf main_arg6
  let main_cst_6 : FVec F S_ .f32 := constant S_ .f32 0x7F800000#32
  let main_v20 : FVec F S20x10 .f32 := broadcastInDim S20x10 ![] bcast_S_S20x10 main_cst_6
  let main_v21 : IVec S20x10 1 := cmpf .olt main_v19 main_v20
  let main_c_7 : IVec S_ 1 := constantI S_ 1 1#1
  let main_v22 : IVec S_ 1 := (fun x v => Host.reduce IntOp.andi x v reducesTo_S20x10_S_d0_1 h_S_) main_v21 main_c_7
  let main_v23 : IVec S_ 1 := andi main_v18 main_v22
  let main_c_8 : IVec S_ 32 := constantI S_ 32 4294767296#32
  let main_v24 : IVec S6400000 32 := broadcastInDim S6400000 ![] bcast_S_S6400000 main_c_8
  let main_v25 : IVec S6400000 1 := cmpi .sge main_arg2 main_v24
  let main_c_9 : IVec S_ 32 := constantI S_ 32 200000#32
  let main_v26 : IVec S6400000 32 := broadcastInDim S6400000 ![] bcast_S_S6400000 main_c_9
  let main_v27 : IVec S6400000 1 := cmpi .slt main_arg2 main_v26
  let main_v28 : IVec S6400000 1 := andi main_v25 main_v27
  let main_c_10 : IVec S_ 1 := constantI S_ 1 1#1
  let main_v29 : IVec S_ 1 := (fun x v => Host.reduce IntOp.andi x v reducesTo_S6400000_S_d0 h_S_) main_v28 main_c_10
  let main_v30 : IVec S_ 1 := andi main_v23 main_v29
  main_v30

def fn {F : FTy → Type} [FloatOps F] (main_arg0 : FVec F S200000x82 .f32) (main_arg1 : FVec F S6400000x6 .f32) (main_arg2 : IVec S6400000 32) (main_arg3 : IVec S6400000 32) (main_arg4 : FVec F S82x10 .f32) (main_arg5 : FVec F S16x10 .f32) (main_arg6 : FVec F S20x10 .f32) : IVec S_ 1 :=
  let main_v0 : FVec F S200000x82 .f32 := Host.absf main_arg0
  let main_cst : FVec F S_ .f32 := constant S_ .f32 0x7F800000#32
  let main_v1 : FVec F S200000x82 .f32 := broadcastInDim S200000x82 ![] bcast_S_S200000x82 main_cst
  let main_v2 : IVec S200000x82 1 := cmpf .olt main_v0 main_v1
  let main_c : IVec S_ 1 := constantI S_ 1 1#1
  let main_v3 : IVec S_ 1 := (fun x v => Host.reduce IntOp.andi x v reducesTo_S200000x82_S_d0_1 h_S_) main_v2 main_c
  let main_v4 : FVec F S6400000x6 .f32 := Host.absf main_arg1
  let main_cst_0 : FVec F S_ .f32 := constant S_ .f32 0x7F800000#32
  let main_v5 : FVec F S6400000x6 .f32 := broadcastInDim S6400000x6 ![] bcast_S_S6400000x6 main_cst_0
  let main_v6 : IVec S6400000x6 1 := cmpf .olt main_v4 main_v5
  let main_c_1 : IVec S_ 1 := constantI S_ 1 1#1
  let main_v7 : IVec S_ 1 := (fun x v => Host.reduce IntOp.andi x v reducesTo_S6400000x6_S_d0_1 h_S_) main_v6 main_c_1
  let main_v8 : IVec S_ 1 := andi main_v3 main_v7
  let main_v9 : FVec F S82x10 .f32 := Host.absf main_arg4
  let main_cst_2 : FVec F S_ .f32 := constant S_ .f32 0x7F800000#32
  let main_v10 : FVec F S82x10 .f32 := broadcastInDim S82x10 ![] bcast_S_S82x10 main_cst_2
  let main_v11 : IVec S82x10 1 := cmpf .olt main_v9 main_v10
  let main_c_3 : IVec S_ 1 := constantI S_ 1 1#1
  let main_v12 : IVec S_ 1 := (fun x v => Host.reduce IntOp.andi x v reducesTo_S82x10_S_d0_1 h_S_) main_v11 main_c_3
  let main_v13 : IVec S_ 1 := andi main_v8 main_v12
  let main_v14 : FVec F S16x10 .f32 := Host.absf main_arg5
  let main_cst_4 : FVec F S_ .f32 := constant S_ .f32 0x7F800000#32
  let main_v15 : FVec F S16x10 .f32 := broadcastInDim S16x10 ![] bcast_S_S16x10 main_cst_4
  let main_v16 : IVec S16x10 1 := cmpf .olt main_v14 main_v15
  fn_part1 (F := F) main_arg2 main_arg6 main_v13 main_v16
-- ==== Kernel.lean ====
abbrev S200000x82 : Shape := ⟨2, ![200000, 82]⟩
abbrev S6400000x6 : Shape := ⟨2, ![6400000, 6]⟩
abbrev S6400000 : Shape := ⟨1, ![6400000]⟩
abbrev S82x10 : Shape := ⟨2, ![82, 10]⟩
abbrev S16x10 : Shape := ⟨2, ![16, 10]⟩
abbrev S20x10 : Shape := ⟨2, ![20, 10]⟩
abbrev S200000x10 : Shape := ⟨2, ![200000, 10]⟩
abbrev S8000x82 : Shape := ⟨2, ![8000, 82]⟩
abbrev S8000x10 : Shape := ⟨2, ![8000, 10]⟩
abbrev S10x10 : Shape := ⟨2, ![10, 10]⟩
abbrev S6x10 : Shape := ⟨2, ![6, 10]⟩
abbrev S_ : Shape := ⟨0, ![]⟩
abbrev S6400000x1 : Shape := ⟨2, ![6400000, 1]⟩
abbrev S1 : Shape := ⟨1, ![1]⟩
abbrev S1x1 : Shape := ⟨2, ![1, 1]⟩
abbrev S6400000x10 : Shape := ⟨2, ![6400000, 10]⟩
abbrev S6400x10 : Shape := ⟨2, ![6400, 10]⟩
abbrev S6400x6 : Shape := ⟨2, ![6400, 6]⟩

abbrev nBuf : Space → Nat
  | .hbm => 70
  | .vmem => 37
  | .smem => 0
  | _ => 0

abbrev bufTy : (tb : Table) → Fin (tcTables nBuf tb) → BufTy
  | .hbm, ⟨0, _⟩ => ⟨S200000x82, .f32⟩
  | .hbm, ⟨1, _⟩ => ⟨S6400000x6, .f32⟩
  | .hbm, ⟨2, _⟩ => ⟨S6400000, .i32⟩
  | .hbm, ⟨3, _⟩ => ⟨S6400000, .i32⟩
  | .hbm, ⟨4, _⟩ => ⟨S82x10, .f32⟩
  | .hbm, ⟨5, _⟩ => ⟨S16x10, .f32⟩
  | .hbm, ⟨6, _⟩ => ⟨S20x10, .f32⟩
  | .hbm, ⟨7, _⟩ => ⟨S200000x10, .f32⟩
  | .hbm, ⟨8, _⟩ => ⟨S10x10, .f32⟩
  | .hbm, ⟨9, _⟩ => ⟨S6x10, .f32⟩
  | .hbm, ⟨10, _⟩ => ⟨S10x10, .f32⟩
  | .hbm, ⟨11, _⟩ => ⟨S10x10, .f32⟩
  | .hbm, ⟨12, _⟩ => ⟨S_, .i32⟩
  | .hbm, ⟨13, _⟩ => ⟨S6400000, .i32⟩
  | .hbm, ⟨14, _⟩ => ⟨S6400000, .i1⟩
  | .hbm, ⟨15, _⟩ => ⟨S_, .i32⟩
  | .hbm, ⟨16, _⟩ => ⟨S6400000, .i32⟩
  | .hbm, ⟨17, _⟩ => ⟨S6400000, .i32⟩
  | .hbm, ⟨18, _⟩ => ⟨S6400000, .i32⟩
  | .hbm, ⟨19, _⟩ => ⟨S6400000x1, .i32⟩
  | .hbm, ⟨20, _⟩ => ⟨S1, .i32⟩
  | .hbm, ⟨21, _⟩ => ⟨S_, .i32⟩
  | .hbm, ⟨22, _⟩ => ⟨S6400000x1, .i32⟩
  | .hbm, ⟨23, _⟩ => ⟨S6400000x1, .i1⟩
  | .hbm, ⟨24, _⟩ => ⟨S1x1, .i32⟩
  | .hbm, ⟨25, _⟩ => ⟨S6400000x1, .i32⟩
  | .hbm, ⟨26, _⟩ => ⟨S6400000x1, .i1⟩
  | .hbm, ⟨27, _⟩ => ⟨S6400000x1, .i1⟩
  | .hbm, ⟨28, _⟩ => ⟨S_, .i1⟩
  | .hbm, ⟨29, _⟩ => ⟨S6400000, .i1⟩
  | .hbm, ⟨30, _⟩ => ⟨S6400000x10, .f32⟩
  | .hbm, ⟨31, _⟩ => ⟨S6400000x10, .i1⟩
  | .hbm, ⟨32, _⟩ => ⟨S_, .f32⟩
  | .hbm, ⟨33, _⟩ => ⟨S6400000x10, .f32⟩
  | .hbm, ⟨34, _⟩ => ⟨S6400000x10, .f32⟩
  | .hbm, ⟨35, _⟩ => ⟨S6400000x10, .f32⟩
  | .hbm, ⟨36, _⟩ => ⟨S_, .f32⟩
  | .hbm, ⟨37, _⟩ => ⟨S200000x10, .f32⟩
  | .hbm, ⟨38, _⟩ => ⟨S6400000x1, .i32⟩
  | .hbm, ⟨39, _⟩ => ⟨S200000x10, .f32⟩
  | .hbm, ⟨40, _⟩ => ⟨S200000x10, .f32⟩
  | .hbm, ⟨41, _⟩ => ⟨S_, .i32⟩
  | .hbm, ⟨42, _⟩ => ⟨S6400000, .i32⟩
  | .hbm, ⟨43, _⟩ => ⟨S6400000, .i1⟩
  | .hbm, ⟨44, _⟩ => ⟨S_, .i32⟩
  | .hbm, ⟨45, _⟩ => ⟨S6400000, .i32⟩
  | .hbm, ⟨46, _⟩ => ⟨S6400000, .i32⟩
  | .hbm, ⟨47, _⟩ => ⟨S6400000, .i32⟩
  | .hbm, ⟨48, _⟩ => ⟨S6400000x1, .i32⟩
  | .hbm, ⟨49, _⟩ => ⟨S1, .i32⟩
  | .hbm, ⟨50, _⟩ => ⟨S_, .i32⟩
  | .hbm, ⟨51, _⟩ => ⟨S6400000x1, .i32⟩
  | .hbm, ⟨52, _⟩ => ⟨S6400000x1, .i1⟩
  | .hbm, ⟨53, _⟩ => ⟨S1x1, .i32⟩
  | .hbm, ⟨54, _⟩ => ⟨S6400000x1, .i32⟩
  | .hbm, ⟨55, _⟩ => ⟨S6400000x1, .i1⟩
  | .hbm, ⟨56, _⟩ => ⟨S6400000x1, .i1⟩
  | .hbm, ⟨57, _⟩ => ⟨S_, .i1⟩
  | .hbm, ⟨58, _⟩ => ⟨S6400000, .i1⟩
  | .hbm, ⟨59, _⟩ => ⟨S6400000x10, .f32⟩
  | .hbm, ⟨60, _⟩ => ⟨S6400000x10, .i1⟩
  | .hbm, ⟨61, _⟩ => ⟨S_, .f32⟩
  | .hbm, ⟨62, _⟩ => ⟨S6400000x10, .f32⟩
  | .hbm, ⟨63, _⟩ => ⟨S6400000x10, .f32⟩
  | .hbm, ⟨64, _⟩ => ⟨S6400000x10, .f32⟩
  | .hbm, ⟨65, _⟩ => ⟨S_, .f32⟩
  | .hbm, ⟨66, _⟩ => ⟨S200000x10, .f32⟩
  | .hbm, ⟨67, _⟩ => ⟨S6400000x1, .i32⟩
  | .hbm, ⟨68, _⟩ => ⟨S200000x10, .f32⟩
  | .hbm, ⟨69, _⟩ => ⟨S200000x10, .f32⟩
  | .local _ .vmem, ⟨0, _⟩ => ⟨S8000x82, .f32⟩
  | .local _ .vmem, ⟨1, _⟩ => ⟨S8000x82, .f32⟩
  | .local _ .vmem, ⟨2, _⟩ => ⟨S82x10, .f32⟩
  | .local _ .vmem, ⟨3, _⟩ => ⟨S8000x10, .f32⟩
  | .local _ .vmem, ⟨4, _⟩ => ⟨S8000x10, .f32⟩
  | .local _ .vmem, ⟨5, _⟩ => ⟨S6400x10, .f32⟩
  | .local _ .vmem, ⟨6, _⟩ => ⟨S6400x10, .f32⟩
  | .local _ .vmem, ⟨7, _⟩ => ⟨S6400x6, .f32⟩
  | .local _ .vmem, ⟨8, _⟩ => ⟨S6400x6, .f32⟩
  | .local _ .vmem, ⟨9, _⟩ => ⟨S10x10, .f32⟩
  | .local _ .vmem, ⟨10, _⟩ => ⟨S6x10, .f32⟩
  | .local _ .vmem, ⟨11, _⟩ => ⟨S6400x10, .f32⟩
  | .local _ .vmem, ⟨12, _⟩ => ⟨S6400x10, .f32⟩
  | .local _ .vmem, ⟨13, _⟩ => ⟨S8000x10, .f32⟩
  | .local _ .vmem, ⟨14, _⟩ => ⟨S8000x10, .f32⟩
  | .local _ .vmem, ⟨15, _⟩ => ⟨S8000x10, .f32⟩
  | .local _ .vmem, ⟨16, _⟩ => ⟨S8000x10, .f32⟩
  | .local _ .vmem, ⟨17, _⟩ => ⟨S10x10, .f32⟩
  | .local _ .vmem, ⟨18, _⟩ => ⟨S10x10, .f32⟩
  | .local _ .vmem, ⟨19, _⟩ => ⟨S8000x10, .f32⟩
  | .local _ .vmem, ⟨20, _⟩ => ⟨S8000x10, .f32⟩
  | .local _ .vmem, ⟨21, _⟩ => ⟨S6400x10, .f32⟩
  | .local _ .vmem, ⟨22, _⟩ => ⟨S6400x10, .f32⟩
  | .local _ .vmem, ⟨23, _⟩ => ⟨S6400x6, .f32⟩
  | .local _ .vmem, ⟨24, _⟩ => ⟨S6400x6, .f32⟩
  | .local _ .vmem, ⟨25, _⟩ => ⟨S10x10, .f32⟩
  | .local _ .vmem, ⟨26, _⟩ => ⟨S6x10, .f32⟩
  | .local _ .vmem, ⟨27, _⟩ => ⟨S6400x10, .f32⟩
  | .local _ .vmem, ⟨28, _⟩ => ⟨S6400x10, .f32⟩
  | .local _ .vmem, ⟨29, _⟩ => ⟨S8000x10, .f32⟩
  | .local _ .vmem, ⟨30, _⟩ => ⟨S8000x10, .f32⟩
  | .local _ .vmem, ⟨31, _⟩ => ⟨S8000x10, .f32⟩
  | .local _ .vmem, ⟨32, _⟩ => ⟨S8000x10, .f32⟩
  | .local _ .vmem, ⟨33, _⟩ => ⟨S10x10, .f32⟩
  | .local _ .vmem, ⟨34, _⟩ => ⟨S10x10, .f32⟩
  | .local _ .vmem, ⟨35, _⟩ => ⟨S8000x10, .f32⟩
  | .local _ .vmem, ⟨36, _⟩ => ⟨S8000x10, .f32⟩
  | _, _ => ⟨S200000x82, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v5 : Ref sig .tc := ⟨.hbm, 34, rfl⟩
abbrev main_v6 : Ref sig .tc := ⟨.hbm, 35, rfl⟩
abbrev main_cst : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_call1_c : Ref sig .tc := ⟨.hbm, 41, rfl⟩
abbrev main_call1_v0 : Ref sig .tc := ⟨.hbm, 42, rfl⟩
abbrev main_call1_v1 : Ref sig .tc := ⟨.hbm, 43, rfl⟩
abbrev main_call1_c_0 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_c_1 : Ref sig .tc := ⟨.hbm, 49, rfl⟩
abbrev main_call1_c_2 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_c_3 : Ref sig .tc := ⟨.hbm, 57, rfl⟩
abbrev main_call1_v12 : Ref sig .tc := ⟨.hbm, 58, rfl⟩
abbrev main_call1_v13 : Ref sig .tc := ⟨.hbm, 59, rfl⟩
abbrev main_call1_v14 : Ref sig .tc := ⟨.hbm, 60, rfl⟩
abbrev main_call1_cst : Ref sig .tc := ⟨.hbm, 61, rfl⟩
abbrev main_call1_v15 : Ref sig .tc := ⟨.hbm, 62, rfl⟩
abbrev main_v11 : Ref sig .tc := ⟨.hbm, 63, rfl⟩
abbrev main_v12 : Ref sig .tc := ⟨.hbm, 64, rfl⟩
abbrev main_cst_0 : Ref sig .tc := ⟨.hbm, 65, rfl⟩
abbrev main_v13 : Ref sig .tc := ⟨.hbm, 66, rfl⟩
abbrev main_v14 : Ref sig .tc := ⟨.hbm, 67, rfl⟩
abbrev main_v15 : Ref sig .tc := ⟨.hbm, 68, rfl⟩
abbrev main_v16 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg4_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg4_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg1_1 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg4_0 : Ref sig .tc := ⟨.vmem, 35, rfl⟩
abbrev cc4_stg4_1 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem4_0 : DmaSem sig := 19
abbrev cc2_sem4_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem4_0 : DmaSem sig := 27
abbrev cc3_sem4_1 : DmaSem sig := 28
abbrev cc4_sem0_0 : DmaSem sig := 29
abbrev cc4_sem0_1 : DmaSem sig := 30
abbrev cc4_sem1_0 : DmaSem sig := 31
abbrev cc4_sem1_1 : DmaSem sig := 32
abbrev cc4_sem2_0 : DmaSem sig := 33
abbrev cc4_sem3_0 : DmaSem sig := 34
abbrev cc4_sem4_0 : DmaSem sig := 35
abbrev cc4_sem4_1 : DmaSem sig := 36

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x82 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S82x10 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8000x10 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![1000], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6400x10 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6400x6 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S10x10 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S6x10 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S6400x10 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x10 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x10 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S10x10 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S10x10 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S8000x10 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![1000], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S6400x10 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S6400x6 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S10x10 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S6x10 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S6400x10 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x10 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8000x10 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S10x10 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S10x10 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S8000x10 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

class Facts₀ : Prop where
  inb_S8000x82_S8000x82_0_0 : ∀ a, (![0, 0] : Fin 2 → Nat) a + S8000x82.size a ≤ S8000x82.size a
  h_S8000x82 : 0 < S8000x82.numel
  bitsLt_bf16_f32 : FTy.bits .bf16 < FTy.bits .f32
  inb_S82x10_S82x10_0_0 : ∀ a, (![0, 0] : Fin 2 → Nat) a + S82x10.size a ≤ S82x10.size a
  h_S82x10 : 0 < S82x10.numel
  inb_S8000x10_S8000x10_0_0 : ∀ a, (![0, 0] : Fin 2 → Nat) a + S8000x10.size a ≤ S8000x10.size a
  h_S8000x10 : 0 < S8000x10.numel
  slices_S16x10_S10x10_0_0 : S16x10.Slices ![0, 0] S10x10
  slices_S16x10_S6x10_10_0 : S16x10.Slices ![10, 0] S6x10
  slices_S20x10_S10x10_0_0 : S20x10.Slices ![0, 0] S10x10
  slices_S20x10_S10x10_10_0 : S20x10.Slices ![10, 0] S10x10
  bcast_S_S6400000 : S_.BroadcastsInDim S6400000 (![] : Fin 0 → Fin S6400000.rank)
  bcast_S6400000_S6400000x1_0 : S6400000.BroadcastsInDim S6400000x1 (![0] : Fin 1 → Fin S6400000x1.rank)
  bcast_S_S6400000x1 : S_.BroadcastsInDim S6400000x1 (![] : Fin 0 → Fin S6400000x1.rank)
  bcast_S1_S1x1_1 : S1.BroadcastsInDim S1x1 (![1] : Fin 1 → Fin S1x1.rank)
  bcast_S1x1_S6400000x1_0_1 : S1x1.BroadcastsInDim S6400000x1 (![0, 1] : Fin 2 → Fin S6400000x1.rank)
  reducesTo_S6400000x1_S6400000_d1 : S6400000x1.ReducesTo [1] S6400000
  h_S_ : 0 < S_.numel
  bcast_S6400000_S6400000x10_0 : S6400000.BroadcastsInDim S6400000x10 (![0] : Fin 1 → Fin S6400000x10.rank)
  bcast_S_S6400000x10 : S_.BroadcastsInDim S6400000x10 (![] : Fin 0 → Fin S6400000x10.rank)
  inb_S6400x10_S6400x10_0_0 : ∀ a, (![0, 0] : Fin 2 → Nat) a + S6400x10.size a ≤ S6400x10.size a
  h_S6400x10 : 0 < S6400x10.numel
  shapeCasts_S6400x10_S6400x10 : S6400x10.ShapeCasts S6400x10
  inb_S6400x6_S6400x6_0_0 : ∀ a, (![0, 0] : Fin 2 → Nat) a + S6400x6.size a ≤ S6400x6.size a
  h_S6400x6 : 0 < S6400x6.numel
  inb_S10x10_S10x10_0_0 : ∀ a, (![0, 0] : Fin 2 → Nat) a + S10x10.size a ≤ S10x10.size a
  h_S10x10 : 0 < S10x10.numel
  shapeCasts_S10x10_S10x10 : S10x10.ShapeCasts S10x10
  inb_S6x10_S6x10_0_0 : ∀ a, (![0, 0] : Fin 2 → Nat) a + S6x10.size a ≤ S6x10.size a
  h_S6x10 : 0 < S6x10.numel
  shapeCasts_S6x10_S6x10 : S6x10.ShapeCasts S6x10
  bcast_S_S200000x10 : S_.BroadcastsInDim S200000x10 (![] : Fin 0 → Fin S200000x10.rank)
  shapeCasts_S8000x10_S8000x10 : S8000x10.ShapeCasts S8000x10
  dot_S8000x82_S82x10_S8000x10_1_0_0_1_n_n_wf : DotDims.WF S8000x82 S82x10 S8000x10 [1] [0] [0] [1] [] []
  gather_S200000x10_S6400000x1_S6400000x10_1_0_n_n_0_1_110_wf : GatherDims.WF S200000x10 S6400000x1 S6400000x10 [1] [0] [] [0] [] 1 ![1, 10]
  dot_S6400x10_S10x10_S6400x10_1_0_0_1_n_n_wf : DotDims.WF S6400x10 S10x10 S6400x10 [1] [0] [0] [1] [] []
  dot_S6400x6_S6x10_S6400x10_1_0_0_1_n_n_wf : DotDims.WF S6400x6 S6x10 S6400x10 [1] [0] [0] [1] [] []
  scatter_S200000x10_S6400000x1_S6400000x10_1_0_0_1_wf : ScatterDims.WF S200000x10 S6400000x1 S6400000x10 [1] [0] [0] 1
  dot_S8000x10_S10x10_S8000x10_1_0_0_1_n_n_wf : DotDims.WF S8000x10 S10x10 S8000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x82.size a ≤ S200000x82.size a
  hwx0_0 : ∀ i : grid0.Coords, EltTy.bits .f32 = 32 ∨ (Rect.block (s := S200000x82) S8000x82.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S82x10.size a ≤ S82x10.size a
  hwx0_1 : ∀ i : grid0.Coords, EltTy.bits .f32 = 32 ∨ (Rect.block (s := S82x10) S82x10.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x10.size a ≤ S200000x10.size a
  hwx0_2 : ∀ i : grid0.Coords, EltTy.bits .f32 = 32 ∨ (Rect.block (s := S200000x10) S8000x10.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6400x10.size a ≤ S6400000x10.size a
  hwx1_0 : ∀ i : grid1.Coords, EltTy.bits .f32 = 32 ∨ (Rect.block (s := S6400000x10) S6400x10.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6400x6.size a ≤ S6400000x6.size a
  hwx1_1 : ∀ i : grid1.Coords, EltTy.bits .f32 = 32 ∨ (Rect.block (s := S6400000x6) S6400x6.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S10x10.size a ≤ S10x10.size a
  hwx1_2 : ∀ i : grid1.Coords, EltTy.bits .f32 = 32 ∨ (Rect.block (s := S10x10) S10x10.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S6x10.size a ≤ S6x10.size a
  hwx1_3 : ∀ i : grid1.Coords, EltTy.bits .f32 = 32 ∨ (Rect.block (s := S6x10) S6x10.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S6400x10.size a ≤ S6400000x10.size a
  hwx1_4 : ∀ i : grid1.Coords, EltTy.bits .f32 = 32 ∨ (Rect.block (s := S6400000x10) S6400x10.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x10.size a ≤ S200000x10.size a
  hwx2_0 : ∀ i : grid2.Coords, EltTy.bits .f32 = 32 ∨ (Rect.block (s := S200000x10) S8000x10.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x10.size a ≤ S200000x10.size a
  hwx2_1 : ∀ i : grid2.Coords, EltTy.bits .f32 = 32 ∨ (Rect.block (s := S200000x10) S8000x10.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S10x10.size a ≤ S10x10.size a
  hwx2_2 : ∀ i : grid2.Coords, EltTy.bits .f32 = 32 ∨ (Rect.block (s := S10x10) S10x10.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S10x10.size a ≤ S10x10.size a
  hwx2_3 : ∀ i : grid2.Coords, EltTy.bits .f32 = 32 ∨ (Rect.block (s := S10x10) S10x10.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S8000x10.size a ≤ S200000x10.size a
  hwx2_4 : ∀ i : grid2.Coords, EltTy.bits .f32 = 32 ∨ (Rect.block (s := S200000x10) S8000x10.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S6400x10.size a ≤ S6400000x10.size a
  hwx3_0 : ∀ i : grid3.Coords, EltTy.bits .f32 = 32 ∨ (Rect.block (s := S6400000x10) S6400x10.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S6400x6.size a ≤ S6400000x6.size a
  hwx3_1 : ∀ i : grid3.Coords, EltTy.bits .f32 = 32 ∨ (Rect.block (s := S6400000x6) S6400x6.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S10x10.size a ≤ S10x10.size a
  hwx3_2 : ∀ i : grid3.Coords, EltTy.bits .f32 = 32 ∨ (Rect.block (s := S10x10) S10x10.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S6x10.size a ≤ S6x10.size a
  hwx3_3 : ∀ i : grid3.Coords, EltTy.bits .f32 = 32 ∨ (Rect.block (s := S6x10) S6x10.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S6400x10.size a ≤ S6400000x10.size a
  hwx3_4 : ∀ i : grid3.Coords, EltTy.bits .f32 = 32 ∨ (Rect.block (s := S6400000x10) S6400x10.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x10.size a ≤ S200000x10.size a
  hwx4_0 : ∀ i : grid4.Coords, EltTy.bits .f32 = 32 ∨ (Rect.block (s := S200000x10) S8000x10.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8000x10.size a ≤ S200000x10.size a
  hwx4_1 : ∀ i : grid4.Coords, EltTy.bits .f32 = 32 ∨ (Rect.block (s := S200000x10) S8000x10.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S10x10.size a ≤ S10x10.size a
  hwx4_2 : ∀ i : grid4.Coords, EltTy.bits .f32 = 32 ∨ (Rect.block (s := S10x10) S10x10.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S10x10.size a ≤ S10x10.size a
  hwx4_3 : ∀ i : grid4.Coords, EltTy.bits .f32 = 32 ∨ (Rect.block (s := S10x10) S10x10.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S8000x10.size a ≤ S200000x10.size a
  hwx4_4 : ∀ i : grid4.Coords, EltTy.bits .f32 = 32 ∨ (Rect.block (s := S200000x10) S8000x10.size (cc4_transform_4 i) (hinb4_4 i)).WholeWords (EltTy.packing .f32)

variable [Facts₀]

def dot_S8000x82_S82x10_S8000x10_1_0_0_1_n_n : DotDims S8000x82 S82x10 S8000x10 where
  lhsContracting := [1]
  rhsContracting := [0]
  lhsNonContracting := [0]
  rhsNonContracting := [1]
  lhsBatch := []
  rhsBatch := []
  wf := dot_S8000x82_S82x10_S8000x10_1_0_0_1_n_n_wf
def gather_S200000x10_S6400000x1_S6400000x10_1_0_n_n_0_1_110 : GatherDims S200000x10 S6400000x1 S6400000x10 where
  offsetDims := [1]
  collapsedSliceDims := [0]
  operandBatchingDims := []
  startIndicesBatchingDims := []
  startIndexMap := [0]
  indexVectorDim := 1
  sliceSizes := ![1, 10]
  wf := gather_S200000x10_S6400000x1_S6400000x10_1_0_n_n_0_1_110_wf
def dot_S6400x10_S10x10_S6400x10_1_0_0_1_n_n : DotDims S6400x10 S10x10 S6400x10 where
  lhsContracting := [1]
  rhsContracting := [0]
  lhsNonContracting := [0]
  rhsNonContracting := [1]
  lhsBatch := []
  rhsBatch := []
  wf := dot_S6400x10_S10x10_S6400x10_1_0_0_1_n_n_wf
def dot_S6400x6_S6x10_S6400x10_1_0_0_1_n_n : DotDims S6400x6 S6x10 S6400x10 where
  lhsContracting := [1]
  rhsContracting := [0]
  lhsNonContracting := [0]
  rhsNonContracting := [1]
  lhsBatch := []
  rhsBatch := []
  wf := dot_S6400x6_S6x10_S6400x10_1_0_0_1_n_n_wf
def scatter_S200000x10_S6400000x1_S6400000x10_1_0_0_1 : ScatterDims S200000x10 S6400000x1 S6400000x10 where
  updateWindowDims := [1]
  insertedWindowDims := [0]
  scatterDimsToOperandDims := [0]
  indexVectorDim := 1
  wf := scatter_S200000x10_S6400000x1_S6400000x10_1_0_0_1_wf
def dot_S8000x10_S10x10_S8000x10_1_0_0_1_n_n : DotDims S8000x10 S10x10 S8000x10 where
  lhsContracting := [1]
  rhsContracting := [0]
  lhsNonContracting := [0]
  rhsNonContracting := [1]
  lhsBatch := []
  rhsBatch := []
  wf := dot_S8000x10_S10x10_S8000x10_1_0_0_1_n_n_wf

abbrev win0_0 : Pipeline.Window sig grid0 :=
  Pipeline.Window.ofSpec (Memref.whole main_arg0) S8000x82.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S82x10.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8000x10.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v5) S6400x10.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S6400x6.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S10x10.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S6x10.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S6400x10.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v0) S8000x10.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v9) S8000x10.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3) S10x10.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v4) S10x10.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v10) S8000x10.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v11) S6400x10.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg1) S6400x6.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v1) S10x10.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v2) S6x10.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v12) S6400x10.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v10) S8000x10.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v15) S8000x10.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v3) S10x10.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v4) S10x10.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v16) S8000x10.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

class Facts : Prop extends Facts₀ where

variable [Facts]
-- ==== ReferenceIdeal.lean ====
abbrev S200000x82 : Shape := ⟨2, ![200000, 82]⟩
abbrev S6400000x6 : Shape := ⟨2, ![6400000, 6]⟩
abbrev S6400000 : Shape := ⟨1, ![6400000]⟩
abbrev S82x10 : Shape := ⟨2, ![82, 10]⟩
abbrev S16x10 : Shape := ⟨2, ![16, 10]⟩
abbrev S20x10 : Shape := ⟨2, ![20, 10]⟩
abbrev S200000x10 : Shape := ⟨2, ![200000, 10]⟩
abbrev S_ : Shape := ⟨0, ![]⟩
abbrev S6400000x1 : Shape := ⟨2, ![6400000, 1]⟩
abbrev S6400000x10 : Shape := ⟨2, ![6400000, 10]⟩
abbrev S6400000x16 : Shape := ⟨2, ![6400000, 16]⟩
abbrev S200000x20 : Shape := ⟨2, ![200000, 20]⟩

abbrev nBuf : Space → Nat
  | .hbm => 82
  | .vmem => 0
  | .smem => 0
  | _ => 0

abbrev bufTy : (tb : Table) → Fin (tcTables nBuf tb) → BufTy
  | .hbm, ⟨0, _⟩ => ⟨S200000x82, .f32⟩
  | .hbm, ⟨1, _⟩ => ⟨S6400000x6, .f32⟩
  | .hbm, ⟨2, _⟩ => ⟨S6400000, .i32⟩
  | .hbm, ⟨3, _⟩ => ⟨S6400000, .i32⟩
  | .hbm, ⟨4, _⟩ => ⟨S82x10, .f32⟩
  | .hbm, ⟨5, _⟩ => ⟨S16x10, .f32⟩
  | .hbm, ⟨6, _⟩ => ⟨S20x10, .f32⟩
  | .hbm, ⟨7, _⟩ => ⟨S200000x10, .f32⟩
  | .hbm, ⟨8, _⟩ => ⟨S_, .f32⟩
  | .hbm, ⟨9, _⟩ => ⟨S_, .f32⟩
  | .hbm, ⟨10, _⟩ => ⟨S200000x10, .f32⟩
  | .hbm, ⟨11, _⟩ => ⟨S200000x10, .i1⟩
  | .hbm, ⟨12, _⟩ => ⟨S_, .f32⟩
  | .hbm, ⟨13, _⟩ => ⟨S200000x10, .f32⟩
  | .hbm, ⟨14, _⟩ => ⟨S200000x10, .f32⟩
  | .hbm, ⟨15, _⟩ => ⟨S200000x10, .f32⟩
  | .hbm, ⟨16, _⟩ => ⟨S_, .i32⟩
  | .hbm, ⟨17, _⟩ => ⟨S6400000, .i32⟩
  | .hbm, ⟨18, _⟩ => ⟨S6400000, .i1⟩
  | .hbm, ⟨19, _⟩ => ⟨S_, .i32⟩
  | .hbm, ⟨20, _⟩ => ⟨S6400000, .i32⟩
  | .hbm, ⟨21, _⟩ => ⟨S6400000, .i32⟩
  | .hbm, ⟨22, _⟩ => ⟨S6400000, .i32⟩
  | .hbm, ⟨23, _⟩ => ⟨S6400000x1, .i32⟩
  | .hbm, ⟨24, _⟩ => ⟨S6400000x10, .f32⟩
  | .hbm, ⟨25, _⟩ => ⟨S6400000x16, .f32⟩
  | .hbm, ⟨26, _⟩ => ⟨S6400000x10, .f32⟩
  | .hbm, ⟨27, _⟩ => ⟨S_, .f32⟩
  | .hbm, ⟨28, _⟩ => ⟨S_, .f32⟩
  | .hbm, ⟨29, _⟩ => ⟨S6400000x10, .f32⟩
  | .hbm, ⟨30, _⟩ => ⟨S6400000x10, .i1⟩
  | .hbm, ⟨31, _⟩ => ⟨S_, .f32⟩
  | .hbm, ⟨32, _⟩ => ⟨S6400000x10, .f32⟩
  | .hbm, ⟨33, _⟩ => ⟨S6400000x10, .f32⟩
  | .hbm, ⟨34, _⟩ => ⟨S6400000x10, .f32⟩
  | .hbm, ⟨35, _⟩ => ⟨S_, .f32⟩
  | .hbm, ⟨36, _⟩ => ⟨S200000x10, .f32⟩
  | .hbm, ⟨37, _⟩ => ⟨S6400000x1, .i32⟩
  | .hbm, ⟨38, _⟩ => ⟨S200000x10, .f32⟩
  | .hbm, ⟨39, _⟩ => ⟨S200000x20, .f32⟩
  | .hbm, ⟨40, _⟩ => ⟨S200000x10, .f32⟩
  | .hbm, ⟨41, _⟩ => ⟨S_, .f32⟩
  | .hbm, ⟨42, _⟩ => ⟨S_, .f32⟩
  | .hbm, ⟨43, _⟩ => ⟨S200000x10, .f32⟩
  | .hbm, ⟨44, _⟩ => ⟨S200000x10, .i1⟩
  | .hbm, ⟨45, _⟩ => ⟨S_, .f32⟩
  | .hbm, ⟨46, _⟩ => ⟨S200000x10, .f32⟩
  | .hbm, ⟨47, _⟩ => ⟨S200000x10, .f32⟩
  | .hbm, ⟨48, _⟩ => ⟨S200000x10, .f32⟩
  | .hbm, ⟨49, _⟩ => ⟨S_, .i32⟩
  | .hbm, ⟨50, _⟩ => ⟨S6400000, .i32⟩
  | .hbm, ⟨51, _⟩ => ⟨S6400000, .i1⟩
  | .hbm, ⟨52, _⟩ => ⟨S_, .i32⟩
  | .hbm, ⟨53, _⟩ => ⟨S6400000, .i32⟩
  | .hbm, ⟨54, _⟩ => ⟨S6400000, .i32⟩
  | .hbm, ⟨55, _⟩ => ⟨S6400000, .i32⟩
  | .hbm, ⟨56, _⟩ => ⟨S6400000x1, .i32⟩
  | .hbm, ⟨57, _⟩ => ⟨S6400000x10, .f32⟩
  | .hbm, ⟨58, _⟩ => ⟨S6400000x16, .f32⟩
  | .hbm, ⟨59, _⟩ => ⟨S6400000x10, .f32⟩
  | .hbm, ⟨60, _⟩ => ⟨S_, .f32⟩
  | .hbm, ⟨61, _⟩ => ⟨S_, .f32⟩
  | .hbm, ⟨62, _⟩ => ⟨S6400000x10, .f32⟩
  | .hbm, ⟨63, _⟩ => ⟨S6400000x10, .i1⟩
  | .hbm, ⟨64, _⟩ => ⟨S_, .f32⟩
  | .hbm, ⟨65, _⟩ => ⟨S6400000x10, .f32⟩
  | .hbm, ⟨66, _⟩ => ⟨S6400000x10, .f32⟩
  | .hbm, ⟨67, _⟩ => ⟨S6400000x10, .f32⟩
  | .hbm, ⟨68, _⟩ => ⟨S_, .f32⟩
  | .hbm, ⟨69, _⟩ => ⟨S200000x10, .f32⟩
  | .hbm, ⟨70, _⟩ => ⟨S6400000x1, .i32⟩
  | .hbm, ⟨71, _⟩ => ⟨S200000x10, .f32⟩
  | .hbm, ⟨72, _⟩ => ⟨S200000x20, .f32⟩
  | .hbm, ⟨73, _⟩ => ⟨S200000x10, .f32⟩
  | .hbm, ⟨74, _⟩ => ⟨S_, .f32⟩
  | .hbm, ⟨75, _⟩ => ⟨S_, .f32⟩
  | .hbm, ⟨76, _⟩ => ⟨S200000x10, .f32⟩
  | .hbm, ⟨77, _⟩ => ⟨S200000x10, .i1⟩
  | .hbm, ⟨78, _⟩ => ⟨S_, .f32⟩
  | .hbm, ⟨79, _⟩ => ⟨S200000x10, .f32⟩
  | .hbm, ⟨80, _⟩ => ⟨S200000x10, .f32⟩
  | .hbm, ⟨81, _⟩ => ⟨S200000x10, .f32⟩
  | _, _ => ⟨S200000x82, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_call0_cst : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v1 : Ref sig .tc := ⟨.hbm, 15, rfl⟩
abbrev main_c : Ref sig .tc := ⟨.hbm, 16, rfl⟩
abbrev main_v2 : Ref sig .tc := ⟨.hbm, 17, rfl⟩
abbrev main_v3 : Ref sig .tc := ⟨.hbm, 18, rfl⟩
abbrev main_c_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_call1_cst : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_v11 : Ref sig .tc := ⟨.hbm, 34, rfl⟩
abbrev main_cst_2 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_cst_3 : Ref sig .tc := ⟨.hbm, 41, rfl⟩
abbrev main_call2_cst : Ref sig .tc := ⟨.hbm, 42, rfl⟩
abbrev main_call2_v0 : Ref sig .tc := ⟨.hbm, 43, rfl⟩
abbrev main_call2_v1 : Ref sig .tc := ⟨.hbm, 44, rfl⟩
abbrev main_call2_v2 : Ref sig .tc := ⟨.hbm, 45, rfl⟩
abbrev main_call2_v3 : Ref sig .tc := ⟨.hbm, 46, rfl⟩
abbrev main_call2_v4 : Ref sig .tc := ⟨.hbm, 47, rfl⟩
abbrev main_v17 : Ref sig .tc := ⟨.hbm, 48, rfl⟩
abbrev main_c_4 : Ref sig .tc := ⟨.hbm, 49, rfl⟩
abbrev main_v18 : Ref sig .tc := ⟨.hbm, 50, rfl⟩
abbrev main_v19 : Ref sig .tc := ⟨.hbm, 51, rfl⟩
abbrev main_c_5 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_cst_6 : Ref sig .tc := ⟨.hbm, 60, rfl⟩
abbrev main_call3_cst : Ref sig .tc := ⟨.hbm, 61, rfl⟩
abbrev main_call3_v0 : Ref sig .tc := ⟨.hbm, 62, rfl⟩
abbrev main_call3_v1 : Ref sig .tc := ⟨.hbm, 63, rfl⟩
abbrev main_call3_v2 : Ref sig .tc := ⟨.hbm, 64, rfl⟩
abbrev main_call3_v3 : Ref sig .tc := ⟨.hbm, 65, rfl⟩
abbrev main_call3_v4 : Ref sig .tc := ⟨.hbm, 66, rfl⟩
abbrev main_v27 : Ref sig .tc := ⟨.hbm, 67, rfl⟩
abbrev main_cst_7 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_cst_8 : Ref sig .tc := ⟨.hbm, 74, rfl⟩
abbrev main_call4_cst : Ref sig .tc := ⟨.hbm, 75, rfl⟩
abbrev main_call4_v0 : Ref sig .tc := ⟨.hbm, 76, rfl⟩
abbrev main_call4_v1 : Ref sig .tc := ⟨.hbm, 77, rfl⟩
abbrev main_call4_v2 : Ref sig .tc := ⟨.hbm, 78, rfl⟩
abbrev main_call4_v3 : Ref sig .tc := ⟨.hbm, 79, rfl⟩
abbrev main_call4_v4 : Ref sig .tc := ⟨.hbm, 80, rfl⟩
abbrev main_v33 : Ref sig .tc := ⟨.hbm, 81, rfl⟩

abbrev nD : Nat := 1
abbrev τ : Topo := Topo.v7x

variable {F : FTy → Type} [FloatOps F]

class Facts₀ : Prop where
  bcast_S_S200000x10 : S_.BroadcastsInDim S200000x10 (![] : Fin 0 → Fin S200000x10.rank)
  bcast_S_S6400000 : S_.BroadcastsInDim S6400000 (![] : Fin 0 → Fin S6400000.rank)
  bcast_S6400000_S6400000x1_0 : S6400000.BroadcastsInDim S6400000x1 (![0] : Fin 1 → Fin S6400000x1.rank)
  concatenates_S6400000x10_S6400000x6_S6400000x16_d1 : Shape.Concatenates [S6400000x10, S6400000x6] S6400000x16 1
  bcast_S_S6400000x10 : S_.BroadcastsInDim S6400000x10 (![] : Fin 0 → Fin S6400000x10.rank)
  concatenates_S200000x10_S200000x10_S200000x20_d1 : Shape.Concatenates [S200000x10, S200000x10] S200000x20 1
  dot_S200000x82_S82x10_S200000x10_1_0_0_1_n_n_wf : DotDims.WF S200000x82 S82x10 S200000x10 [1] [0] [0] [1] [] []
  gather_S200000x10_S6400000x1_S6400000x10_1_0_n_n_0_1_110_wf : GatherDims.WF S200000x10 S6400000x1 S6400000x10 [1] [0] [] [0] [] 1 ![1, 10]
  dot_S6400000x16_S16x10_S6400000x10_1_0_0_1_n_n_wf : DotDims.WF S6400000x16 S16x10 S6400000x10 [1] [0] [0] [1] [] []
  scatter_S200000x10_S6400000x1_S6400000x10_1_0_0_1_wf : ScatterDims.WF S200000x10 S6400000x1 S6400000x10 [1] [0] [0] 1
  dot_S200000x20_S20x10_S200000x10_1_0_0_1_n_n_wf : DotDims.WF S200000x20 S20x10 S200000x10 [1] [0] [0] [1] [] []

variable [Facts₀]

def dot_S200000x82_S82x10_S200000x10_1_0_0_1_n_n : DotDims S200000x82 S82x10 S200000x10 where
  lhsContracting := [1]
  rhsContracting := [0]
  lhsNonContracting := [0]
  rhsNonContracting := [1]
  lhsBatch := []
  rhsBatch := []
  wf := dot_S200000x82_S82x10_S200000x10_1_0_0_1_n_n_wf
def gather_S200000x10_S6400000x1_S6400000x10_1_0_n_n_0_1_110 : GatherDims S200000x10 S6400000x1 S6400000x10 where
  offsetDims := [1]
  collapsedSliceDims := [0]
  operandBatchingDims := []
  startIndicesBatchingDims := []
  startIndexMap := [0]
  indexVectorDim := 1
  sliceSizes := ![1, 10]
  wf := gather_S200000x10_S6400000x1_S6400000x10_1_0_n_n_0_1_110_wf
def dot_S6400000x16_S16x10_S6400000x10_1_0_0_1_n_n : DotDims S6400000x16 S16x10 S6400000x10 where
  lhsContracting := [1]
  rhsContracting := [0]
  lhsNonContracting := [0]
  rhsNonContracting := [1]
  lhsBatch := []
  rhsBatch := []
  wf := dot_S6400000x16_S16x10_S6400000x10_1_0_0_1_n_n_wf
def scatter_S200000x10_S6400000x1_S6400000x10_1_0_0_1 : ScatterDims S200000x10 S6400000x1 S6400000x10 where
  updateWindowDims := [1]
  insertedWindowDims := [0]
  scatterDimsToOperandDims := [0]
  indexVectorDim := 1
  wf := scatter_S200000x10_S6400000x1_S6400000x10_1_0_0_1_wf
def dot_S200000x20_S20x10_S200000x10_1_0_0_1_n_n : DotDims S200000x20 S20x10 S200000x10 where
  lhsContracting := [1]
  rhsContracting := [0]
  lhsNonContracting := [0]
  rhsNonContracting := [1]
  lhsBatch := []
  rhsBatch := []
  wf := dot_S200000x20_S20x10_S200000x10_1_0_0_1_n_n_wf

class Facts : Prop extends Facts₀ where

variable [Facts]
-- ==== Proof.KTerms.lean ====
/-
  The kernel program's host stages between its five pallas_calls, each as a term of whole arrays, spelled as @main
  composes them: the four row blocks of the two weight matrices; the gather of the rows `h[src]`, which here carries a
  guard (a row whose source index, counted from the end when negative, leaves 0 … 199999 is filled with the quiet-NaN word
  instead of a clamped row); and the messages summed into their destination rows from zero.
-/
import proofs.«409437_j15616501088483_1_alg».proof.KernelIdeal

noncomputable section

namespace Cert.KernelIdeal.KValue

open Idealize.ShloMosaic Cert.KernelIdeal

variable {F : FTy → Type} [FloatOps F] [Facts]
open Facts₀ Facts

/-- Rows 0..9 of the 16 × 10 message weights. -/
def msgW0 (gw : FVec F S16x10 .f32) : FVec F S10x10 .f32 := extractStridedSlice S10x10 ![0, 0] gw slices_S16x10_S10x10_0_0
/-- Rows 10..15 of the 16 × 10 message weights. -/
def msgW1 (gw : FVec F S16x10 .f32) : FVec F S6x10 .f32 := extractStridedSlice S6x10 ![10, 0] gw slices_S16x10_S6x10_10_0
/-- Rows 0..9 of the 20 × 10 update weights. -/
def updW0 (uw : FVec F S20x10 .f32) : FVec F S10x10 .f32 := extractStridedSlice S10x10 ![0, 0] uw slices_S20x10_S10x10_0_0
/-- Rows 10..19 of the 20 × 10 update weights. -/
def updW1 (uw : FVec F S20x10 .f32) : FVec F S10x10 .f32 := extractStridedSlice S10x10 ![10, 0] uw slices_S20x10_S10x10_10_0

/-- The source indices as the gather takes them: a negative index counted from the end (`src + 200000`), as a column. -/
def startIdx (src : IVec S6400000 32) : IVec S6400000x1 32 :=
  broadcastInDim S6400000x1 ![0] bcast_S6400000_S6400000x1_0
    (select (cmpi .slt src (broadcastInDim S6400000 ![] bcast_S_S6400000 (constantI S_ 32 0#32)))
      (addi src (broadcastInDim S6400000 ![] bcast_S_S6400000 (constantI S_ 32 200000#32))) src)

/-- Per edge, whether its start index lies in 0 … 199999. -/
def inRange (i : IVec S6400000x1 32) : IVec S6400000 1 :=
  Host.reduce IntOp.andi
    (andi (cmpi .sge i (broadcastInDim S6400000x1 ![] bcast_S_S6400000x1 (constantI S_ 32 0#32)))
      (cmpi .sle i (broadcastInDim S6400000x1 ![0, 1] bcast_S1x1_S6400000x1_0_1
        (broadcastInDim S1x1 ![1] bcast_S1_S1x1_1 (constantI S1 32 199999#32)))))
    (constantI S_ 1 1#1) reducesTo_S6400000x1_S6400000_d1 h_S_

/-- The plain gather of the rows of `h` at the start indices (a start index is clamped into the array). -/
def gatherRows (h : FVec F S200000x10 .f32) (i : IVec S6400000x1 32) : FVec F S6400000x10 .f32 :=
  Host.gather gather_S200000x10_S6400000x1_S6400000x10_1_0_n_n_0_1_110 h i

/-- The kernel program's gather: the row where the start index is in range, the quiet-NaN word elsewhere. -/
def takeK (h : FVec F S200000x10 .f32) (src : IVec S6400000 32) : FVec F S6400000x10 .f32 :=
  select (broadcastInDim S6400000x10 ![0] bcast_S6400000_S6400000x10_0 (inRange (startIdx src)))
    (gatherRows h (startIdx src))
    (broadcastInDim S6400000x10 ![] bcast_S_S6400000x10 (constant S_ .f32 0x7FC00000#32))

/-- The messages summed into their destination rows, from zero. -/
def sumInto (msg : FVec F S6400000x10 .f32) (dst : IVec S6400000 32) : FVec F S200000x10 .f32 :=
  Host.scatterAdd scatter_S200000x10_S6400000x1_S6400000x10_1_0_0_1
    (broadcastInDim S200000x10 ![] bcast_S_S200000x10 (constant S_ .f32 0x00000000#32))
    (broadcastInDim S6400000x1 ![0] bcast_S6400000_S6400000x1_0 dst) msg

end Cert.KernelIdeal.KValue

end
-- ==== Proof.Layers.lean ====
/-
  The three dense layers of the message-passing network, each as ONE function of whole arrays over the extended reals,
  index by index. With N = 200000 nodes, E = 6400000 edges and hidden width 10:

    embed  v w            (n, j) = lrelu (∑ k < 82, v (n, k) · w (k, j))
    message g e a b       (e, j) = lrelu (∑ k < 10, g (e, k) · a (k, j) + ∑ k < 6, e (e, k) · b (k, j))
    update h s a b        (n, j) = lrelu (∑ k < 10, h (n, k) · a (k, j) + ∑ k < 10, s (n, k) · b (k, j))

  where lrelu y = y for 0 ≤ y and c · y otherwise, c the binary32 number nearest one tenth. The message and update
  layers take their weight matrix as its two row blocks (rows 0..9, and the rows from 10 on): `rowsFrom` reads such a
  block out of the whole matrix. Nothing here mentions a program.
-/
import Idealize.ShloMosaic.PureOps.Ideal
import Idealize.ShloMosaic.PureOps.Ideal.Laws
import Idealize.ShloMosaic.Lib.ValueIdx

noncomputable section

open scoped BigOperators

namespace Cert.Layers

open Idealize.ShloMosaic Idealize.ShloMosaic.ValueIdx

/-- A matrix of extended reals with `r` rows and `c` columns, as the programs' arrays are. -/
abbrev Mat (r c : Nat) : Type := (⟨2, ![r, c]⟩ : Shape).Idx → EReal

/-- The slope below zero: the binary32 number nearest one tenth. -/
def slope : EReal := Ideal.ofBits .f32 0x3DCCCCCD#32

/-- The leaky rectifier on the extended reals. -/
def lrelu (y : EReal) : EReal := if 0 ≤ y then y else slope * y

/-- Both programs spell the rectifier as a select on the comparison `y ≥ 0` between `y` and `slope · y`. -/
theorem select_ge_zero (y : EReal) :
    Scalar.select (FloatOps.cmpf (F := Ideal) (φ := .f32) .oge y (Ideal.ofBits .f32 0x00000000#32)) y
      (Ideal.ofBits .f32 0x3DCCCCCD#32 * y) = lrelu y := by
  rw [Ideal.cmpf_def, Ideal.ofBits_zero_f32]
  unfold lrelu slope Ideal.cmp Scalar.select
  by_cases h : (0 : EReal) ≤ y <;> simp [h]

/-- The embedding layer at a node and a hidden unit. -/
def embedAt (v : Mat 200000 82) (w : Mat 82 10) (n : Fin 200000) (j : Fin 10) : EReal :=
  lrelu (∑ k : Fin 82, v (ix2 n k) * w (ix2 k j))

/-- The embedding layer: the rectified product of the node features with the embedding weights. -/
def embed (v : Mat 200000 82) (w : Mat 82 10) : Mat 200000 10 :=
  fun i => embedAt v w ⟨(i 0).val, idx2_lt0 i⟩ ⟨(i 1).val, idx2_lt1 i⟩

theorem embed_ix2 (v : Mat 200000 82) (w : Mat 82 10) (n : Fin 200000) (j : Fin 10) :
    embed v w (ix2 n j) = embedAt v w n j := rfl

/-- The message layer at an edge and a hidden unit: the gathered source row against the first weight block plus the
    edge's own features against the second. -/
def messageAt (g : Mat 6400000 10) (ef : Mat 6400000 6) (a : Mat 10 10) (b : Mat 6 10) (e : Fin 6400000) (j : Fin 10) : EReal :=
  lrelu (∑ k : Fin 10, g (ix2 e k) * a (ix2 k j) + ∑ k : Fin 6, ef (ix2 e k) * b (ix2 k j))

/-- The message layer. -/
def message (g : Mat 6400000 10) (ef : Mat 6400000 6) (a : Mat 10 10) (b : Mat 6 10) : Mat 6400000 10 :=
  fun i => messageAt g ef a b ⟨(i 0).val, idx2_lt0 i⟩ ⟨(i 1).val, idx2_lt1 i⟩

theorem message_ix2 (g : Mat 6400000 10) (ef : Mat 6400000 6) (a : Mat 10 10) (b : Mat 6 10) (e : Fin 6400000) (j : Fin 10) :
    message g ef a b (ix2 e j) = messageAt g ef a b e j := rfl

/-- The update layer at a node and a hidden unit: the node's own state against the first weight block plus the sum of
    its incoming messages against the second. -/
def updateAt (h : Mat 200000 10) (s : Mat 200000 10) (a : Mat 10 10) (b : Mat 10 10) (n : Fin 200000) (j : Fin 10) : EReal :=
  lrelu (∑ k : Fin 10, h (ix2 n k) * a (ix2 k j) + ∑ k : Fin 10, s (ix2 n k) * b (ix2 k j))

/-- The update layer. -/
def update (h : Mat 200000 10) (s : Mat 200000 10) (a : Mat 10 10) (b : Mat 10 10) : Mat 200000 10 :=
  fun i => updateAt h s a b ⟨(i 0).val, idx2_lt0 i⟩ ⟨(i 1).val, idx2_lt1 i⟩

theorem update_ix2 (h : Mat 200000 10) (s : Mat 200000 10) (a : Mat 10 10) (b : Mat 10 10) (n : Fin 200000) (j : Fin 10) :
    update h s a b (ix2 n j) = updateAt h s a b n j := rfl

/-- Rows `o, o + 1, …, o + r - 1` of a matrix of `R` rows, as a matrix of `r` rows. -/
def rowsFrom {R c : Nat} (o r : Nat) (h : o + r ≤ R) (w : Mat R c) : Mat r c :=
  fun i => w (ix2 ⟨o + (i 0).val, by have := idx2_lt0 i; omega⟩ ⟨(i 1).val, idx2_lt1 i⟩)

theorem rowsFrom_ix2 {R c : Nat} (o r : Nat) (h : o + r ≤ R) (w : Mat R c) (k : Fin r) (j : Fin c) :
    rowsFrom o r h w (ix2 k j) = w (ix2 ⟨o + k.val, by have := k.isLt; omega⟩ j) := rfl

/-- A sum over `a + b` terms is the sum of its first `a` and its last `b`: what joins one product against a whole weight
    matrix to the two products against its row blocks. It holds in any commutative monoid, so on the extended reals
    with no finiteness assumed. -/
theorem sum_split (a b : Nat) (f : Fin (a + b) → EReal) :
    ∑ k : Fin (a + b), f k = ∑ k : Fin a, f (Fin.castAdd b k) + ∑ k : Fin b, f (Fin.natAdd a k) :=
  Fin.sum_univ_add f

end Cert.Layers

end
-- ==== Proof.EmbedValue.lean ====
/-
  The embedding kernel's output array, whole: 25 row blocks of 8000 nodes, each the rectified product of that block of
  the node features with the whole embedding matrix, together are the embedding layer of the whole feature array.
-/
import proofs.«409437_j15616501088483_1_alg».proof.Proof.Gen.KernelIdeal.Frame
import proofs.«409437_j15616501088483_1_alg».proof.Proof.Layers
import Idealize.ShloMosaic.Lib.Pipeline.Value
import Idealize.ShloMosaic.Lib.ValueIdx
import Idealize.ShloMosaic.PureOps.Ideal.Laws

set_option maxRecDepth 16384

noncomputable section

namespace Cert.KernelIdeal.KValue

open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b))

/-! ## The product of a block of 8000 rows with the weight matrix, entry by entry

The contraction of the product runs over one axis, the 82 feature columns. At output entry (p, q) and contraction
position k the left operand is read at (p, k) and the right operand at (k, q): four coordinate facts, one per operand axis. -/

/-- The left operand's row is the output's row. -/
theorem lhs_row (i : S8000x10.Idx) (r : dot_S8000x82_S82x10_S8000x10_1_0_0_1_n_n.contr.Idx) :
    (dot_S8000x82_S82x10_S8000x10_1_0_0_1_n_n.lhsIdx i r 0).val = (i 0).val := by
  unfold DotDims.lhsIdx
  rw [dif_neg (show ¬(0 : Fin S8000x82.rank) ∈ dot_S8000x82_S82x10_S8000x10_1_0_0_1_n_n.lhsBatch by decide),
    dif_pos (show (0 : Fin S8000x82.rank) ∈ dot_S8000x82_S82x10_S8000x10_1_0_0_1_n_n.lhsNonContracting by decide)]
  rfl

/-- The left operand's column is the contraction position. -/
theorem lhs_col (i : S8000x10.Idx) (r : dot_S8000x82_S82x10_S8000x10_1_0_0_1_n_n.contr.Idx) :
    (dot_S8000x82_S82x10_S8000x10_1_0_0_1_n_n.lhsIdx i r 1).val = (r ⟨0, by decide⟩).val :=
  dot_S8000x82_S82x10_S8000x10_1_0_0_1_n_n.lhsIdx_val_of_single rfl i r

/-- The right operand's row is the contraction position. -/
theorem rhs_row (i : S8000x10.Idx) (r : dot_S8000x82_S82x10_S8000x10_1_0_0_1_n_n.contr.Idx) :
    (dot_S8000x82_S82x10_S8000x10_1_0_0_1_n_n.rhsIdx i r 0).val = (r ⟨0, by decide⟩).val :=
  dot_S8000x82_S82x10_S8000x10_1_0_0_1_n_n.rhsIdx_val_of_single rfl i r

/-- The right operand's column is the output's column. -/
theorem rhs_col (i : S8000x10.Idx) (r : dot_S8000x82_S82x10_S8000x10_1_0_0_1_n_n.contr.Idx) :
    (dot_S8000x82_S82x10_S8000x10_1_0_0_1_n_n.rhsIdx i r 1).val = (i 1).val := by
  unfold DotDims.rhsIdx
  rw [dif_neg (show ¬(1 : Fin S82x10.rank) ∈ dot_S8000x82_S82x10_S8000x10_1_0_0_1_n_n.rhsBatch by decide),
    dif_pos (show (1 : Fin S82x10.rank) ∈ dot_S8000x82_S82x10_S8000x10_1_0_0_1_n_n.rhsNonContracting by decide)]
  rfl

/-- The matrix product accumulated onto zero, at entry (p, q): the sum over the 82 feature columns of row p of the left
    operand against column q of the right one. -/
theorem product_apply (a : FVec Ideal S8000x82 .bf16) (b : FVec Ideal S82x10 .bf16) (p : Fin 8000) (q : Fin 10) :
    matmul dot_S8000x82_S82x10_S8000x10_1_0_0_1_n_n none a b (constant (F := Ideal) S8000x10 .f32 0x00000000#32) (ix2 p q)
      = ∑ k : Fin 82, a (ix2 p k) * b (ix2 k q) := by
  refine (Ideal.matmul_constant_zero_apply dot_S8000x82_S82x10_S8000x10_1_0_0_1_n_n none a b (ix2 p q)).trans ?_
  rw [← Equiv.sum_comp (contrEquiv1 dot_S8000x82_S82x10_S8000x10_1_0_0_1_n_n 82 rfl rfl).symm]
  refine Finset.sum_congr rfl fun k _ => ?_
  have hk := contrEquiv1_symm_val dot_S8000x82_S82x10_S8000x10_1_0_0_1_n_n 82 rfl rfl k
  have el : dot_S8000x82_S82x10_S8000x10_1_0_0_1_n_n.lhsIdx (ix2 p q) ((contrEquiv1 dot_S8000x82_S82x10_S8000x10_1_0_0_1_n_n 82 rfl rfl).symm k) = ix2 p k :=
    funext fun d => Fin.ext (by
      match d with
      | ⟨0, _⟩ => exact lhs_row _ _
      | ⟨1, _⟩ => exact (lhs_col _ _).trans hk)
  have er : dot_S8000x82_S82x10_S8000x10_1_0_0_1_n_n.rhsIdx (ix2 p q) ((contrEquiv1 dot_S8000x82_S82x10_S8000x10_1_0_0_1_n_n 82 rfl rfl).symm k) = ix2 k q :=
    funext fun d => Fin.ext (by
      match d with
      | ⟨0, _⟩ => exact (rhs_row _ _).trans hk
      | ⟨1, _⟩ => exact rhs_col _ _)
  rw [el, er]

/-! ## The kernel's stored value, entry by entry -/

/-- The select between y and a tenth of y on the comparison y ≥ 0, entry by entry, is the leaky rectifier of y's entry. -/
theorem rectified_apply (y : FVec Ideal S8000x10 .f32) (i : S8000x10.Idx) :
    select (cmpf .oge y (broadcast S8000x10 (Scalar.ofBits (F := Ideal) .f32 0x00000000#32))) y
      (mulf (broadcast S8000x10 (Scalar.ofBits (F := Ideal) .f32 0x3DCCCCCD#32)) y) i = Cert.Layers.lrelu (y i) :=
  Cert.Layers.select_ge_zero (y i)

/-- What the kernel stores, at entry (p, q) of its block: the rectified sum over the 82 feature columns of the feature
    block's row p against the weight matrix's column q. Rounding to the narrower format is the identity on the extended reals. -/
theorem stored_apply (x0 : Vec Ideal S8000x82 .f32) (x1 : Vec Ideal S82x10 .f32) (p : Fin 8000) (q : Fin 10) :
    k0_pay1 (F := Ideal) x0 x1 (ix2 p q) = Cert.Layers.lrelu (∑ k : Fin 82, x0 (ix2 p k) * x1 (ix2 k q)) := by
  unfold k0_pay1
  exact (rectified_apply _ (ix2 p q)).trans (congrArg Cert.Layers.lrelu (product_apply _ _ p q))

/-! ## From the 25 blocks to the whole array -/

/-- The zero offsets of a whole-buffer access, as the constant function. -/
theorem zero_offsets : (![0, 0] : Fin 2 → Nat) = fun _ => 0 := funext fun a => by fin_cases a <;> rfl

/-- The block indices at grid point t, decided over the 25 points: the feature window and the output window are at row
    block t, column block 0; the weight window is the one whole block (0, 0) at every point. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature window's block at point t is rows 8000 t … 8000 t + 7999 of the node features, all 82 columns. -/
theorem features_block (c : Dev nD) (t : Fin cfg0.N) (x : S8000x82.Idx) (i : S200000x82.Idx)
    (h0 : (i 0).val = 8000 * t.val + (x 0).val) (h1 : (i 1).val = (x 1).val) :
    (iblk0 V c 0 t : Vec Ideal S8000x82 .f32) x = (V c main_arg0 : S200000x82.Idx → EReal) i := by
  obtain ⟨e0, e1, -⟩ := block_indices t
  unfold iblk0
  rw [View.read_apply]
  show V c main_arg0 _ = V c main_arg0 _
  congr 1
  funext a
  apply Fin.ext
  match a with
  | ⟨0, _⟩ => show win0_0.index t (0 : Fin 2) * 8000 + 1 * (x 0).val = (i 0).val; rw [e0, h0]; omega
  | ⟨1, _⟩ => show win0_0.index t (1 : Fin 2) * 82 + 1 * (x 1).val = (i 1).val; rw [e1, h1]; omega

/-- The weight window's block at every point is the whole embedding matrix. -/
theorem weights_block (c : Dev nD) (t : Fin cfg0.N) (x : S82x10.Idx) (i : S82x10.Idx)
    (h0 : (i 0).val = (x 0).val) (h1 : (i 1).val = (x 1).val) :
    (iblk0 V c 1 t : Vec Ideal S82x10 .f32) x = (V c main_arg4 : S82x10.Idx → EReal) i := by
  obtain ⟨-, -, e2, e3, -⟩ := block_indices t
  unfold iblk0
  rw [View.read_apply]
  show V c main_arg4 _ = V c main_arg4 _
  congr 1
  funext a
  apply Fin.ext
  match a with
  | ⟨0, _⟩ => show win0_1.index t (0 : Fin 2) * 82 + 1 * (x 0).val = (i 0).val; rw [e2, h0]; omega
  | ⟨1, _⟩ => show win0_1.index t (1 : Fin 2) * 10 + 1 * (x 1).val = (i 1).val; rw [e3, h1]; omega

/-- What the kernel stores at a block entry j, with the entry's coordinates read off j. -/
theorem stored_at (x0 : Vec Ideal S8000x82 .f32) (x1 : Vec Ideal S82x10 .f32) (j : S8000x10.Idx) :
    k0_pay1 (F := Ideal) x0 x1 j
      = Cert.Layers.lrelu (∑ k : Fin 82, x0 (ix2 ⟨(j 0).val, idx2_lt0 j⟩ k) * x1 (ix2 k ⟨(j 1).val, idx2_lt1 j⟩)) := by
  obtain ⟨p, q, rfl⟩ : ∃ (p : Fin 8000) (q : Fin 10), j = ix2 p q := ⟨j 0, j 1, eq_ix2 j⟩
  exact stored_apply x0 x1 p q

/-- What point t computes at entry j of its block is the embedding layer of the whole arrays at the array entry i that
    sits at row 8000 t + (j's row) and j's column: the feature block's rows are the array's rows from 8000 t on, and the
    weight block is the whole matrix, so the two sums over the 82 feature columns agree term by term. -/
theorem block_entry (c : Dev nD) (t : Fin cfg0.N) (j : S8000x10.Idx) (i : S200000x10.Idx)
    (h0 : (i 0).val = 8000 * t.val + (j 0).val) (h1 : (i 1).val = (j 1).val) :
    k0_pay1 (F := Ideal) (iblk0 V c 0 t) (iblk0 V c 1 t) j = Cert.Layers.embed (V c main_arg0) (V c main_arg4) i := by
  refine (stored_at _ _ j).trans ?_
  show Cert.Layers.lrelu _ = Cert.Layers.lrelu _
  refine congrArg Cert.Layers.lrelu (Finset.sum_congr rfl fun k _ => ?_)
  exact congrArg₂ (· * ·) (features_block V c t _ _ h0 rfl) (weights_block V c t _ _ rfl h1)

/-- What grid point t writes back is block t of the embedding layer of the whole arrays. -/
theorem written_back (c : Dev nD) (t : Fin cfg0.N) :
    (dat0 (F := Ideal) V c).flushed 2 t
      = ((cfg0.win 2).blk t).view.read (Elt Ideal) (Cert.Layers.embed (V c main_arg0) (V c main_arg4)) := by
  show (cfg0.win 2).cut (grid0.coords t) ((dat0 V c).after 2 t) = _
  rw [after0_2]
  unfold out0_2
  rw [View.canon_unit_zero zero_offsets]
  simp only [View.ld_unit_zero (S := S8000x82) zero_offsets, View.ld_unit_zero (S := S82x10) zero_offsets]
  obtain ⟨-, -, -, -, e4, e5⟩ := block_indices t
  funext j
  rw [View.read_apply]
  refine block_entry V c t j _ ?_ ?_
  · show win0_2.index t (0 : Fin 2) * 8000 + 1 * (j 0).val = 8000 * t.val + (j 0).val
    rw [e4]; omega
  · show win0_2.index t (1 : Fin 2) * 10 + 1 * (j 1).val = (j 1).val
    rw [e5]; omega

/-- An entry of the output array is in point t's block iff each coordinate is in the block's range on its axis. -/
theorem mem_block (t : Fin cfg0.N) (i : S200000x10.Idx) :
    i ∈ ((cfg0.win 2).blk t).view.set ↔ ∀ a : Fin 2, win0_2.index t a * S8000x10.size a ≤ (i a).val
      ∧ (i a).val < win0_2.index t a * S8000x10.size a + S8000x10.size a := by
  show i ∈ ((View.whole main_v0).slice (win0_2.rect t)).set ↔ _
  rw [View.set_slice_whole, Rect.mem_set_unit]
  exact Iff.rfl

/-- Every entry of the output array is in some point's block: row r is in the block of point r / 8000. -/
theorem covered (i : S200000x10.Idx) :
    ∃ t : Fin cfg0.N, (cfg0.win 2).flush t = true ∧ i ∈ ((cfg0.win 2).blk t).view.set := by
  have hi0 : (i 0).val < 200000 := (i 0).isLt
  have hi1 : (i 1).val < 10 := (i 1).isLt
  obtain ⟨t, ht⟩ : ∃ t : Fin cfg0.N, t.val = (i 0).val / 8000 :=
    ⟨⟨(i 0).val / 8000, lt_of_lt_of_eq (by omega : (i 0).val / 8000 < 25) N_0.symm⟩, rfl⟩
  obtain ⟨-, -, -, -, e4, e5⟩ := block_indices t
  refine ⟨t, flush0_2 t, ?_⟩
  rw [mem_block]
  intro a
  match a with
  | ⟨0, _⟩ =>
    show win0_2.index t (0 : Fin 2) * 8000 ≤ (i 0).val ∧ (i 0).val < win0_2.index t (0 : Fin 2) * 8000 + 8000
    omega
  | ⟨1, _⟩ =>
    show win0_2.index t (1 : Fin 2) * 10 ≤ (i 1).val ∧ (i 1).val < win0_2.index t (1 : Fin 2) * 10 + 10
    omega

/-- After the embedding kernel has run over its 25 grid points from buffer contents `V`, its output array is the embedding
    layer of the node features and the embedding weights as `V` holds them. -/
theorem embed_final (c : Dev nD) :
    (dat0 (F := Ideal) V c).arrAt 2 cfg0.N = Cert.Layers.embed (V c main_arg0) (V c main_arg4) := by
  exact (dat0 V c).arrAt_eq_of_cover 2 _ (fun t _ => written_back V c t) covered

end Cert.KernelIdeal.KValue

end
-- ==== Proof.MessageValue1.lean ====
/-
  The first message kernel's output array, whole: 1000 row blocks of 6400 edges, each the rectified sum of two products
  (gathered source rows against the first weight block, edge features against the second), together are the message
  layer of the whole arrays.
-/
import proofs.«409437_j15616501088483_1_alg».proof.Proof.Gen.KernelIdeal.Frame
import proofs.«409437_j15616501088483_1_alg».proof.Proof.Layers
import Idealize.ShloMosaic.Lib.Pipeline.Value
import Idealize.ShloMosaic.Lib.ValueIdx
import Idealize.ShloMosaic.PureOps.Ideal.Laws

set_option maxRecDepth 16384

noncomputable section

namespace Cert.KernelIdeal.KValue

open Idealize.ShloMosaic Idealize.ShloMosaic.TcCoe Idealize.ShloMosaic.ValueIdx Idealize.SL.Sem Cert.KernelIdeal Cert.KernelIdeal.Gen
open Idealize.ShloMosaic.Pipeline (Dat)
open scoped BigOperators

/-! ## The two products read at an entry

Each product contracts the left factor's column axis against the right factor's row axis: at output entry (p, q) and
contraction position k the left factor is read at (p, k) and the right factor at (k, q). -/

/-- Left factor of the product against the first weight block: its row is the output's row … -/
private theorem lhs_rows_row (i : S6400x10.Idx) (r : dot_S6400x10_S10x10_S6400x10_1_0_0_1_n_n.contr.Idx) :
    (dot_S6400x10_S10x10_S6400x10_1_0_0_1_n_n.lhsIdx i r 0).val = (i 0).val := by
  unfold DotDims.lhsIdx
  rw [dif_neg (show ¬(0 : Fin S6400x10.rank) ∈ dot_S6400x10_S10x10_S6400x10_1_0_0_1_n_n.lhsBatch by decide),
    dif_pos (show (0 : Fin S6400x10.rank) ∈ dot_S6400x10_S10x10_S6400x10_1_0_0_1_n_n.lhsNonContracting by decide)]
  rfl
/-- … and its column the contraction position. -/
private theorem lhs_rows_col (i : S6400x10.Idx) (r : dot_S6400x10_S10x10_S6400x10_1_0_0_1_n_n.contr.Idx) :
    (dot_S6400x10_S10x10_S6400x10_1_0_0_1_n_n.lhsIdx i r 1).val = (r ⟨0, by decide⟩).val :=
  dot_S6400x10_S10x10_S6400x10_1_0_0_1_n_n.lhsIdx_val_of_single rfl i r
/-- Right factor: its row is the contraction position … -/
private theorem rhs_rows_row (i : S6400x10.Idx) (r : dot_S6400x10_S10x10_S6400x10_1_0_0_1_n_n.contr.Idx) :
    (dot_S6400x10_S10x10_S6400x10_1_0_0_1_n_n.rhsIdx i r 0).val = (r ⟨0, by decide⟩).val :=
  dot_S6400x10_S10x10_S6400x10_1_0_0_1_n_n.rhsIdx_val_of_single rfl i r
/-- … and its column the output's column. -/
private theorem rhs_rows_col (i : S6400x10.Idx) (r : dot_S6400x10_S10x10_S6400x10_1_0_0_1_n_n.contr.Idx) :
    (dot_S6400x10_S10x10_S6400x10_1_0_0_1_n_n.rhsIdx i r 1).val = (i 1).val := by
  unfold DotDims.rhsIdx
  rw [dif_neg (show ¬(1 : Fin S10x10.rank) ∈ dot_S6400x10_S10x10_S6400x10_1_0_0_1_n_n.rhsBatch by decide),
    dif_pos (show (1 : Fin S10x10.rank) ∈ dot_S6400x10_S10x10_S6400x10_1_0_0_1_n_n.rhsNonContracting by decide)]
  rfl

/-- The product of a block of rows with the first weight block, into the zero block, at entry (p, q). -/
private theorem rows_product_apply (x : FVec Ideal S6400x10 .bf16) (w : FVec Ideal S10x10 .bf16) (p : Fin 6400) (q : Fin 10) :
    matmul (F := Ideal) dot_S6400x10_S10x10_S6400x10_1_0_0_1_n_n none x w (constant (F := Ideal) S6400x10 .f32 0x00000000#32) (ix2 p q)
      = ∑ k : Fin 10, x (ix2 p k) * w (ix2 k q) := by
  simp only [matmul]
  rw [Ideal.matmul_constant_zero_apply, ← Equiv.sum_comp (contrEquiv1 dot_S6400x10_S10x10_S6400x10_1_0_0_1_n_n 10 rfl rfl).symm]
  refine Finset.sum_congr rfl fun k _ => ?_
  have hk := contrEquiv1_symm_val dot_S6400x10_S10x10_S6400x10_1_0_0_1_n_n 10 rfl rfl k
  have el : dot_S6400x10_S10x10_S6400x10_1_0_0_1_n_n.lhsIdx (ix2 p q) ((contrEquiv1 dot_S6400x10_S10x10_S6400x10_1_0_0_1_n_n 10 rfl rfl).symm k) = ix2 p k :=
    funext fun a => Fin.ext (by
      match a with
      | ⟨0, _⟩ => exact lhs_rows_row _ _
      | ⟨1, _⟩ => exact (lhs_rows_col _ _).trans hk)
  have er : dot_S6400x10_S10x10_S6400x10_1_0_0_1_n_n.rhsIdx (ix2 p q) ((contrEquiv1 dot_S6400x10_S10x10_S6400x10_1_0_0_1_n_n 10 rfl rfl).symm k) = ix2 k q :=
    funext fun a => Fin.ext (by
      match a with
      | ⟨0, _⟩ => exact (rhs_rows_row _ _).trans hk
      | ⟨1, _⟩ => exact rhs_rows_col _ _)
  rw [el, er]

/-- Left factor of the product against the second weight block: its row is the output's row … -/
private theorem lhs_feat_row (i : S6400x10.Idx) (r : dot_S6400x6_S6x10_S6400x10_1_0_0_1_n_n.contr.Idx) :
    (dot_S6400x6_S6x10_S6400x10_1_0_0_1_n_n.lhsIdx i r 0).val = (i 0).val := by
  unfold DotDims.lhsIdx
  rw [dif_neg (show ¬(0 : Fin S6400x6.rank) ∈ dot_S6400x6_S6x10_S6400x10_1_0_0_1_n_n.lhsBatch by decide),
    dif_pos (show (0 : Fin S6400x6.rank) ∈ dot_S6400x6_S6x10_S6400x10_1_0_0_1_n_n.lhsNonContracting by decide)]
  rfl
/-- … and its column the contraction position. -/
private theorem lhs_feat_col (i : S6400x10.Idx) (r : dot_S6400x6_S6x10_S6400x10_1_0_0_1_n_n.contr.Idx) :
    (dot_S6400x6_S6x10_S6400x10_1_0_0_1_n_n.lhsIdx i r 1).val = (r ⟨0, by decide⟩).val :=
  dot_S6400x6_S6x10_S6400x10_1_0_0_1_n_n.lhsIdx_val_of_single rfl i r
/-- Right factor: its row is the contraction position … -/
private theorem rhs_feat_row (i : S6400x10.Idx) (r : dot_S6400x6_S6x10_S6400x10_1_0_0_1_n_n.contr.Idx) :
    (dot_S6400x6_S6x10_S6400x10_1_0_0_1_n_n.rhsIdx i r 0).val = (r ⟨0, by decide⟩).val :=
  dot_S6400x6_S6x10_S6400x10_1_0_0_1_n_n.rhsIdx_val_of_single rfl i r
/-- … and its column the output's column. -/
private theorem rhs_feat_col (i : S6400x10.Idx) (r : dot_S6400x6_S6x10_S6400x10_1_0_0_1_n_n.contr.Idx) :
    (dot_S6400x6_S6x10_S6400x10_1_0_0_1_n_n.rhsIdx i r 1).val = (i 1).val := by
  unfold DotDims.rhsIdx
  rw [dif_neg (show ¬(1 : Fin S6x10.rank) ∈ dot_S6400x6_S6x10_S6400x10_1_0_0_1_n_n.rhsBatch by decide),
    dif_pos (show (1 : Fin S6x10.rank) ∈ dot_S6400x6_S6x10_S6400x10_1_0_0_1_n_n.rhsNonContracting by decide)]
  rfl

/-- The product of a block of edge features with the second weight block, into the zero block, at entry (p, q). -/
private theorem feat_product_apply (x : FVec Ideal S6400x6 .bf16) (w : FVec Ideal S6x10 .bf16) (p : Fin 6400) (q : Fin 10) :
    matmul (F := Ideal) dot_S6400x6_S6x10_S6400x10_1_0_0_1_n_n none x w (constant (F := Ideal) S6400x10 .f32 0x00000000#32) (ix2 p q)
      = ∑ k : Fin 6, x (ix2 p k) * w (ix2 k q) := by
  simp only [matmul]
  rw [Ideal.matmul_constant_zero_apply, ← Equiv.sum_comp (contrEquiv1 dot_S6400x6_S6x10_S6400x10_1_0_0_1_n_n 6 rfl rfl).symm]
  refine Finset.sum_congr rfl fun k _ => ?_
  have hk := contrEquiv1_symm_val dot_S6400x6_S6x10_S6400x10_1_0_0_1_n_n 6 rfl rfl k
  have el : dot_S6400x6_S6x10_S6400x10_1_0_0_1_n_n.lhsIdx (ix2 p q) ((contrEquiv1 dot_S6400x6_S6x10_S6400x10_1_0_0_1_n_n 6 rfl rfl).symm k) = ix2 p k :=
    funext fun a => Fin.ext (by
      match a with
      | ⟨0, _⟩ => exact lhs_feat_row _ _
      | ⟨1, _⟩ => exact (lhs_feat_col _ _).trans hk)
  have er : dot_S6400x6_S6x10_S6400x10_1_0_0_1_n_n.rhsIdx (ix2 p q) ((contrEquiv1 dot_S6400x6_S6x10_S6400x10_1_0_0_1_n_n 6 rfl rfl).symm k) = ix2 k q :=
    funext fun a => Fin.ext (by
      match a with
      | ⟨0, _⟩ => exact (rhs_feat_row _ _).trans hk
      | ⟨1, _⟩ => exact rhs_feat_col _ _)
  rw [el, er]

/-! ## What the body stores, at an entry -/

/-- The body's stored block at entry (p, q): the rectified sum of the two products' entries there. The casts to an
    operand's own shape and the narrowing format changes are identities on the extended reals. -/
private theorem payload_apply (x0 : Vec Ideal S6400x10 .f32) (x1 : Vec Ideal S6400x6 .f32) (x2 : Vec Ideal S10x10 .f32) (x3 : Vec Ideal S6x10 .f32)
    (p : Fin 6400) (q : Fin 10) :
    k1_pay1 (F := Ideal) x0 x1 x2 x3 (ix2 p q)
      = Cert.Layers.lrelu (∑ k : Fin 10, x0 (ix2 p k) * x2 (ix2 k q) + ∑ k : Fin 6, x1 (ix2 p k) * x3 (ix2 k q)) := by
  unfold k1_pay1
  simp only [shapeCast_self]
  refine (select_apply _ _ _ _).trans ?_
  rw [cmpf_apply, mulf_apply, addf_apply, broadcast_apply, broadcast_apply, rows_product_apply, feat_product_apply]
  exact Cert.Layers.select_ge_zero _

variable (V : (c : Dev nD) → (b : Ref sig .tc) → Buf (Elt Ideal) ((c : Thread nD τ).loc b))

/-! ## From blocks to the array

The grid has 1000 points. At point t the gathered rows, the edge features and the output are at row block t (rows
6400·t … 6400·t + 6399, all columns); the two weight blocks are whole at every point. -/

private theorem origin_eq : (![0, 0] : Fin 2 → Nat) = fun _ => 0 := funext fun a => by fin_cases a <;> rfl

/-- The windows' index maps, evaluated once over the grid: the row-blocked windows sit at block (t, 0) at point t, the
    weight windows at block (0, 0). -/
private theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The gathered rows' block at point t, at (p, k), is the array at row 6400·t + p, column k. -/
private theorem rows_block_apply (c : Dev nD) (t : Fin cfg1.N) (p : Fin 6400) (k : Fin 10) (e : Fin 6400000)
    (he : e.val = 6400 * t.val + p.val) :
    (iblk1 V c 0 t : Vec Ideal S6400x10 .f32) (ix2 p k) = (V c main_v5 : S6400000x10.Idx → EReal) (ix2 e k) := by
  obtain ⟨h0, h1, -⟩ := index_facts t
  unfold iblk1
  rw [View.read_apply]
  show V c main_v5 _ = V c main_v5 _
  congr 1
  funext a
  apply Fin.ext
  match a with
  | ⟨0, _⟩ => show win1_0.index t (0 : Fin 2) * 6400 + 1 * p.val = e.val; rw [h0, he]; omega
  | ⟨1, _⟩ => show win1_0.index t (1 : Fin 2) * 10 + 1 * k.val = k.val; rw [h1]; omega

/-- The edge features' block at point t, at (p, k), is the array at row 6400·t + p, column k. -/
private theorem feat_block_apply (c : Dev nD) (t : Fin cfg1.N) (p : Fin 6400) (k : Fin 6) (e : Fin 6400000)
    (he : e.val = 6400 * t.val + p.val) :
    (iblk1 V c 1 t : Vec Ideal S6400x6 .f32) (ix2 p k) = (V c main_arg1 : S6400000x6.Idx → EReal) (ix2 e k) := by
  obtain ⟨-, -, h0, h1, -⟩ := index_facts t
  unfold iblk1
  rw [View.read_apply]
  show V c main_arg1 _ = V c main_arg1 _
  congr 1
  funext a
  apply Fin.ext
  match a with
  | ⟨0, _⟩ => show win1_1.index t (0 : Fin 2) * 6400 + 1 * p.val = e.val; rw [h0, he]; omega
  | ⟨1, _⟩ => show win1_1.index t (1 : Fin 2) * 6 + 1 * k.val = k.val; rw [h1]; omega

/-- The first weight block's window holds the whole block at every point. -/
private theorem first_weights_apply (c : Dev nD) (t : Fin cfg1.N) (k : Fin 10) (q : Fin 10) :
    (iblk1 V c 2 t : Vec Ideal S10x10 .f32) (ix2 k q) = (V c main_v1 : S10x10.Idx → EReal) (ix2 k q) := by
  obtain ⟨-, -, -, -, h0, h1, -⟩ := index_facts t
  unfold iblk1
  rw [View.read_apply]
  show V c main_v1 _ = V c main_v1 _
  congr 1
  funext a
  apply Fin.ext
  match a with
  | ⟨0, _⟩ => show win1_2.index t (0 : Fin 2) * 10 + 1 * k.val = k.val; rw [h0]; omega
  | ⟨1, _⟩ => show win1_2.index t (1 : Fin 2) * 10 + 1 * q.val = q.val; rw [h1]; omega

/-- The second weight block's window holds the whole block at every point. -/
private theorem second_weights_apply (c : Dev nD) (t : Fin cfg1.N) (k : Fin 6) (q : Fin 10) :
    (iblk1 V c 3 t : Vec Ideal S6x10 .f32) (ix2 k q) = (V c main_v2 : S6x10.Idx → EReal) (ix2 k q) := by
  obtain ⟨-, -, -, -, -, -, h0, h1, -⟩ := index_facts t
  unfold iblk1
  rw [View.read_apply]
  show V c main_v2 _ = V c main_v2 _
  congr 1
  funext a
  apply Fin.ext
  match a with
  | ⟨0, _⟩ => show win1_3.index t (0 : Fin 2) * 6 + 1 * k.val = k.val; rw [h0]; omega
  | ⟨1, _⟩ => show win1_3.index t (1 : Fin 2) * 10 + 1 * q.val = q.val; rw [h1]; omega

/-- What point t writes back is row block t of the message layer of the arrays as the kernel finds them. -/
private theorem flushed_eq (c : Dev nD) (t : Fin cfg1.N) :
    (dat1 (F := Ideal) V c).flushed 4 t = ((cfg1.win 4).blk t).view.read (Elt Ideal)
      (Cert.Layers.message (V c main_v5) (V c main_arg1) (V c main_v1) (V c main_v2)) := by
  show (cfg1.win 4).cut (grid1.coords t) ((dat1 V c).after 4 t) = _
  rw [after1_4]
  unfold out1_4
  rw [View.canon_unit_zero origin_eq]
  simp only [View.ld_unit_zero (S := S6400x10) origin_eq, View.ld_unit_zero (S := S6400x6) origin_eq,
    View.ld_unit_zero (S := S10x10) origin_eq, View.ld_unit_zero (S := S6x10) origin_eq]
  obtain ⟨-, -, -, -, -, -, -, -, h0, h1⟩ := index_facts t
  have ht : t.val < 1000 := Nat.lt_of_lt_of_eq t.isLt N_1
  funext j
  obtain ⟨p, q, rfl⟩ : ∃ (p : Fin 6400) (q : Fin 10), j = ix2 p q := ⟨j 0, j 1, eq_ix2 j⟩
  have hemb : ((cfg1.win 4).blk t).view.emb (ix2 p q) = (ix2 ⟨6400 * t.val + p.val, by omega⟩ q : S6400000x10.Idx) := by
    funext a
    apply Fin.ext
    match a with
    | ⟨0, _⟩ => show win1_4.index t (0 : Fin 2) * 6400 + 1 * p.val = 6400 * t.val + p.val; rw [h0]; omega
    | ⟨1, _⟩ => show win1_4.index t (1 : Fin 2) * 10 + 1 * q.val = q.val; rw [h1]; omega
  show k1_pay1 (F := Ideal) (iblk1 V c 0 t) (iblk1 V c 1 t) (iblk1 V c 2 t) (iblk1 V c 3 t) (ix2 p q)
    = Cert.Layers.message (V c main_v5) (V c main_arg1) (V c main_v1) (V c main_v2) (((cfg1.win 4).blk t).view.emb (ix2 p q))
  rw [hemb, Cert.Layers.message_ix2]
  refine (payload_apply (iblk1 V c 0 t) (iblk1 V c 1 t) (iblk1 V c 2 t) (iblk1 V c 3 t) p q).trans ?_
  unfold Cert.Layers.messageAt
  refine congrArg Cert.Layers.lrelu (congrArg₂ (· + ·) (Finset.sum_congr rfl fun k _ => ?_) (Finset.sum_congr rfl fun k _ => ?_))
  · exact congrArg₂ (· * ·) (rows_block_apply V c t p k _ rfl) (first_weights_apply V c t k q)
  · exact congrArg₂ (· * ·) (feat_block_apply V c t p k _ rfl) (second_weights_apply V c t k q)

/-- An index of the output array is in point t's block iff each coordinate is in the block's range on its axis. -/
private theorem mem_block (t : Fin cfg1.N) (i : S6400000x10.Idx) :
    i ∈ ((cfg1.win 4).blk t).view.set ↔ ∀ a : Fin 2, win1_4.index t a * S6400x10.size a ≤ (i a).val
      ∧ (i a).val < win1_4.index t a * S6400x10.size a + S6400x10.size a := by
  show i ∈ ((View.whole (Pipeline.arrRef spec1 4)).slice (win1_4.rect t)).set ↔ _
  rw [View.set_slice_whole, Rect.mem_set_unit]
  exact Iff.rfl

/-- Every row of the output array is in some point's block: row r is in block r / 6400. -/
private theorem covered (i : S6400000x10.Idx) :
    ∃ t : Fin cfg1.N, (cfg1.win 4).flush t = true ∧ i ∈ ((cfg1.win 4).blk t).view.set := by
  have hi0 : (i 0).val < 6400000 := (i 0).isLt
  have hi1 : (i 1).val < 10 := (i 1).isLt
  obtain ⟨t, ht⟩ : ∃ t : Fin cfg1.N, t.val = (i 0).val / 6400 :=
    ⟨⟨(i 0).val / 6400, by rw [show cfg1.N = 1000 from N_1]; omega⟩, rfl⟩
  obtain ⟨-, -, -, -, -, -, -, -, h0, h1⟩ := index_facts t
  refine ⟨t, flush1_4 t, ?_⟩
  rw [mem_block]
  intro a
  match a with
  | ⟨0, _⟩ =>
    show win1_4.index t (0 : Fin 2) * 6400 ≤ (i 0).val ∧ (i 0).val < win1_4.index t (0 : Fin 2) * 6400 + 6400
    rw [h0, ht]; omega
  | ⟨1, _⟩ =>
    show win1_4.index t (1 : Fin 2) * 10 ≤ (i 1).val ∧ (i 1).val < win1_4.index t (1 : Fin 2) * 10 + 10
    rw [h1]; omega

/-- After the message kernel of the first round has run over its 1000 grid points from buffer contents `V`, its output
    array is the message layer of the gathered rows, the edge features and the two weight blocks as `V` holds them. -/
theorem message_final1 (c : Dev nD) :
    (dat1 (F := Ideal) V c).arrAt 4 cfg1.N = Cert.Layers.message (V c main_v5) (V c main_arg1) (V c main_v1) (V c main_v2) :=
  (dat1 (F := Ideal) V c).arrAt_eq_of_cover 4 _ (fun t _ => flushed_eq V c t) covered

end Cert.KernelIdeal.KValue

end
-- ==== Proof.UpdateValue2.lean ====
/-
  The first update kernel's output array, whole: 25 row blocks of 8000 nodes, each the rectified sum of two products
  (node state against the first weight block, summed messages against the second), together are the update layer of the
  whole arrays.
-/
import proofs.«409437_j15616501088483_1_alg».proof.Proof.Gen.KernelIdeal.Frame
import proofs.«409437_j15616501088483_1_alg».proof.Proof.Layers
import Idealize.ShloMosaic.Lib.Pipeline.Value
import Idealize.ShloMosaic.Lib.ValueIdx
import Idealize.ShloMosaic.PureOps.Ideal.Laws

set_option maxRecDepth 16384

noncomputable section

namespace Cert.KernelIdeal.KValue

open Idealize.ShloMosaic Idealize.ShloMosaic.TcCoe Idealize.ShloMosaic.ValueIdx Idealize.SL.Sem Cert.KernelIdeal Cert.KernelIdeal.Gen
open Idealize.ShloMosaic.Pipeline (Dat)
open scoped BigOperators

variable (V : (c : Dev nD) → (b : Ref sig .tc) → Buf (Elt Ideal) ((c : Thread nD τ).loc b))

/-- Both offsets of a whole-block access are zero. -/
private theorem off_zero : (![0, 0] : Fin 2 → Nat) = fun _ => 0 := funext fun a => by fin_cases a <;> rfl

/-! ## The block product at an index

The dot record contracts the left operand's axis 1 against the right operand's axis 0; the left operand's axis 0 and the
right operand's axis 1 are free and are the output's two axes. So at output index (p, q) and contraction position k the
left operand is read at (p, k) and the right one at (k, q). -/

private theorem lhs_free (i : S8000x10.Idx) (r : dot_S8000x10_S10x10_S8000x10_1_0_0_1_n_n.contr.Idx) :
    (dot_S8000x10_S10x10_S8000x10_1_0_0_1_n_n.lhsIdx i r 0).val = (i 0).val := by
  unfold DotDims.lhsIdx
  rw [dif_neg (show ¬(0 : Fin S8000x10.rank) ∈ dot_S8000x10_S10x10_S8000x10_1_0_0_1_n_n.lhsBatch by decide), dif_pos (show (0 : Fin S8000x10.rank) ∈ dot_S8000x10_S10x10_S8000x10_1_0_0_1_n_n.lhsNonContracting by decide)]
  rfl

private theorem lhs_contracted (i : S8000x10.Idx) (r : dot_S8000x10_S10x10_S8000x10_1_0_0_1_n_n.contr.Idx) :
    (dot_S8000x10_S10x10_S8000x10_1_0_0_1_n_n.lhsIdx i r 1).val = (r ⟨0, by decide⟩).val :=
  dot_S8000x10_S10x10_S8000x10_1_0_0_1_n_n.lhsIdx_val_of_single rfl i r

private theorem rhs_contracted (i : S8000x10.Idx) (r : dot_S8000x10_S10x10_S8000x10_1_0_0_1_n_n.contr.Idx) :
    (dot_S8000x10_S10x10_S8000x10_1_0_0_1_n_n.rhsIdx i r 0).val = (r ⟨0, by decide⟩).val :=
  dot_S8000x10_S10x10_S8000x10_1_0_0_1_n_n.rhsIdx_val_of_single rfl i r

private theorem rhs_free (i : S8000x10.Idx) (r : dot_S8000x10_S10x10_S8000x10_1_0_0_1_n_n.contr.Idx) :
    (dot_S8000x10_S10x10_S8000x10_1_0_0_1_n_n.rhsIdx i r 1).val = (i 1).val := by
  unfold DotDims.rhsIdx
  rw [dif_neg (show ¬(1 : Fin S10x10.rank) ∈ dot_S8000x10_S10x10_S8000x10_1_0_0_1_n_n.rhsBatch by decide), dif_pos (show (1 : Fin S10x10.rank) ∈ dot_S8000x10_S10x10_S8000x10_1_0_0_1_n_n.rhsNonContracting by decide)]
  rfl

/-- A block product into the zero splat, at (p, q): row p of the left operand against column q of the right one. -/
private theorem block_product_apply {φ₁ φ₂ : FTy} (a : FVec Ideal S8000x10 φ₁) (b : FVec Ideal S10x10 φ₂) (p : Fin 8000) (q : Fin 10) :
    matmul (F := Ideal) dot_S8000x10_S10x10_S8000x10_1_0_0_1_n_n none a b (constant (F := Ideal) S8000x10 .f32 0x00000000#32) (ix2 p q)
      = ∑ k : Fin 10, a (ix2 p k) * b (ix2 k q) := by
  refine Eq.trans (Ideal.matmul_constant_zero_apply dot_S8000x10_S10x10_S8000x10_1_0_0_1_n_n none a b (ix2 p q)) ?_
  rw [← Equiv.sum_comp (contrEquiv1 dot_S8000x10_S10x10_S8000x10_1_0_0_1_n_n 10 rfl rfl).symm]
  refine Finset.sum_congr rfl fun k _ => ?_
  have hk := contrEquiv1_symm_val dot_S8000x10_S10x10_S8000x10_1_0_0_1_n_n 10 rfl rfl k
  have el : dot_S8000x10_S10x10_S8000x10_1_0_0_1_n_n.lhsIdx (ix2 p q) ((contrEquiv1 dot_S8000x10_S10x10_S8000x10_1_0_0_1_n_n 10 rfl rfl).symm k) = ix2 p k := funext fun a => Fin.ext (by
    match a with
    | ⟨0, _⟩ => exact lhs_free _ _
    | ⟨1, _⟩ => exact (lhs_contracted _ _).trans hk)
  have er : dot_S8000x10_S10x10_S8000x10_1_0_0_1_n_n.rhsIdx (ix2 p q) ((contrEquiv1 dot_S8000x10_S10x10_S8000x10_1_0_0_1_n_n 10 rfl rfl).symm k) = ix2 k q := funext fun a => Fin.ext (by
    match a with
    | ⟨0, _⟩ => exact (rhs_contracted _ _).trans hk
    | ⟨1, _⟩ => exact rhs_free _ _)
  rw [el, er]

/-! ## The body's result at an index -/

/-- The rectifier as the body spells it (a select on the comparison with the zero splat, between the value and the
    slope splat times the value), at an index. -/
private theorem rectified_apply (y : FVec Ideal S8000x10 .f32) (i : S8000x10.Idx) :
    select (cmpf .oge y (broadcast S8000x10 (FloatOps.ofBits (F := Ideal) .f32 0x00000000#32))) y
        (mulf (broadcast S8000x10 (FloatOps.ofBits (F := Ideal) .f32 0x3DCCCCCD#32)) y) i
      = Cert.Layers.lrelu (y i) :=
  Cert.Layers.select_ge_zero (y i)

/-- What the body stores, at row p and column q of its block: the rectified sum of row p of the two row-block operands
    against column q of the two weight blocks. The format changes are the identity on extended reals and each shape cast
    is to the operand's own shape. -/
private theorem payload_apply (x0 x1 : Vec Ideal S8000x10 .f32) (x2 x3 : Vec Ideal S10x10 .f32) (p : Fin 8000) (q : Fin 10) :
    (k2_pay1 (F := Ideal) x0 x1 x2 x3) (ix2 p q)
      = Cert.Layers.lrelu (∑ k : Fin 10, x0 (ix2 p k) * x2 (ix2 k q) + ∑ k : Fin 10, x1 (ix2 p k) * x3 (ix2 k q)) := by
  unfold k2_pay1
  simp only [shapeCast_self]
  refine (rectified_apply _ (ix2 p q)).trans ?_
  refine congrArg Cert.Layers.lrelu ?_
  refine (addf_apply _ _ _).trans ?_
  exact congrArg₂ (· + ·) (block_product_apply _ _ p q) (block_product_apply _ _ p q)

/-! ## Where the windows' blocks sit

At grid point t the two row-block inputs and the output are at block row t, column block 0; the two weight blocks are
whole at every point. -/

private theorem index_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Row p of the node-state block at point t is row 8000 t + p of the node state. -/
private theorem state_block_apply (c : Dev nD) (t : Fin cfg2.N) (p : Fin 8000) (k : Fin 10) (n : Fin 200000)
    (hn : n.val = 8000 * t.val + p.val) :
    (iblk2 (F := Ideal) V c 0 t : Vec Ideal S8000x10 .f32) (ix2 p k) = (V c main_v0 : S200000x10.Idx → EReal) (ix2 n k) := by
  obtain ⟨e0, e1, -⟩ := index_facts t
  unfold iblk2
  rw [View.read_apply]
  show V c main_v0 _ = V c main_v0 _
  congr 1
  funext a
  apply Fin.ext
  match a with
  | ⟨0, _⟩ => show win2_0.index t (0 : Fin 2) * 8000 + 1 * p.val = n.val; rw [e0, hn]; omega
  | ⟨1, _⟩ => show win2_0.index t (1 : Fin 2) * 10 + 1 * k.val = k.val; rw [e1]; omega

/-- Row p of the summed-messages block at point t is row 8000 t + p of the summed messages. -/
private theorem summed_block_apply (c : Dev nD) (t : Fin cfg2.N) (p : Fin 8000) (k : Fin 10) (n : Fin 200000)
    (hn : n.val = 8000 * t.val + p.val) :
    (iblk2 (F := Ideal) V c 1 t : Vec Ideal S8000x10 .f32) (ix2 p k) = (V c main_v9 : S200000x10.Idx → EReal) (ix2 n k) := by
  obtain ⟨-, -, e0, e1, -⟩ := index_facts t
  unfold iblk2
  rw [View.read_apply]
  show V c main_v9 _ = V c main_v9 _
  congr 1
  funext a
  apply Fin.ext
  match a with
  | ⟨0, _⟩ => show win2_1.index t (0 : Fin 2) * 8000 + 1 * p.val = n.val; rw [e0, hn]; omega
  | ⟨1, _⟩ => show win2_1.index t (1 : Fin 2) * 10 + 1 * k.val = k.val; rw [e1]; omega

/-- The first weight block is read whole at every point. -/
private theorem first_weights_apply (c : Dev nD) (t : Fin cfg2.N) (k q : Fin 10) :
    (iblk2 (F := Ideal) V c 2 t : Vec Ideal S10x10 .f32) (ix2 k q) = (V c main_v3 : S10x10.Idx → EReal) (ix2 k q) := by
  obtain ⟨-, -, -, -, e0, e1, -⟩ := index_facts t
  unfold iblk2
  rw [View.read_apply]
  show V c main_v3 _ = V c main_v3 _
  congr 1
  funext a
  apply Fin.ext
  match a with
  | ⟨0, _⟩ => show win2_2.index t (0 : Fin 2) * 10 + 1 * k.val = k.val; rw [e0]; omega
  | ⟨1, _⟩ => show win2_2.index t (1 : Fin 2) * 10 + 1 * q.val = q.val; rw [e1]; omega

/-- The second weight block is read whole at every point. -/
private theorem second_weights_apply (c : Dev nD) (t : Fin cfg2.N) (k q : Fin 10) :
    (iblk2 (F := Ideal) V c 3 t : Vec Ideal S10x10 .f32) (ix2 k q) = (V c main_v4 : S10x10.Idx → EReal) (ix2 k q) := by
  obtain ⟨-, -, -, -, -, -, e0, e1, -⟩ := index_facts t
  unfold iblk2
  rw [View.read_apply]
  show V c main_v4 _ = V c main_v4 _
  congr 1
  funext a
  apply Fin.ext
  match a with
  | ⟨0, _⟩ => show win2_3.index t (0 : Fin 2) * 10 + 1 * k.val = k.val; rw [e0]; omega
  | ⟨1, _⟩ => show win2_3.index t (1 : Fin 2) * 10 + 1 * q.val = q.val; rw [e1]; omega

/-! ## From blocks to the array -/

/-- What point t writes back is block t of the update layer of the whole arrays: rows 8000 t … 8000 t + 7999. -/
private theorem written_back_eq (c : Dev nD) (t : Fin cfg2.N) :
    (dat2 (F := Ideal) V c).flushed 4 t
      = ((cfg2.win 4).blk t).view.read (Elt Ideal)
          (Cert.Layers.update (V c main_v0) (V c main_v9) (V c main_v3) (V c main_v4)) := by
  show (cfg2.win 4).cut (grid2.coords t) ((dat2 V c).after 4 t) = _
  rw [after2_4]
  unfold out2_4
  rw [View.canon_unit_zero off_zero]
  simp only [View.ld_unit_zero (S := S8000x10) off_zero, View.ld_unit_zero (S := S10x10) off_zero]
  funext j
  obtain ⟨p, q, rfl⟩ : ∃ (p : Fin 8000) (q : Fin 10), j = ix2 p q := ⟨j 0, j 1, eq_ix2 j⟩
  have ht : t.val < 25 := Nat.lt_of_lt_of_eq t.isLt N_2
  obtain ⟨-, -, -, -, -, -, -, -, e0, e1⟩ := index_facts t
  refine (payload_apply (iblk2 V c 0 t) (iblk2 V c 1 t) (iblk2 V c 2 t) (iblk2 V c 3 t) p q).trans ?_
  show _ = Cert.Layers.update (V c main_v0) (V c main_v9) (V c main_v3) (V c main_v4) (((cfg2.win 4).blk t).view.emb (ix2 p q))
  have hemb : ((cfg2.win 4).blk t).view.emb (ix2 p q) = ix2 (⟨8000 * t.val + p.val, by omega⟩ : Fin 200000) q := by
    funext a
    apply Fin.ext
    match a with
    | ⟨0, _⟩ => show win2_4.index t (0 : Fin 2) * 8000 + 1 * p.val = 8000 * t.val + p.val; rw [e0]; omega
    | ⟨1, _⟩ => show win2_4.index t (1 : Fin 2) * 10 + 1 * q.val = q.val; rw [e1]; omega
  rw [hemb, Cert.Layers.update_ix2]
  unfold Cert.Layers.updateAt
  refine congrArg Cert.Layers.lrelu ?_
  refine congrArg₂ (· + ·) (Finset.sum_congr rfl fun k _ => ?_) (Finset.sum_congr rfl fun k _ => ?_)
  · exact congrArg₂ (· * ·) (state_block_apply V c t p k _ rfl) (first_weights_apply V c t k q)
  · exact congrArg₂ (· * ·) (summed_block_apply V c t p k _ rfl) (second_weights_apply V c t k q)

/-- An index of the output array is in point t's block exactly when each coordinate is in the block's range. -/
private theorem mem_block (t : Fin cfg2.N) (i : S200000x10.Idx) :
    i ∈ ((cfg2.win 4).blk t).view.set ↔ ∀ a : Fin 2, win2_4.index t a * S8000x10.size a ≤ (i a).val ∧ (i a).val < win2_4.index t a * S8000x10.size a + S8000x10.size a := by
  show i ∈ ((View.whole (Pipeline.arrRef spec2 4)).slice (win2_4.rect t)).set ↔ _
  rw [View.set_slice_whole, Rect.mem_set_unit]
  exact Iff.rfl

/-- Row r of the output is in the block of point r / 8000: the 25 blocks cover the array. -/
private theorem covered (i : S200000x10.Idx) :
    ∃ t : Fin cfg2.N, (cfg2.win 4).flush t = true ∧ i ∈ ((cfg2.win 4).blk t).view.set := by
  have h0 : (i 0).val < 200000 := (i 0).isLt
  have h1 : (i 1).val < 10 := (i 1).isLt
  have hN : cfg2.N = 25 := N_2
  obtain ⟨t, ht⟩ : ∃ t : Fin cfg2.N, t.val = (i 0).val / 8000 := ⟨⟨(i 0).val / 8000, by rw [hN]; omega⟩, rfl⟩
  obtain ⟨-, -, -, -, -, -, -, -, e0, e1⟩ := index_facts t
  refine ⟨t, flush2_4 t, ?_⟩
  rw [mem_block]
  intro a
  match a with
  | ⟨0, _⟩ => show win2_4.index t (0 : Fin 2) * 8000 ≤ (i 0).val ∧ (i 0).val < win2_4.index t (0 : Fin 2) * 8000 + 8000; rw [e0, ht]; omega
  | ⟨1, _⟩ => show win2_4.index t (1 : Fin 2) * 10 ≤ (i 1).val ∧ (i 1).val < win2_4.index t (1 : Fin 2) * 10 + 10; rw [e1]; omega

/-- After the update kernel of the first round has run over its 25 grid points from buffer contents `V`, its output array
    is the update layer of the node state, the summed messages and the two weight blocks as `V` holds them. -/
theorem update_final2 (c : Dev nD) :
    (dat2 (F := Ideal) V c).arrAt 4 cfg2.N = Cert.Layers.update (V c main_v0) (V c main_v9) (V c main_v3) (V c main_v4) :=
  (dat2 (F := Ideal) V c).arrAt_eq_of_cover 4 _ (fun t _ => written_back_eq V c t) covered

end Cert.KernelIdeal.KValue

end
-- ==== Proof.MessageValue3.lean ====
/-
  The second message kernel's output array, whole: 1000 row blocks of 6400 edges, each the rectified sum of two products
  (gathered source rows against the first weight block, edge features against the second), together are the message
  layer of the whole arrays.
-/
import proofs.«409437_j15616501088483_1_alg».proof.Proof.Gen.KernelIdeal.Frame
import proofs.«409437_j15616501088483_1_alg».proof.Proof.Layers
import Idealize.ShloMosaic.Lib.Pipeline.Value
import Idealize.ShloMosaic.Lib.ValueIdx
import Idealize.ShloMosaic.PureOps.Ideal.Laws

set_option maxRecDepth 16384

noncomputable section

namespace Cert.KernelIdeal.KValue

open Idealize.ShloMosaic Idealize.ShloMosaic.TcCoe Idealize.ShloMosaic.ValueIdx Idealize.SL.Sem Cert.KernelIdeal Cert.KernelIdeal.Gen
open Idealize.ShloMosaic.Pipeline (Dat)
open scoped BigOperators

/-! ## The two products read at an entry

Each product contracts the left factor's column axis against the right factor's row axis: at output entry (p, q) and
contraction position k the left factor is read at (p, k) and the right factor at (k, q). -/

/-- Left factor of the product against the first weight block: its row is the output's row … -/
private theorem lhs_rows_row (i : S6400x10.Idx) (r : dot_S6400x10_S10x10_S6400x10_1_0_0_1_n_n.contr.Idx) :
    (dot_S6400x10_S10x10_S6400x10_1_0_0_1_n_n.lhsIdx i r 0).val = (i 0).val := by
  unfold DotDims.lhsIdx
  rw [dif_neg (show ¬(0 : Fin S6400x10.rank) ∈ dot_S6400x10_S10x10_S6400x10_1_0_0_1_n_n.lhsBatch by decide),
    dif_pos (show (0 : Fin S6400x10.rank) ∈ dot_S6400x10_S10x10_S6400x10_1_0_0_1_n_n.lhsNonContracting by decide)]
  rfl
/-- … and its column the contraction position. -/
private theorem lhs_rows_col (i : S6400x10.Idx) (r : dot_S6400x10_S10x10_S6400x10_1_0_0_1_n_n.contr.Idx) :
    (dot_S6400x10_S10x10_S6400x10_1_0_0_1_n_n.lhsIdx i r 1).val = (r ⟨0, by decide⟩).val :=
  dot_S6400x10_S10x10_S6400x10_1_0_0_1_n_n.lhsIdx_val_of_single rfl i r
/-- Right factor: its row is the contraction position … -/
private theorem rhs_rows_row (i : S6400x10.Idx) (r : dot_S6400x10_S10x10_S6400x10_1_0_0_1_n_n.contr.Idx) :
    (dot_S6400x10_S10x10_S6400x10_1_0_0_1_n_n.rhsIdx i r 0).val = (r ⟨0, by decide⟩).val :=
  dot_S6400x10_S10x10_S6400x10_1_0_0_1_n_n.rhsIdx_val_of_single rfl i r
/-- … and its column the output's column. -/
private theorem rhs_rows_col (i : S6400x10.Idx) (r : dot_S6400x10_S10x10_S6400x10_1_0_0_1_n_n.contr.Idx) :
    (dot_S6400x10_S10x10_S6400x10_1_0_0_1_n_n.rhsIdx i r 1).val = (i 1).val := by
  unfold DotDims.rhsIdx
  rw [dif_neg (show ¬(1 : Fin S10x10.rank) ∈ dot_S6400x10_S10x10_S6400x10_1_0_0_1_n_n.rhsBatch by decide),
    dif_pos (show (1 : Fin S10x10.rank) ∈ dot_S6400x10_S10x10_S6400x10_1_0_0_1_n_n.rhsNonContracting by decide)]
  rfl

/-- The product of a block of rows with the first weight block, into the zero block, at entry (p, q). -/
private theorem rows_product_apply (x : FVec Ideal S6400x10 .bf16) (w : FVec Ideal S10x10 .bf16) (p : Fin 6400) (q : Fin 10) :
    matmul (F := Ideal) dot_S6400x10_S10x10_S6400x10_1_0_0_1_n_n none x w (constant (F := Ideal) S6400x10 .f32 0x00000000#32) (ix2 p q)
      = ∑ k : Fin 10, x (ix2 p k) * w (ix2 k q) := by
  simp only [matmul]
  rw [Ideal.matmul_constant_zero_apply, ← Equiv.sum_comp (contrEquiv1 dot_S6400x10_S10x10_S6400x10_1_0_0_1_n_n 10 rfl rfl).symm]
  refine Finset.sum_congr rfl fun k _ => ?_
  have hk := contrEquiv1_symm_val dot_S6400x10_S10x10_S6400x10_1_0_0_1_n_n 10 rfl rfl k
  have el : dot_S6400x10_S10x10_S6400x10_1_0_0_1_n_n.lhsIdx (ix2 p q) ((contrEquiv1 dot_S6400x10_S10x10_S6400x10_1_0_0_1_n_n 10 rfl rfl).symm k) = ix2 p k :=
    funext fun a => Fin.ext (by
      match a with
      | ⟨0, _⟩ => exact lhs_rows_row _ _
      | ⟨1, _⟩ => exact (lhs_rows_col _ _).trans hk)
  have er : dot_S6400x10_S10x10_S6400x10_1_0_0_1_n_n.rhsIdx (ix2 p q) ((contrEquiv1 dot_S6400x10_S10x10_S6400x10_1_0_0_1_n_n 10 rfl rfl).symm k) = ix2 k q :=
    funext fun a => Fin.ext (by
      match a with
      | ⟨0, _⟩ => exact (rhs_rows_row _ _).trans hk
      | ⟨1, _⟩ => exact rhs_rows_col _ _)
  rw [el, er]

/-- Left factor of the product against the second weight block: its row is the output's row … -/
private theorem lhs_feat_row (i : S6400x10.Idx) (r : dot_S6400x6_S6x10_S6400x10_1_0_0_1_n_n.contr.Idx) :
    (dot_S6400x6_S6x10_S6400x10_1_0_0_1_n_n.lhsIdx i r 0).val = (i 0).val := by
  unfold DotDims.lhsIdx
  rw [dif_neg (show ¬(0 : Fin S6400x6.rank) ∈ dot_S6400x6_S6x10_S6400x10_1_0_0_1_n_n.lhsBatch by decide),
    dif_pos (show (0 : Fin S6400x6.rank) ∈ dot_S6400x6_S6x10_S6400x10_1_0_0_1_n_n.lhsNonContracting by decide)]
  rfl
/-- … and its column the contraction position. -/
private theorem lhs_feat_col (i : S6400x10.Idx) (r : dot_S6400x6_S6x10_S6400x10_1_0_0_1_n_n.contr.Idx) :
    (dot_S6400x6_S6x10_S6400x10_1_0_0_1_n_n.lhsIdx i r 1).val = (r ⟨0, by decide⟩).val :=
  dot_S6400x6_S6x10_S6400x10_1_0_0_1_n_n.lhsIdx_val_of_single rfl i r
/-- Right factor: its row is the contraction position … -/
private theorem rhs_feat_row (i : S6400x10.Idx) (r : dot_S6400x6_S6x10_S6400x10_1_0_0_1_n_n.contr.Idx) :
    (dot_S6400x6_S6x10_S6400x10_1_0_0_1_n_n.rhsIdx i r 0).val = (r ⟨0, by decide⟩).val :=
  dot_S6400x6_S6x10_S6400x10_1_0_0_1_n_n.rhsIdx_val_of_single rfl i r
/-- … and its column the output's column. -/
private theorem rhs_feat_col (i : S6400x10.Idx) (r : dot_S6400x6_S6x10_S6400x10_1_0_0_1_n_n.contr.Idx) :
    (dot_S6400x6_S6x10_S6400x10_1_0_0_1_n_n.rhsIdx i r 1).val = (i 1).val := by
  unfold DotDims.rhsIdx
  rw [dif_neg (show ¬(1 : Fin S6x10.rank) ∈ dot_S6400x6_S6x10_S6400x10_1_0_0_1_n_n.rhsBatch by decide),
    dif_pos (show (1 : Fin S6x10.rank) ∈ dot_S6400x6_S6x10_S6400x10_1_0_0_1_n_n.rhsNonContracting by decide)]
  rfl

/-- The product of a block of edge features with the second weight block, into the zero block, at entry (p, q). -/
private theorem feat_product_apply (x : FVec Ideal S6400x6 .bf16) (w : FVec Ideal S6x10 .bf16) (p : Fin 6400) (q : Fin 10) :
    matmul (F := Ideal) dot_S6400x6_S6x10_S6400x10_1_0_0_1_n_n none x w (constant (F := Ideal) S6400x10 .f32 0x00000000#32) (ix2 p q)
      = ∑ k : Fin 6, x (ix2 p k) * w (ix2 k q) := by
  simp only [matmul]
  rw [Ideal.matmul_constant_zero_apply, ← Equiv.sum_comp (contrEquiv1 dot_S6400x6_S6x10_S6400x10_1_0_0_1_n_n 6 rfl rfl).symm]
  refine Finset.sum_congr rfl fun k _ => ?_
  have hk := contrEquiv1_symm_val dot_S6400x6_S6x10_S6400x10_1_0_0_1_n_n 6 rfl rfl k
  have el : dot_S6400x6_S6x10_S6400x10_1_0_0_1_n_n.lhsIdx (ix2 p q) ((contrEquiv1 dot_S6400x6_S6x10_S6400x10_1_0_0_1_n_n 6 rfl rfl).symm k) = ix2 p k :=
    funext fun a => Fin.ext (by
      match a with
      | ⟨0, _⟩ => exact lhs_feat_row _ _
      | ⟨1, _⟩ => exact (lhs_feat_col _ _).trans hk)
  have er : dot_S6400x6_S6x10_S6400x10_1_0_0_1_n_n.rhsIdx (ix2 p q) ((contrEquiv1 dot_S6400x6_S6x10_S6400x10_1_0_0_1_n_n 6 rfl rfl).symm k) = ix2 k q :=
    funext fun a => Fin.ext (by
      match a with
      | ⟨0, _⟩ => exact (rhs_feat_row _ _).trans hk
      | ⟨1, _⟩ => exact rhs_feat_col _ _)
  rw [el, er]

/-! ## What the body stores, at an entry -/

/-- The body's stored block at entry (p, q): the rectified sum of the two products' entries there. The casts to an
    operand's own shape and the narrowing format changes are identities on the extended reals. -/
private theorem payload_apply (x0 : Vec Ideal S6400x10 .f32) (x1 : Vec Ideal S6400x6 .f32) (x2 : Vec Ideal S10x10 .f32) (x3 : Vec Ideal S6x10 .f32)
    (p : Fin 6400) (q : Fin 10) :
    k3_pay1 (F := Ideal) x0 x1 x2 x3 (ix2 p q)
      = Cert.Layers.lrelu (∑ k : Fin 10, x0 (ix2 p k) * x2 (ix2 k q) + ∑ k : Fin 6, x1 (ix2 p k) * x3 (ix2 k q)) := by
  unfold k3_pay1
  simp only [shapeCast_self]
  refine (select_apply _ _ _ _).trans ?_
  rw [cmpf_apply, mulf_apply, addf_apply, broadcast_apply, broadcast_apply, rows_product_apply, feat_product_apply]
  exact Cert.Layers.select_ge_zero _

variable (V : (c : Dev nD) → (b : Ref sig .tc) → Buf (Elt Ideal) ((c : Thread nD τ).loc b))

/-! ## From blocks to the array

The grid has 1000 points. At point t the gathered rows, the edge features and the output are at row block t (rows
6400·t … 6400·t + 6399, all columns); the two weight blocks are whole at every point. -/

private theorem origin_eq : (![0, 0] : Fin 2 → Nat) = fun _ => 0 := funext fun a => by fin_cases a <;> rfl

/-- The windows' index maps, evaluated once over the grid: the row-blocked windows sit at block (t, 0) at point t, the
    weight windows at block (0, 0). -/
private theorem index_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- The gathered rows' block at point t, at (p, k), is the array at row 6400·t + p, column k. -/
private theorem rows_block_apply (c : Dev nD) (t : Fin cfg3.N) (p : Fin 6400) (k : Fin 10) (e : Fin 6400000)
    (he : e.val = 6400 * t.val + p.val) :
    (iblk3 V c 0 t : Vec Ideal S6400x10 .f32) (ix2 p k) = (V c main_v11 : S6400000x10.Idx → EReal) (ix2 e k) := by
  obtain ⟨h0, h1, -⟩ := index_facts t
  unfold iblk3
  rw [View.read_apply]
  show V c main_v11 _ = V c main_v11 _
  congr 1
  funext a
  apply Fin.ext
  match a with
  | ⟨0, _⟩ => show win3_0.index t (0 : Fin 2) * 6400 + 1 * p.val = e.val; rw [h0, he]; omega
  | ⟨1, _⟩ => show win3_0.index t (1 : Fin 2) * 10 + 1 * k.val = k.val; rw [h1]; omega

/-- The edge features' block at point t, at (p, k), is the array at row 6400·t + p, column k. -/
private theorem feat_block_apply (c : Dev nD) (t : Fin cfg3.N) (p : Fin 6400) (k : Fin 6) (e : Fin 6400000)
    (he : e.val = 6400 * t.val + p.val) :
    (iblk3 V c 1 t : Vec Ideal S6400x6 .f32) (ix2 p k) = (V c main_arg1 : S6400000x6.Idx → EReal) (ix2 e k) := by
  obtain ⟨-, -, h0, h1, -⟩ := index_facts t
  unfold iblk3
  rw [View.read_apply]
  show V c main_arg1 _ = V c main_arg1 _
  congr 1
  funext a
  apply Fin.ext
  match a with
  | ⟨0, _⟩ => show win3_1.index t (0 : Fin 2) * 6400 + 1 * p.val = e.val; rw [h0, he]; omega
  | ⟨1, _⟩ => show win3_1.index t (1 : Fin 2) * 6 + 1 * k.val = k.val; rw [h1]; omega

/-- The first weight block's window holds the whole block at every point. -/
private theorem first_weights_apply (c : Dev nD) (t : Fin cfg3.N) (k : Fin 10) (q : Fin 10) :
    (iblk3 V c 2 t : Vec Ideal S10x10 .f32) (ix2 k q) = (V c main_v1 : S10x10.Idx → EReal) (ix2 k q) := by
  obtain ⟨-, -, -, -, h0, h1, -⟩ := index_facts t
  unfold iblk3
  rw [View.read_apply]
  show V c main_v1 _ = V c main_v1 _
  congr 1
  funext a
  apply Fin.ext
  match a with
  | ⟨0, _⟩ => show win3_2.index t (0 : Fin 2) * 10 + 1 * k.val = k.val; rw [h0]; omega
  | ⟨1, _⟩ => show win3_2.index t (1 : Fin 2) * 10 + 1 * q.val = q.val; rw [h1]; omega

/-- The second weight block's window holds the whole block at every point. -/
private theorem second_weights_apply (c : Dev nD) (t : Fin cfg3.N) (k : Fin 6) (q : Fin 10) :
    (iblk3 V c 3 t : Vec Ideal S6x10 .f32) (ix2 k q) = (V c main_v2 : S6x10.Idx → EReal) (ix2 k q) := by
  obtain ⟨-, -, -, -, -, -, h0, h1, -⟩ := index_facts t
  unfold iblk3
  rw [View.read_apply]
  show V c main_v2 _ = V c main_v2 _
  congr 1
  funext a
  apply Fin.ext
  match a with
  | ⟨0, _⟩ => show win3_3.index t (0 : Fin 2) * 6 + 1 * k.val = k.val; rw [h0]; omega
  | ⟨1, _⟩ => show win3_3.index t (1 : Fin 2) * 10 + 1 * q.val = q.val; rw [h1]; omega

/-- What point t writes back is row block t of the message layer of the arrays as the kernel finds them. -/
private theorem flushed_eq (c : Dev nD) (t : Fin cfg3.N) :
    (dat3 (F := Ideal) V c).flushed 4 t = ((cfg3.win 4).blk t).view.read (Elt Ideal)
      (Cert.Layers.message (V c main_v11) (V c main_arg1) (V c main_v1) (V c main_v2)) := by
  show (cfg3.win 4).cut (grid3.coords t) ((dat3 V c).after 4 t) = _
  rw [after3_4]
  unfold out3_4
  rw [View.canon_unit_zero origin_eq]
  simp only [View.ld_unit_zero (S := S6400x10) origin_eq, View.ld_unit_zero (S := S6400x6) origin_eq,
    View.ld_unit_zero (S := S10x10) origin_eq, View.ld_unit_zero (S := S6x10) origin_eq]
  obtain ⟨-, -, -, -, -, -, -, -, h0, h1⟩ := index_facts t
  have ht : t.val < 1000 := Nat.lt_of_lt_of_eq t.isLt N_3
  funext j
  obtain ⟨p, q, rfl⟩ : ∃ (p : Fin 6400) (q : Fin 10), j = ix2 p q := ⟨j 0, j 1, eq_ix2 j⟩
  have hemb : ((cfg3.win 4).blk t).view.emb (ix2 p q) = (ix2 ⟨6400 * t.val + p.val, by omega⟩ q : S6400000x10.Idx) := by
    funext a
    apply Fin.ext
    match a with
    | ⟨0, _⟩ => show win3_4.index t (0 : Fin 2) * 6400 + 1 * p.val = 6400 * t.val + p.val; rw [h0]; omega
    | ⟨1, _⟩ => show win3_4.index t (1 : Fin 2) * 10 + 1 * q.val = q.val; rw [h1]; omega
  show k3_pay1 (F := Ideal) (iblk3 V c 0 t) (iblk3 V c 1 t) (iblk3 V c 2 t) (iblk3 V c 3 t) (ix2 p q)
    = Cert.Layers.message (V c main_v11) (V c main_arg1) (V c main_v1) (V c main_v2) (((cfg3.win 4).blk t).view.emb (ix2 p q))
  rw [hemb, Cert.Layers.message_ix2]
  refine (payload_apply (iblk3 V c 0 t) (iblk3 V c 1 t) (iblk3 V c 2 t) (iblk3 V c 3 t) p q).trans ?_
  unfold Cert.Layers.messageAt
  refine congrArg Cert.Layers.lrelu (congrArg₂ (· + ·) (Finset.sum_congr rfl fun k _ => ?_) (Finset.sum_congr rfl fun k _ => ?_))
  · exact congrArg₂ (· * ·) (rows_block_apply V c t p k _ rfl) (first_weights_apply V c t k q)
  · exact congrArg₂ (· * ·) (feat_block_apply V c t p k _ rfl) (second_weights_apply V c t k q)

/-- An index of the output array is in point t's block iff each coordinate is in the block's range on its axis. -/
private theorem mem_block (t : Fin cfg3.N) (i : S6400000x10.Idx) :
    i ∈ ((cfg3.win 4).blk t).view.set ↔ ∀ a : Fin 2, win3_4.index t a * S6400x10.size a ≤ (i a).val
      ∧ (i a).val < win3_4.index t a * S6400x10.size a + S6400x10.size a := by
  show i ∈ ((View.whole (Pipeline.arrRef spec3 4)).slice (win3_4.rect t)).set ↔ _
  rw [View.set_slice_whole, Rect.mem_set_unit]
  exact Iff.rfl

/-- Every row of the output array is in some point's block: row r is in block r / 6400. -/
private theorem covered (i : S6400000x10.Idx) :
    ∃ t : Fin cfg3.N, (cfg3.win 4).flush t = true ∧ i ∈ ((cfg3.win 4).blk t).view.set := by
  have hi0 : (i 0).val < 6400000 := (i 0).isLt
  have hi1 : (i 1).val < 10 := (i 1).isLt
  obtain ⟨t, ht⟩ : ∃ t : Fin cfg3.N, t.val = (i 0).val / 6400 :=
    ⟨⟨(i 0).val / 6400, by rw [show cfg3.N = 1000 from N_3]; omega⟩, rfl⟩
  obtain ⟨-, -, -, -, -, -, -, -, h0, h1⟩ := index_facts t
  refine ⟨t, flush3_4 t, ?_⟩
  rw [mem_block]
  intro a
  match a with
  | ⟨0, _⟩ =>
    show win3_4.index t (0 : Fin 2) * 6400 ≤ (i 0).val ∧ (i 0).val < win3_4.index t (0 : Fin 2) * 6400 + 6400
    rw [h0, ht]; omega
  | ⟨1, _⟩ =>
    show win3_4.index t (1 : Fin 2) * 10 ≤ (i 1).val ∧ (i 1).val < win3_4.index t (1 : Fin 2) * 10 + 10
    rw [h1]; omega

/-- After the message kernel of the second round has run over its 1000 grid points from buffer contents `V`, its output
    array is the message layer of the gathered rows, the edge features and the two weight blocks as `V` holds them. -/
theorem message_final3 (c : Dev nD) :
    (dat3 (F := Ideal) V c).arrAt 4 cfg3.N = Cert.Layers.message (V c main_v11) (V c main_arg1) (V c main_v1) (V c main_v2) :=
  (dat3 (F := Ideal) V c).arrAt_eq_of_cover 4 _ (fun t _ => flushed_eq V c t) covered

end Cert.KernelIdeal.KValue

end
-- ==== Proof.UpdateValue4.lean ====
/-
  The second update kernel's output array, whole: 25 row blocks of 8000 nodes, each the rectified sum of two products
  (node state against the first weight block, summed messages against the second), together are the update layer of the
  whole arrays.
-/
import proofs.«409437_j15616501088483_1_alg».proof.Proof.Gen.KernelIdeal.Frame
import proofs.«409437_j15616501088483_1_alg».proof.Proof.Layers
import Idealize.ShloMosaic.Lib.Pipeline.Value
import Idealize.ShloMosaic.Lib.ValueIdx
import Idealize.ShloMosaic.PureOps.Ideal.Laws

set_option maxRecDepth 16384

noncomputable section

namespace Cert.KernelIdeal.KValue

open Idealize.ShloMosaic Idealize.ShloMosaic.TcCoe Idealize.ShloMosaic.ValueIdx Idealize.SL.Sem Cert.KernelIdeal Cert.KernelIdeal.Gen
open Idealize.ShloMosaic.Pipeline (Dat)
open scoped BigOperators

variable (V : (c : Dev nD) → (b : Ref sig .tc) → Buf (Elt Ideal) ((c : Thread nD τ).loc b))

/-- Both offsets of a whole-block access are zero. -/
private theorem off_zero : (![0, 0] : Fin 2 → Nat) = fun _ => 0 := funext fun a => by fin_cases a <;> rfl

/-! ## The block product at an index

The dot record contracts the left operand's axis 1 against the right operand's axis 0; the left operand's axis 0 and the
right operand's axis 1 are free and are the output's two axes. So at output index (p, q) and contraction position k the
left operand is read at (p, k) and the right one at (k, q). -/

private theorem lhs_free (i : S8000x10.Idx) (r : dot_S8000x10_S10x10_S8000x10_1_0_0_1_n_n.contr.Idx) :
    (dot_S8000x10_S10x10_S8000x10_1_0_0_1_n_n.lhsIdx i r 0).val = (i 0).val := by
  unfold DotDims.lhsIdx
  rw [dif_neg (show ¬(0 : Fin S8000x10.rank) ∈ dot_S8000x10_S10x10_S8000x10_1_0_0_1_n_n.lhsBatch by decide), dif_pos (show (0 : Fin S8000x10.rank) ∈ dot_S8000x10_S10x10_S8000x10_1_0_0_1_n_n.lhsNonContracting by decide)]
  rfl

private theorem lhs_contracted (i : S8000x10.Idx) (r : dot_S8000x10_S10x10_S8000x10_1_0_0_1_n_n.contr.Idx) :
    (dot_S8000x10_S10x10_S8000x10_1_0_0_1_n_n.lhsIdx i r 1).val = (r ⟨0, by decide⟩).val :=
  dot_S8000x10_S10x10_S8000x10_1_0_0_1_n_n.lhsIdx_val_of_single rfl i r

private theorem rhs_contracted (i : S8000x10.Idx) (r : dot_S8000x10_S10x10_S8000x10_1_0_0_1_n_n.contr.Idx) :
    (dot_S8000x10_S10x10_S8000x10_1_0_0_1_n_n.rhsIdx i r 0).val = (r ⟨0, by decide⟩).val :=
  dot_S8000x10_S10x10_S8000x10_1_0_0_1_n_n.rhsIdx_val_of_single rfl i r

private theorem rhs_free (i : S8000x10.Idx) (r : dot_S8000x10_S10x10_S8000x10_1_0_0_1_n_n.contr.Idx) :
    (dot_S8000x10_S10x10_S8000x10_1_0_0_1_n_n.rhsIdx i r 1).val = (i 1).val := by
  unfold DotDims.rhsIdx
  rw [dif_neg (show ¬(1 : Fin S10x10.rank) ∈ dot_S8000x10_S10x10_S8000x10_1_0_0_1_n_n.rhsBatch by decide), dif_pos (show (1 : Fin S10x10.rank) ∈ dot_S8000x10_S10x10_S8000x10_1_0_0_1_n_n.rhsNonContracting by decide)]
  rfl

/-- A block product into the zero splat, at (p, q): row p of the left operand against column q of the right one. -/
private theorem block_product_apply {φ₁ φ₂ : FTy} (a : FVec Ideal S8000x10 φ₁) (b : FVec Ideal S10x10 φ₂) (p : Fin 8000) (q : Fin 10) :
    matmul (F := Ideal) dot_S8000x10_S10x10_S8000x10_1_0_0_1_n_n none a b (constant (F := Ideal) S8000x10 .f32 0x00000000#32) (ix2 p q)
      = ∑ k : Fin 10, a (ix2 p k) * b (ix2 k q) := by
  refine Eq.trans (Ideal.matmul_constant_zero_apply dot_S8000x10_S10x10_S8000x10_1_0_0_1_n_n none a b (ix2 p q)) ?_
  rw [← Equiv.sum_comp (contrEquiv1 dot_S8000x10_S10x10_S8000x10_1_0_0_1_n_n 10 rfl rfl).symm]
  refine Finset.sum_congr rfl fun k _ => ?_
  have hk := contrEquiv1_symm_val dot_S8000x10_S10x10_S8000x10_1_0_0_1_n_n 10 rfl rfl k
  have el : dot_S8000x10_S10x10_S8000x10_1_0_0_1_n_n.lhsIdx (ix2 p q) ((contrEquiv1 dot_S8000x10_S10x10_S8000x10_1_0_0_1_n_n 10 rfl rfl).symm k) = ix2 p k := funext fun a => Fin.ext (by
    match a with
    | ⟨0, _⟩ => exact lhs_free _ _
    | ⟨1, _⟩ => exact (lhs_contracted _ _).trans hk)
  have er : dot_S8000x10_S10x10_S8000x10_1_0_0_1_n_n.rhsIdx (ix2 p q) ((contrEquiv1 dot_S8000x10_S10x10_S8000x10_1_0_0_1_n_n 10 rfl rfl).symm k) = ix2 k q := funext fun a => Fin.ext (by
    match a with
    | ⟨0, _⟩ => exact (rhs_contracted _ _).trans hk
    | ⟨1, _⟩ => exact rhs_free _ _)
  rw [el, er]

/-! ## The body's result at an index -/

/-- The rectifier as the body spells it (a select on the comparison with the zero splat, between the value and the
    slope splat times the value), at an index. -/
private theorem rectified_apply (y : FVec Ideal S8000x10 .f32) (i : S8000x10.Idx) :
    select (cmpf .oge y (broadcast S8000x10 (FloatOps.ofBits (F := Ideal) .f32 0x00000000#32))) y
        (mulf (broadcast S8000x10 (FloatOps.ofBits (F := Ideal) .f32 0x3DCCCCCD#32)) y) i
      = Cert.Layers.lrelu (y i) :=
  Cert.Layers.select_ge_zero (y i)

/-- What the body stores, at row p and column q of its block: the rectified sum of row p of the two row-block operands
    against column q of the two weight blocks. The format changes are the identity on extended reals and each shape cast
    is to the operand's own shape. -/
private theorem payload_apply (x0 x1 : Vec Ideal S8000x10 .f32) (x2 x3 : Vec Ideal S10x10 .f32) (p : Fin 8000) (q : Fin 10) :
    (k4_pay1 (F := Ideal) x0 x1 x2 x3) (ix2 p q)
      = Cert.Layers.lrelu (∑ k : Fin 10, x0 (ix2 p k) * x2 (ix2 k q) + ∑ k : Fin 10, x1 (ix2 p k) * x3 (ix2 k q)) := by
  unfold k4_pay1
  simp only [shapeCast_self]
  refine (rectified_apply _ (ix2 p q)).trans ?_
  refine congrArg Cert.Layers.lrelu ?_
  refine (addf_apply _ _ _).trans ?_
  exact congrArg₂ (· + ·) (block_product_apply _ _ p q) (block_product_apply _ _ p q)

/-! ## Where the windows' blocks sit

At grid point t the two row-block inputs and the output are at block row t, column block 0; the two weight blocks are
whole at every point. -/

private theorem index_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-- Row p of the node-state block at point t is row 8000 t + p of the node state. -/
private theorem state_block_apply (c : Dev nD) (t : Fin cfg4.N) (p : Fin 8000) (k : Fin 10) (n : Fin 200000)
    (hn : n.val = 8000 * t.val + p.val) :
    (iblk4 (F := Ideal) V c 0 t : Vec Ideal S8000x10 .f32) (ix2 p k) = (V c main_v10 : S200000x10.Idx → EReal) (ix2 n k) := by
  obtain ⟨e0, e1, -⟩ := index_facts t
  unfold iblk4
  rw [View.read_apply]
  show V c main_v10 _ = V c main_v10 _
  congr 1
  funext a
  apply Fin.ext
  match a with
  | ⟨0, _⟩ => show win4_0.index t (0 : Fin 2) * 8000 + 1 * p.val = n.val; rw [e0, hn]; omega
  | ⟨1, _⟩ => show win4_0.index t (1 : Fin 2) * 10 + 1 * k.val = k.val; rw [e1]; omega

/-- Row p of the summed-messages block at point t is row 8000 t + p of the summed messages. -/
private theorem summed_block_apply (c : Dev nD) (t : Fin cfg4.N) (p : Fin 8000) (k : Fin 10) (n : Fin 200000)
    (hn : n.val = 8000 * t.val + p.val) :
    (iblk4 (F := Ideal) V c 1 t : Vec Ideal S8000x10 .f32) (ix2 p k) = (V c main_v15 : S200000x10.Idx → EReal) (ix2 n k) := by
  obtain ⟨-, -, e0, e1, -⟩ := index_facts t
  unfold iblk4
  rw [View.read_apply]
  show V c main_v15 _ = V c main_v15 _
  congr 1
  funext a
  apply Fin.ext
  match a with
  | ⟨0, _⟩ => show win4_1.index t (0 : Fin 2) * 8000 + 1 * p.val = n.val; rw [e0, hn]; omega
  | ⟨1, _⟩ => show win4_1.index t (1 : Fin 2) * 10 + 1 * k.val = k.val; rw [e1]; omega

/-- The first weight block is read whole at every point. -/
private theorem first_weights_apply (c : Dev nD) (t : Fin cfg4.N) (k q : Fin 10) :
    (iblk4 (F := Ideal) V c 2 t : Vec Ideal S10x10 .f32) (ix2 k q) = (V c main_v3 : S10x10.Idx → EReal) (ix2 k q) := by
  obtain ⟨-, -, -, -, e0, e1, -⟩ := index_facts t
  unfold iblk4
  rw [View.read_apply]
  show V c main_v3 _ = V c main_v3 _
  congr 1
  funext a
  apply Fin.ext
  match a with
  | ⟨0, _⟩ => show win4_2.index t (0 : Fin 2) * 10 + 1 * k.val = k.val; rw [e0]; omega
  | ⟨1, _⟩ => show win4_2.index t (1 : Fin 2) * 10 + 1 * q.val = q.val; rw [e1]; omega

/-- The second weight block is read whole at every point. -/
private theorem second_weights_apply (c : Dev nD) (t : Fin cfg4.N) (k q : Fin 10) :
    (iblk4 (F := Ideal) V c 3 t : Vec Ideal S10x10 .f32) (ix2 k q) = (V c main_v4 : S10x10.Idx → EReal) (ix2 k q) := by
  obtain ⟨-, -, -, -, -, -, e0, e1, -⟩ := index_facts t
  unfold iblk4
  rw [View.read_apply]
  show V c main_v4 _ = V c main_v4 _
  congr 1
  funext a
  apply Fin.ext
  match a with
  | ⟨0, _⟩ => show win4_3.index t (0 : Fin 2) * 10 + 1 * k.val = k.val; rw [e0]; omega
  | ⟨1, _⟩ => show win4_3.index t (1 : Fin 2) * 10 + 1 * q.val = q.val; rw [e1]; omega

/-! ## From blocks to the array -/

/-- What point t writes back is block t of the update layer of the whole arrays: rows 8000 t … 8000 t + 7999. -/
private theorem written_back_eq (c : Dev nD) (t : Fin cfg4.N) :
    (dat4 (F := Ideal) V c).flushed 4 t
      = ((cfg4.win 4).blk t).view.read (Elt Ideal)
          (Cert.Layers.update (V c main_v10) (V c main_v15) (V c main_v3) (V c main_v4)) := by
  show (cfg4.win 4).cut (grid4.coords t) ((dat4 V c).after 4 t) = _
  rw [after4_4]
  unfold out4_4
  rw [View.canon_unit_zero off_zero]
  simp only [View.ld_unit_zero (S := S8000x10) off_zero, View.ld_unit_zero (S := S10x10) off_zero]
  funext j
  obtain ⟨p, q, rfl⟩ : ∃ (p : Fin 8000) (q : Fin 10), j = ix2 p q := ⟨j 0, j 1, eq_ix2 j⟩
  have ht : t.val < 25 := Nat.lt_of_lt_of_eq t.isLt N_4
  obtain ⟨-, -, -, -, -, -, -, -, e0, e1⟩ := index_facts t
  refine (payload_apply (iblk4 V c 0 t) (iblk4 V c 1 t) (iblk4 V c 2 t) (iblk4 V c 3 t) p q).trans ?_
  show _ = Cert.Layers.update (V c main_v10) (V c main_v15) (V c main_v3) (V c main_v4) (((cfg4.win 4).blk t).view.emb (ix2 p q))
  have hemb : ((cfg4.win 4).blk t).view.emb (ix2 p q) = ix2 (⟨8000 * t.val + p.val, by omega⟩ : Fin 200000) q := by
    funext a
    apply Fin.ext
    match a with
    | ⟨0, _⟩ => show win4_4.index t (0 : Fin 2) * 8000 + 1 * p.val = 8000 * t.val + p.val; rw [e0]; omega
    | ⟨1, _⟩ => show win4_4.index t (1 : Fin 2) * 10 + 1 * q.val = q.val; rw [e1]; omega
  rw [hemb, Cert.Layers.update_ix2]
  unfold Cert.Layers.updateAt
  refine congrArg Cert.Layers.lrelu ?_
  refine congrArg₂ (· + ·) (Finset.sum_congr rfl fun k _ => ?_) (Finset.sum_congr rfl fun k _ => ?_)
  · exact congrArg₂ (· * ·) (state_block_apply V c t p k _ rfl) (first_weights_apply V c t k q)
  · exact congrArg₂ (· * ·) (summed_block_apply V c t p k _ rfl) (second_weights_apply V c t k q)

/-- An index of the output array is in point t's block exactly when each coordinate is in the block's range. -/
private theorem mem_block (t : Fin cfg4.N) (i : S200000x10.Idx) :
    i ∈ ((cfg4.win 4).blk t).view.set ↔ ∀ a : Fin 2, win4_4.index t a * S8000x10.size a ≤ (i a).val ∧ (i a).val < win4_4.index t a * S8000x10.size a + S8000x10.size a := by
  show i ∈ ((View.whole (Pipeline.arrRef spec4 4)).slice (win4_4.rect t)).set ↔ _
  rw [View.set_slice_whole, Rect.mem_set_unit]
  exact Iff.rfl

/-- Row r of the output is in the block of point r / 8000: the 25 blocks cover the array. -/
private theorem covered (i : S200000x10.Idx) :
    ∃ t : Fin cfg4.N, (cfg4.win 4).flush t = true ∧ i ∈ ((cfg4.win 4).blk t).view.set := by
  have h0 : (i 0).val < 200000 := (i 0).isLt
  have h1 : (i 1).val < 10 := (i 1).isLt
  have hN : cfg4.N = 25 := N_4
  obtain ⟨t, ht⟩ : ∃ t : Fin cfg4.N, t.val = (i 0).val / 8000 := ⟨⟨(i 0).val / 8000, by rw [hN]; omega⟩, rfl⟩
  obtain ⟨-, -, -, -, -, -, -, -, e0, e1⟩ := index_facts t
  refine ⟨t, flush4_4 t, ?_⟩
  rw [mem_block]
  intro a
  match a with
  | ⟨0, _⟩ => show win4_4.index t (0 : Fin 2) * 8000 ≤ (i 0).val ∧ (i 0).val < win4_4.index t (0 : Fin 2) * 8000 + 8000; rw [e0, ht]; omega
  | ⟨1, _⟩ => show win4_4.index t (1 : Fin 2) * 10 ≤ (i 1).val ∧ (i 1).val < win4_4.index t (1 : Fin 2) * 10 + 10; rw [e1]; omega

/-- After the update kernel of the second round has run over its 25 grid points from buffer contents `V`, its output array
    is the update layer of the node state, the summed messages and the two weight blocks as `V` holds them. -/
theorem update_final4 (c : Dev nD) :
    (dat4 (F := Ideal) V c).arrAt 4 cfg4.N = Cert.Layers.update (V c main_v10) (V c main_v15) (V c main_v3) (V c main_v4) :=
  (dat4 (F := Ideal) V c).arrAt_eq_of_cover 4 _ (fun t _ => written_back_eq V c t) covered

end Cert.KernelIdeal.KValue

end
-- ==== Proof.KChain.lean ====
/-
  The kernel program's result as ONE term of its argument arrays. Its @main is five pallas_calls among four stretches of
  host operations; the buffer contents at the ten segment boundaries are a fold from the launch memory. Read at the
  buffers that matter, boundary by boundary: the embedding kernel leaves the embedding of the node features; the host
  cuts the two weight matrices into their row blocks and gathers the source rows (guarded); the message kernel leaves
  the message layer of those; the host sums the messages into their destination rows; the update kernel leaves the
  update layer; and the second round repeats the gather, the message kernel, the sum and the update kernel on the new
  node state. Every other buffer a later stage reads is carried unchanged across the segments that do not write it.
-/
import proofs.«409437_j15616501088483_1_alg».proof.Proof.Gen.KernelIdeal.Frame
import proofs.«409437_j15616501088483_1_alg».proof.Proof.KTerms
import proofs.«409437_j15616501088483_1_alg».proof.Proof.EmbedValue
import proofs.«409437_j15616501088483_1_alg».proof.Proof.MessageValue1
import proofs.«409437_j15616501088483_1_alg».proof.Proof.UpdateValue2
import proofs.«409437_j15616501088483_1_alg».proof.Proof.MessageValue3
import proofs.«409437_j15616501088483_1_alg».proof.Proof.UpdateValue4
import Idealize.ShloMosaic.Lib.StableHlo.Run

set_option maxRecDepth 16384

noncomputable section

namespace Cert.KernelIdeal.KValue

open Idealize.ShloMosaic Idealize.ShloMosaic.TcCoe Idealize.SL.Sem Cert.KernelIdeal Cert.KernelIdeal.Gen
open Idealize.ShloMosaic.Pipeline (Dat)

/-- A buffer that no operation of a host stretch writes keeps its contents across the stretch. -/
macro "host_keeps" : tactic => `(tactic|
  exact StableHlo.after_of_forall_not_mem _ _ (List.forall_iff_forall_mem.mp (by
    simp only [hostOps1, hostOps1_1, hostOps2, hostOps3, hostOps4, List.Forall, StableHlo.nullary_writes,
      StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide))))

/-! ## The host stretches, from any contents `X` -/

section Host
variable {F : FTy → Type} [FloatOps F] (X : Valuation τ sig (Elt F))

local notation "dr" => Proc.devRef (τ := τ) (sig := sig) Proc.tc

/-- Contents carried to a typed reference's buffer and back are the contents. -/
theorem ofBuf_toBuf {T : BufTy} (x : StableHlo.TRef sig T) (v : T.Contents (Elt F)) : x.ofBuf (x.toBuf v) = v := by
  obtain ⟨r, hty, h1, h2⟩ := x
  subst hty
  rfl

/-! A typed reference to a buffer of that very type reads and writes the buffer's contents as they are. -/
theorem read_arg2 (p q s) : (StableHlo.TRef.of main_arg2 p q s : StableHlo.TRef sig ⟨S6400000, .i32⟩).ofBuf
    (X (dr (StableHlo.TRef.of main_arg2 p q s : StableHlo.TRef sig ⟨S6400000, .i32⟩).ref)) = X (dr main_arg2) := rfl
theorem read_v0 (p q s) : (StableHlo.TRef.of main_v0 p q s : StableHlo.TRef sig ⟨S200000x10, .f32⟩).ofBuf
    (X (dr (StableHlo.TRef.of main_v0 p q s : StableHlo.TRef sig ⟨S200000x10, .f32⟩).ref)) = X (dr main_v0) := rfl
theorem read_v10 (p q s) : (StableHlo.TRef.of main_v10 p q s : StableHlo.TRef sig ⟨S200000x10, .f32⟩).ofBuf
    (X (dr (StableHlo.TRef.of main_v10 p q s : StableHlo.TRef sig ⟨S200000x10, .f32⟩).ref)) = X (dr main_v10) := rfl
theorem write_v5 (p q s) (v : (⟨S6400000x10, .f32⟩ : BufTy).Contents (Elt F)) :
    (StableHlo.TRef.of main_v5 p q s : StableHlo.TRef sig ⟨S6400000x10, .f32⟩).toBuf v = v := rfl
theorem write_v11 (p q s) (v : (⟨S6400000x10, .f32⟩ : BufTy).Contents (Elt F)) :
    (StableHlo.TRef.of main_v11 p q s : StableHlo.TRef sig ⟨S6400000x10, .f32⟩).toBuf v = v := rfl

/-- The stretch that cuts the weights: the four row blocks. -/
theorem cut_v1 : StableHlo.after hostOps1 X (dr main_v1) = msgW0 (X (dr main_arg5)) := by
  unfold msgW0; after_results
theorem cut_v2 : StableHlo.after hostOps1 X (dr main_v2) = msgW1 (X (dr main_arg5)) := by
  unfold msgW1; after_results
theorem cut_v3 : StableHlo.after hostOps1 X (dr main_v3) = updW0 (X (dr main_arg6)) := by
  unfold updW0; after_results
theorem cut_v4 : StableHlo.after hostOps1 X (dr main_v4) = updW1 (X (dr main_arg6)) := by
  unfold updW1; after_results

set_option maxHeartbeats 1000000 in
/-- The first gather stretch: the guarded gather of the node state's rows at the source indices. -/
theorem take1_v5 : StableHlo.after hostOps1_1 X (dr main_v5) = takeK (X (dr main_v0)) (X (dr main_arg2)) := by
  unfold takeK gatherRows inRange startIdx
  after_results_simp
  simp only [ofBuf_toBuf, read_arg2, read_v0]
  exact write_v5 _ _ _ _

/-- The first summing stretch: the messages summed into their destination rows. -/
theorem sum1_v9 : StableHlo.after hostOps2 X (dr main_v9) = sumInto (X (dr main_v6)) (X (dr main_arg3)) := by
  unfold sumInto; after_results

set_option maxHeartbeats 1000000 in
/-- The second gather stretch. -/
theorem take2_v11 : StableHlo.after hostOps3 X (dr main_v11) = takeK (X (dr main_v10)) (X (dr main_arg2)) := by
  unfold takeK gatherRows inRange startIdx
  after_results_simp
  simp only [ofBuf_toBuf, read_arg2, read_v10]
  exact write_v11 _ _ _ _

/-- The second summing stretch. -/
theorem sum2_v15 : StableHlo.after hostOps4 X (dr main_v15) = sumInto (X (dr main_v12)) (X (dr main_arg3)) := by
  unfold sumInto; after_results

end Host

/-! ## The kernel program's result as a term of its arguments -/

/-- One round of message passing on the node state `h`, as the kernel program composes it. -/
def roundK (h : Cert.Layers.Mat 200000 10) (ef : Cert.Layers.Mat 6400000 6) (src dst : IVec S6400000 32)
    (gw : Cert.Layers.Mat 16 10) (uw : Cert.Layers.Mat 20 10) : Cert.Layers.Mat 200000 10 :=
  Cert.Layers.update h (sumInto (F := Ideal) (Cert.Layers.message (takeK (F := Ideal) h src) ef (msgW0 (F := Ideal) gw) (msgW1 (F := Ideal) gw)) dst)
    (updW0 (F := Ideal) uw) (updW1 (F := Ideal) uw)

/-- The kernel program's result: two rounds from the embedding. -/
def outK (v : Cert.Layers.Mat 200000 82) (ef : Cert.Layers.Mat 6400000 6) (src dst : IVec S6400000 32)
    (wi : Cert.Layers.Mat 82 10) (gw : Cert.Layers.Mat 16 10) (uw : Cert.Layers.Mat 20 10) : Cert.Layers.Mat 200000 10 :=
  roundK (roundK (Cert.Layers.embed v wi) ef src dst gw uw) ef src dst gw uw

/-! ## The buffers at the segment boundaries -/

section Chain
variable (m : (ℓ : Loc nD τ sig) → Buf (Elt Ideal) ℓ) (ρ : Dev nD → PrngReg) (c : Dev nD)

local notation "dr" => Proc.devRef (τ := τ) (sig := sig) Proc.tc

/-- The seven argument arrays as launched on core `c`. -/
abbrev a0 : Cert.Layers.Mat 200000 82 := m ((c : Thread nD τ).loc main_arg0)
abbrev a1 : Cert.Layers.Mat 6400000 6 := m ((c : Thread nD τ).loc main_arg1)
abbrev a2 : IVec S6400000 32 := m ((c : Thread nD τ).loc main_arg2)
abbrev a3 : IVec S6400000 32 := m ((c : Thread nD τ).loc main_arg3)
abbrev a4 : Cert.Layers.Mat 82 10 := m ((c : Thread nD τ).loc main_arg4)
abbrev a5 : Cert.Layers.Mat 16 10 := m ((c : Thread nD τ).loc main_arg5)
abbrev a6 : Cert.Layers.Mat 20 10 := m ((c : Thread nD τ).loc main_arg6)
/-- The node state after the embedding, the first round's messages, the state after the first round, the second round's messages. -/
abbrev h0 : Cert.Layers.Mat 200000 10 := Cert.Layers.embed (a0 m c) (a4 m c)
abbrev m1 : Cert.Layers.Mat 6400000 10 := Cert.Layers.message (takeK (F := Ideal) (h0 m c) (a2 m c)) (a1 m c) (msgW0 (F := Ideal) (a5 m c)) (msgW1 (F := Ideal) (a5 m c))
abbrev h1 : Cert.Layers.Mat 200000 10 := Cert.Layers.update (h0 m c) (sumInto (F := Ideal) (m1 m c) (a3 m c)) (updW0 (F := Ideal) (a6 m c)) (updW1 (F := Ideal) (a6 m c))
abbrev m2 : Cert.Layers.Mat 6400000 10 := Cert.Layers.message (takeK (F := Ideal) (h1 m c) (a2 m c)) (a1 m c) (msgW0 (F := Ideal) (a5 m c)) (msgW1 (F := Ideal) (a5 m c))

/-! ### After the embedding kernel -/
theorem b1_v0 : W1 m ρ c (dr main_v0) = (h0 m c) := (W1_arr m ρ c 2).trans (embed_final (V0 m ρ) c)
theorem b1_arg1 : W1 m ρ c (dr main_arg1) = (a1 m c) := W1_of_ne m ρ c main_arg1 (by decide)
theorem b1_arg2 : W1 m ρ c (dr main_arg2) = (a2 m c) := W1_of_ne m ρ c main_arg2 (by decide)
theorem b1_arg3 : W1 m ρ c (dr main_arg3) = (a3 m c) := W1_of_ne m ρ c main_arg3 (by decide)
theorem b1_arg5 : W1 m ρ c (dr main_arg5) = (a5 m c) := W1_of_ne m ρ c main_arg5 (by decide)
theorem b1_arg6 : W1 m ρ c (dr main_arg6) = (a6 m c) := W1_of_ne m ρ c main_arg6 (by decide)

/-! ### After the weights are cut and the source rows gathered -/
theorem b2_v0 : W2 m ρ c (dr main_v0) = (h0 m c) := (by host_keeps : StableHlo.after hostOps1 (W1 m ρ c) (dr main_v0) = W1 m ρ c (dr main_v0)).trans (b1_v0 m ρ c)
theorem b2_arg1 : W2 m ρ c (dr main_arg1) = (a1 m c) := (by host_keeps : StableHlo.after hostOps1 (W1 m ρ c) (dr main_arg1) = W1 m ρ c (dr main_arg1)).trans (b1_arg1 m ρ c)
theorem b2_arg2 : W2 m ρ c (dr main_arg2) = (a2 m c) := (by host_keeps : StableHlo.after hostOps1 (W1 m ρ c) (dr main_arg2) = W1 m ρ c (dr main_arg2)).trans (b1_arg2 m ρ c)
theorem b2_arg3 : W2 m ρ c (dr main_arg3) = (a3 m c) := (by host_keeps : StableHlo.after hostOps1 (W1 m ρ c) (dr main_arg3) = W1 m ρ c (dr main_arg3)).trans (b1_arg3 m ρ c)
theorem b2_v1 : W2 m ρ c (dr main_v1) = msgW0 (F := Ideal) (a5 m c) := (cut_v1 (W1 m ρ c)).trans (congrArg _ (b1_arg5 m ρ c))
theorem b2_v2 : W2 m ρ c (dr main_v2) = msgW1 (F := Ideal) (a5 m c) := (cut_v2 (W1 m ρ c)).trans (congrArg _ (b1_arg5 m ρ c))
theorem b2_v3 : W2 m ρ c (dr main_v3) = updW0 (F := Ideal) (a6 m c) := (cut_v3 (W1 m ρ c)).trans (congrArg _ (b1_arg6 m ρ c))
theorem b2_v4 : W2 m ρ c (dr main_v4) = updW1 (F := Ideal) (a6 m c) := (cut_v4 (W1 m ρ c)).trans (congrArg _ (b1_arg6 m ρ c))

theorem b3_v5 : W3 m ρ c (dr main_v5) = takeK (F := Ideal) (h0 m c) (a2 m c) :=
  (take1_v5 (W2 m ρ c)).trans (by rw [b2_v0, b2_arg2])
theorem b3_v0 : W3 m ρ c (dr main_v0) = (h0 m c) := (by host_keeps : StableHlo.after hostOps1_1 (W2 m ρ c) (dr main_v0) = W2 m ρ c (dr main_v0)).trans (b2_v0 m ρ c)
theorem b3_arg1 : W3 m ρ c (dr main_arg1) = (a1 m c) := (by host_keeps : StableHlo.after hostOps1_1 (W2 m ρ c) (dr main_arg1) = W2 m ρ c (dr main_arg1)).trans (b2_arg1 m ρ c)
theorem b3_arg2 : W3 m ρ c (dr main_arg2) = (a2 m c) := (by host_keeps : StableHlo.after hostOps1_1 (W2 m ρ c) (dr main_arg2) = W2 m ρ c (dr main_arg2)).trans (b2_arg2 m ρ c)
theorem b3_arg3 : W3 m ρ c (dr main_arg3) = (a3 m c) := (by host_keeps : StableHlo.after hostOps1_1 (W2 m ρ c) (dr main_arg3) = W2 m ρ c (dr main_arg3)).trans (b2_arg3 m ρ c)
theorem b3_v1 : W3 m ρ c (dr main_v1) = msgW0 (F := Ideal) (a5 m c) := (by host_keeps : StableHlo.after hostOps1_1 (W2 m ρ c) (dr main_v1) = W2 m ρ c (dr main_v1)).trans (b2_v1 m ρ c)
theorem b3_v2 : W3 m ρ c (dr main_v2) = msgW1 (F := Ideal) (a5 m c) := (by host_keeps : StableHlo.after hostOps1_1 (W2 m ρ c) (dr main_v2) = W2 m ρ c (dr main_v2)).trans (b2_v2 m ρ c)
theorem b3_v3 : W3 m ρ c (dr main_v3) = updW0 (F := Ideal) (a6 m c) := (by host_keeps : StableHlo.after hostOps1_1 (W2 m ρ c) (dr main_v3) = W2 m ρ c (dr main_v3)).trans (b2_v3 m ρ c)
theorem b3_v4 : W3 m ρ c (dr main_v4) = updW1 (F := Ideal) (a6 m c) := (by host_keeps : StableHlo.after hostOps1_1 (W2 m ρ c) (dr main_v4) = W2 m ρ c (dr main_v4)).trans (b2_v4 m ρ c)

/-! ### After the first message kernel -/
theorem b4_v6 : W4 m ρ c (dr main_v6) = (m1 m c) :=
  ((W4_arr m ρ c 4).trans (message_final1 (V3 m ρ) c)).trans (by
    show Cert.Layers.message (W3 m ρ c (dr main_v5)) (W3 m ρ c (dr main_arg1)) (W3 m ρ c (dr main_v1)) (W3 m ρ c (dr main_v2)) = _
    rw [b3_v5, b3_arg1, b3_v1, b3_v2])
theorem b4_v0 : W4 m ρ c (dr main_v0) = (h0 m c) := (W4_of_ne m ρ c main_v0 (by decide)).trans (b3_v0 m ρ c)
theorem b4_v3 : W4 m ρ c (dr main_v3) = updW0 (F := Ideal) (a6 m c) := (W4_of_ne m ρ c main_v3 (by decide)).trans (b3_v3 m ρ c)
theorem b4_v4 : W4 m ρ c (dr main_v4) = updW1 (F := Ideal) (a6 m c) := (W4_of_ne m ρ c main_v4 (by decide)).trans (b3_v4 m ρ c)
theorem b4_arg2 : W4 m ρ c (dr main_arg2) = (a2 m c) := (W4_of_ne m ρ c main_arg2 (by decide)).trans (b3_arg2 m ρ c)
theorem b4_arg3 : W4 m ρ c (dr main_arg3) = (a3 m c) := (W4_of_ne m ρ c main_arg3 (by decide)).trans (b3_arg3 m ρ c)
theorem b4_arg1 : W4 m ρ c (dr main_arg1) = (a1 m c) :=
  ((W4_arr m ρ c 1).trans (((dat1 (V3 m ρ) c).arrAt_in 1 rfl _).trans (A_eq1 (V3 m ρ) c 1))).trans (b3_arg1 m ρ c)
theorem b4_v1 : W4 m ρ c (dr main_v1) = msgW0 (F := Ideal) (a5 m c) :=
  ((W4_arr m ρ c 2).trans (((dat1 (V3 m ρ) c).arrAt_in 2 rfl _).trans (A_eq1 (V3 m ρ) c 2))).trans (b3_v1 m ρ c)
theorem b4_v2 : W4 m ρ c (dr main_v2) = msgW1 (F := Ideal) (a5 m c) :=
  ((W4_arr m ρ c 3).trans (((dat1 (V3 m ρ) c).arrAt_in 3 rfl _).trans (A_eq1 (V3 m ρ) c 3))).trans (b3_v2 m ρ c)

/-! ### After the first sum into destination rows -/
theorem b5_v9 : W5 m ρ c (dr main_v9) = sumInto (F := Ideal) (m1 m c) (a3 m c) :=
  (sum1_v9 (W4 m ρ c)).trans (by rw [b4_v6, b4_arg3])
theorem b5_v0 : W5 m ρ c (dr main_v0) = (h0 m c) := (by host_keeps : StableHlo.after hostOps2 (W4 m ρ c) (dr main_v0) = W4 m ρ c (dr main_v0)).trans (b4_v0 m ρ c)
theorem b5_v3 : W5 m ρ c (dr main_v3) = updW0 (F := Ideal) (a6 m c) := (by host_keeps : StableHlo.after hostOps2 (W4 m ρ c) (dr main_v3) = W4 m ρ c (dr main_v3)).trans (b4_v3 m ρ c)
theorem b5_v4 : W5 m ρ c (dr main_v4) = updW1 (F := Ideal) (a6 m c) := (by host_keeps : StableHlo.after hostOps2 (W4 m ρ c) (dr main_v4) = W4 m ρ c (dr main_v4)).trans (b4_v4 m ρ c)
theorem b5_arg1 : W5 m ρ c (dr main_arg1) = (a1 m c) := (by host_keeps : StableHlo.after hostOps2 (W4 m ρ c) (dr main_arg1) = W4 m ρ c (dr main_arg1)).trans (b4_arg1 m ρ c)
theorem b5_arg2 : W5 m ρ c (dr main_arg2) = (a2 m c) := (by host_keeps : StableHlo.after hostOps2 (W4 m ρ c) (dr main_arg2) = W4 m ρ c (dr main_arg2)).trans (b4_arg2 m ρ c)
theorem b5_arg3 : W5 m ρ c (dr main_arg3) = (a3 m c) := (by host_keeps : StableHlo.after hostOps2 (W4 m ρ c) (dr main_arg3) = W4 m ρ c (dr main_arg3)).trans (b4_arg3 m ρ c)
theorem b5_v1 : W5 m ρ c (dr main_v1) = msgW0 (F := Ideal) (a5 m c) := (by host_keeps : StableHlo.after hostOps2 (W4 m ρ c) (dr main_v1) = W4 m ρ c (dr main_v1)).trans (b4_v1 m ρ c)
theorem b5_v2 : W5 m ρ c (dr main_v2) = msgW1 (F := Ideal) (a5 m c) := (by host_keeps : StableHlo.after hostOps2 (W4 m ρ c) (dr main_v2) = W4 m ρ c (dr main_v2)).trans (b4_v2 m ρ c)

/-! ### After the first update kernel -/
theorem b6_v10 : W6 m ρ c (dr main_v10) = (h1 m c) :=
  ((W6_arr m ρ c 4).trans (update_final2 (V5 m ρ) c)).trans (by
    show Cert.Layers.update (W5 m ρ c (dr main_v0)) (W5 m ρ c (dr main_v9)) (W5 m ρ c (dr main_v3)) (W5 m ρ c (dr main_v4)) = _
    rw [b5_v0, b5_v9, b5_v3, b5_v4])
theorem b6_arg1 : W6 m ρ c (dr main_arg1) = (a1 m c) := (W6_of_ne m ρ c main_arg1 (by decide)).trans (b5_arg1 m ρ c)
theorem b6_arg2 : W6 m ρ c (dr main_arg2) = (a2 m c) := (W6_of_ne m ρ c main_arg2 (by decide)).trans (b5_arg2 m ρ c)
theorem b6_arg3 : W6 m ρ c (dr main_arg3) = (a3 m c) := (W6_of_ne m ρ c main_arg3 (by decide)).trans (b5_arg3 m ρ c)
theorem b6_v1 : W6 m ρ c (dr main_v1) = msgW0 (F := Ideal) (a5 m c) := (W6_of_ne m ρ c main_v1 (by decide)).trans (b5_v1 m ρ c)
theorem b6_v2 : W6 m ρ c (dr main_v2) = msgW1 (F := Ideal) (a5 m c) := (W6_of_ne m ρ c main_v2 (by decide)).trans (b5_v2 m ρ c)
theorem b6_v3 : W6 m ρ c (dr main_v3) = updW0 (F := Ideal) (a6 m c) :=
  ((W6_arr m ρ c 2).trans (((dat2 (V5 m ρ) c).arrAt_in 2 rfl _).trans (A_eq2 (V5 m ρ) c 2))).trans (b5_v3 m ρ c)
theorem b6_v4 : W6 m ρ c (dr main_v4) = updW1 (F := Ideal) (a6 m c) :=
  ((W6_arr m ρ c 3).trans (((dat2 (V5 m ρ) c).arrAt_in 3 rfl _).trans (A_eq2 (V5 m ρ) c 3))).trans (b5_v4 m ρ c)

/-! ### After the second gather -/
theorem b7_v11 : W7 m ρ c (dr main_v11) = takeK (F := Ideal) (h1 m c) (a2 m c) :=
  (take2_v11 (W6 m ρ c)).trans (by rw [b6_v10, b6_arg2])
theorem b7_v10 : W7 m ρ c (dr main_v10) = (h1 m c) := (by host_keeps : StableHlo.after hostOps3 (W6 m ρ c) (dr main_v10) = W6 m ρ c (dr main_v10)).trans (b6_v10 m ρ c)
theorem b7_arg1 : W7 m ρ c (dr main_arg1) = (a1 m c) := (by host_keeps : StableHlo.after hostOps3 (W6 m ρ c) (dr main_arg1) = W6 m ρ c (dr main_arg1)).trans (b6_arg1 m ρ c)
theorem b7_arg3 : W7 m ρ c (dr main_arg3) = (a3 m c) := (by host_keeps : StableHlo.after hostOps3 (W6 m ρ c) (dr main_arg3) = W6 m ρ c (dr main_arg3)).trans (b6_arg3 m ρ c)
theorem b7_v1 : W7 m ρ c (dr main_v1) = msgW0 (F := Ideal) (a5 m c) := (by host_keeps : StableHlo.after hostOps3 (W6 m ρ c) (dr main_v1) = W6 m ρ c (dr main_v1)).trans (b6_v1 m ρ c)
theorem b7_v2 : W7 m ρ c (dr main_v2) = msgW1 (F := Ideal) (a5 m c) := (by host_keeps : StableHlo.after hostOps3 (W6 m ρ c) (dr main_v2) = W6 m ρ c (dr main_v2)).trans (b6_v2 m ρ c)
theorem b7_v3 : W7 m ρ c (dr main_v3) = updW0 (F := Ideal) (a6 m c) := (by host_keeps : StableHlo.after hostOps3 (W6 m ρ c) (dr main_v3) = W6 m ρ c (dr main_v3)).trans (b6_v3 m ρ c)
theorem b7_v4 : W7 m ρ c (dr main_v4) = updW1 (F := Ideal) (a6 m c) := (by host_keeps : StableHlo.after hostOps3 (W6 m ρ c) (dr main_v4) = W6 m ρ c (dr main_v4)).trans (b6_v4 m ρ c)

/-! ### After the second message kernel -/
theorem b8_v12 : W8 m ρ c (dr main_v12) = (m2 m c) :=
  ((W8_arr m ρ c 4).trans (message_final3 (V7 m ρ) c)).trans (by
    show Cert.Layers.message (W7 m ρ c (dr main_v11)) (W7 m ρ c (dr main_arg1)) (W7 m ρ c (dr main_v1)) (W7 m ρ c (dr main_v2)) = _
    rw [b7_v11, b7_arg1, b7_v1, b7_v2])
theorem b8_v10 : W8 m ρ c (dr main_v10) = (h1 m c) := (W8_of_ne m ρ c main_v10 (by decide)).trans (b7_v10 m ρ c)
theorem b8_arg3 : W8 m ρ c (dr main_arg3) = (a3 m c) := (W8_of_ne m ρ c main_arg3 (by decide)).trans (b7_arg3 m ρ c)
theorem b8_v3 : W8 m ρ c (dr main_v3) = updW0 (F := Ideal) (a6 m c) := (W8_of_ne m ρ c main_v3 (by decide)).trans (b7_v3 m ρ c)
theorem b8_v4 : W8 m ρ c (dr main_v4) = updW1 (F := Ideal) (a6 m c) := (W8_of_ne m ρ c main_v4 (by decide)).trans (b7_v4 m ρ c)

/-! ### After the second sum into destination rows -/
theorem b9_v15 : W9 m ρ c (dr main_v15) = sumInto (F := Ideal) (m2 m c) (a3 m c) :=
  (sum2_v15 (W8 m ρ c)).trans (by rw [b8_v12, b8_arg3])
theorem b9_v10 : W9 m ρ c (dr main_v10) = (h1 m c) := (by host_keeps : StableHlo.after hostOps4 (W8 m ρ c) (dr main_v10) = W8 m ρ c (dr main_v10)).trans (b8_v10 m ρ c)
theorem b9_v3 : W9 m ρ c (dr main_v3) = updW0 (F := Ideal) (a6 m c) := (by host_keeps : StableHlo.after hostOps4 (W8 m ρ c) (dr main_v3) = W8 m ρ c (dr main_v3)).trans (b8_v3 m ρ c)
theorem b9_v4 : W9 m ρ c (dr main_v4) = updW1 (F := Ideal) (a6 m c) := (by host_keeps : StableHlo.after hostOps4 (W8 m ρ c) (dr main_v4) = W8 m ρ c (dr main_v4)).trans (b8_v4 m ρ c)

/-! ### After the second update kernel: the result -/
/-- The result buffer at the last boundary is the kernel program's composed term of the seven argument arrays. -/
theorem result_eq : W10 m ρ c (dr main_v16) = outK (a0 m c) (a1 m c) (a2 m c) (a3 m c) (a4 m c) (a5 m c) (a6 m c) :=
  ((W10_arr m ρ c 4).trans (update_final4 (V9 m ρ) c)).trans (by
    show Cert.Layers.update (W9 m ρ c (dr main_v10)) (W9 m ρ c (dr main_v15)) (W9 m ρ c (dr main_v3)) (W9 m ρ c (dr main_v4)) = _
    rw [b9_v10, b9_v15, b9_v3, b9_v4]
    rfl)

end Chain

end Cert.KernelIdeal.KValue

end
-- ==== Proof.TakePre.lean ====
/-
  Under the precondition every source index lies in -200000 … 199999, so counted from the end when negative it lies in
  0 … 199999: the guard of the kernel program's gather holds at every edge, and its guarded gather is the plain one.
-/
import proofs.«409437_j15616501088483_1_alg».proof.Proof.Gen.KernelIdeal
import proofs.«409437_j15616501088483_1_alg».proof.Proof.Gen.Pre_finite_inputs
import proofs.«409437_j15616501088483_1_alg».proof.Proof.KTerms
import Idealize.ShloMosaic.Lib.ReduceAll
import Idealize.ShloMosaic.Lib.StableHlo.Predicate
import Idealize.ShloMosaic.Lib.ValueIdx

noncomputable section

namespace Cert.KernelIdeal.KValue

open Idealize.ShloMosaic Idealize.ShloMosaic.ValueIdx Cert.KernelIdeal Cert.KernelIdeal.Gen

/-- Every source index is one the reference's `h[src]` accepts for 200000 rows. -/
def SrcOk (src : IVec S6400000 32) : Prop :=
  ∀ e : S6400000.Idx, (-200000 : Int) ≤ (src e).toInt ∧ (src e).toInt < 200000

instance : Subsingleton Cert.Pre_finite_inputs.S_.Idx := ⟨fun a b => funext fun d => d.elim0⟩

/-- The precondition's last conjunct, read back. -/
theorem srcOk_of_pre {F : FTy → Type} [FloatOps F]
    (a0 : FVec F Cert.Pre_finite_inputs.S200000x82 .f32) (a1 : FVec F Cert.Pre_finite_inputs.S6400000x6 .f32)
    (a2 : IVec Cert.Pre_finite_inputs.S6400000 32) (a3 : IVec Cert.Pre_finite_inputs.S6400000 32)
    (a4 : FVec F Cert.Pre_finite_inputs.S82x10 .f32) (a5 : FVec F Cert.Pre_finite_inputs.S16x10 .f32)
    (a6 : FVec F Cert.Pre_finite_inputs.S20x10 .f32)
    (h : Cert.Pre_finite_inputs.fn (F := F) a0 a1 a2 a3 a4 a5 a6 = fun _ => 1#1) : SrcOk a2 := by
  intro e
  have h0 := congrFun h ix0
  dsimp only [Cert.Pre_finite_inputs.fn, Cert.Pre_finite_inputs.fn_part1] at h0
  have h1 : Host.reduce IntOp.andi
      (andi (cmpi .sge a2 (broadcastInDim Cert.Pre_finite_inputs.S6400000 ![] Cert.Pre_finite_inputs.Facts.bcast_S_S6400000 (constantI Cert.Pre_finite_inputs.S_ 32 4294767296#32)))
        (cmpi .slt a2 (broadcastInDim Cert.Pre_finite_inputs.S6400000 ![] Cert.Pre_finite_inputs.Facts.bcast_S_S6400000 (constantI Cert.Pre_finite_inputs.S_ 32 200000#32))))
      (constantI Cert.Pre_finite_inputs.S_ 1 1#1) Cert.Pre_finite_inputs.Facts.reducesTo_S6400000_S_d0 Cert.Pre_finite_inputs.Facts.h_S_ ix0 = 1#1 :=
    (IntOp.andi_eq_one.1 h0).2
  have h2 := Host.reduce_andi_all _ _ _ _ _ h1 e
  obtain ⟨hge, hlt⟩ := IntOp.andi_eq_one.1 h2
  have hge' : IntOp.cmpi .sge (a2 e) (4294767296#32 : BitVec 32) = 1#1 := hge
  have hlt' : IntOp.cmpi .slt (a2 e) (200000#32 : BitVec 32) = 1#1 := hlt
  rw [IntOp.cmpi_sge] at hge'
  rw [IntOp.cmpi_slt] at hlt'
  exact ⟨by simpa using hge', by simpa using hlt'⟩

/-- A word in -200000 … 199999, counted from the end (plus 200000) when negative, lies in 0 … 199999. -/
theorem wrapped_inRange (w : BitVec 32) (h1 : (-200000 : Int) ≤ w.toInt) (h2 : w.toInt < 200000) :
    IntOp.cmpi .sge (Scalar.select (IntOp.cmpi .slt w 0#32) (IntOp.addi w 200000#32) w) 0#32 = 1#1 ∧
    IntOp.cmpi .sle (Scalar.select (IntOp.cmpi .slt w 0#32) (IntOp.addi w 200000#32) w) 199999#32 = 1#1 := by
  rw [IntOp.cmpi_sge, IntOp.cmpi_sle]
  by_cases hneg : w.toInt < 0
  · have hc : IntOp.cmpi .slt w 0#32 = 1#1 := IntOp.cmpi_slt.2 (by simpa using hneg)
    rw [hc, select_one]
    have hadd : (IntOp.addi w 200000#32).toInt = w.toInt + 200000 := by
      show (w + 200000#32).toInt = _
      rw [BitVec.toInt_add]
      have : (200000#32 : BitVec 32).toInt = 200000 := by decide
      rw [this]
      exact Int.bmod_eq_of_le_mul_two (by omega) (by omega)
    rw [hadd]
    have : (0#32 : BitVec 32).toInt = 0 := by decide
    have : (199999#32 : BitVec 32).toInt = 199999 := by decide
    omega
  · have hc : IntOp.cmpi .slt w 0#32 = 0#1 := eq_zero_of_ne_one fun hh => hneg (by simpa using IntOp.cmpi_slt.1 hh)
    rw [hc, select_zero]
    have : (0#32 : BitVec 32).toInt = 0 := by decide
    have : (199999#32 : BitVec 32).toInt = 199999 := by decide
    omega

/-- A left fold by `and` from 1 over words that are all 1 is 1. -/
theorem foldl_andi_all_one {ι : Type} (f : ι → BitVec 1) :
    ∀ (l : List ι) (init : BitVec 1), init = 1#1 → (∀ n ∈ l, f n = 1#1) → l.foldl (fun r n => IntOp.andi r (f n)) init = 1#1
  | [], _, hi, _ => hi
  | a :: l, init, hi, hl => by
    rw [List.foldl_cons]
    exact foldl_andi_all_one f l _ (IntOp.andi_eq_one.2 ⟨hi, hl a List.mem_cons_self⟩) fun n hn => hl n (List.mem_cons_of_mem _ hn)

/-- Under the range of the source indices the gather's guard holds at every edge. -/
theorem inRange_one (src : IVec S6400000 32) (hs : SrcOk src) (e : S6400000.Idx) : inRange (startIdx src) e = 1#1 := by
  unfold inRange
  rw [Host.reduce_eq_foldl]
  refine foldl_andi_all_one _ _ _ rfl fun i' _ => ?_
  show IntOp.andi (IntOp.cmpi .sge (startIdx src i') 0#32) (IntOp.cmpi .sle (startIdx src i') 199999#32) = 1#1
  rw [IntOp.andi_eq_one]
  exact wrapped_inRange _ (hs _).1 (hs _).2

/-- So the guarded gather is the plain gather of the rows at the start indices. -/
theorem takeK_eq_gather {F : FTy → Type} [FloatOps F] (h : FVec F S200000x10 .f32) (src : IVec S6400000 32) (hs : SrcOk src) :
    takeK h src = gatherRows h (startIdx src) := by
  funext j
  unfold takeK
  rw [select_apply]
  have hm : broadcastInDim S6400000x10 ![0] Facts₀.bcast_S6400000_S6400000x10_0 (inRange (startIdx src)) j = 1#1 :=
    inRange_one src hs _
  rw [hm, select_one]

end Cert.KernelIdeal.KValue

end
-- ==== Proof.RefTerms.lean ====
/-
  The reference program's result as ONE term of its argument arrays: its host operations composed, stage by stage.
  A node state `h` goes through two rounds of
      gather the rows `h[src]`  →  message layer against the whole 16 × 10 weight matrix over [gathered | edge features]
      →  sum the messages into their destination rows  →  update layer against the whole 20 × 10 matrix over [h | sums],
  starting from the embedding of the node features.
-/
import proofs.«409437_j15616501088483_1_alg».proof.ReferenceIdeal

noncomputable section

namespace Cert.ReferenceIdeal.RefValue

open Idealize.ShloMosaic Cert.ReferenceIdeal

variable {F : FTy → Type} [FloatOps F] [Facts]
open Facts₀ Facts

/-- The rectifier over a node-shaped array, as the reference's `leaky_relu` spells it: a select on `x ≥ 0` between `x`
    and the slope times `x`. -/
def lreluN (x : FVec F S200000x10 .f32) : FVec F S200000x10 .f32 :=
  select (cmpf .oge x (broadcastInDim S200000x10 ![] bcast_S_S200000x10 (constant S_ .f32 0x00000000#32))) x
    (mulf (broadcastInDim S200000x10 ![] bcast_S_S200000x10 (id (constant S_ .f32 0x3DCCCCCD#32))) x)

/-- The same over an edge-shaped array. -/
def lreluE (x : FVec F S6400000x10 .f32) : FVec F S6400000x10 .f32 :=
  select (cmpf .oge x (broadcastInDim S6400000x10 ![] bcast_S_S6400000x10 (constant S_ .f32 0x00000000#32))) x
    (mulf (broadcastInDim S6400000x10 ![] bcast_S_S6400000x10 (id (constant S_ .f32 0x3DCCCCCD#32))) x)

/-- The embedding: the rectified product of the node features with the embedding weights. -/
def embedR (v : FVec F S200000x82 .f32) (w : FVec F S82x10 .f32) : FVec F S200000x10 .f32 :=
  lreluN (Host.dotGeneral dot_S200000x82_S82x10_S200000x10_1_0_0_1_n_n none v w)

/-- The source indices as the gather takes them: a negative index counted from the end (`src + 200000`), as a column. -/
def startIdx (src : IVec S6400000 32) : IVec S6400000x1 32 :=
  broadcastInDim S6400000x1 ![0] bcast_S6400000_S6400000x1_0
    (select (cmpi .slt src (broadcastInDim S6400000 ![] bcast_S_S6400000 (constantI S_ 32 0#32)))
      (addi src (broadcastInDim S6400000 ![] bcast_S_S6400000 (constantI S_ 32 200000#32))) src)

/-- The rows of `h` at the source nodes, one per edge. -/
def takeR (h : FVec F S200000x10 .f32) (src : IVec S6400000 32) : FVec F S6400000x10 .f32 :=
  Host.gather gather_S200000x10_S6400000x1_S6400000x10_1_0_n_n_0_1_110 h (startIdx src)

/-- The message layer: [gathered | edge features] against the whole 16 × 10 weight matrix, rectified. -/
def messageR (g : FVec F S6400000x10 .f32) (ef : FVec F S6400000x6 .f32) (gw : FVec F S16x10 .f32) : FVec F S6400000x10 .f32 :=
  lreluE (Host.dotGeneral dot_S6400000x16_S16x10_S6400000x10_1_0_0_1_n_n none
    (concatenate S6400000x16 1 [⟨S6400000x10, g⟩, ⟨S6400000x6, ef⟩] concatenates_S6400000x10_S6400000x6_S6400000x16_d1) gw)

/-- The messages summed into their destination rows, from zero. -/
def sumInto (msg : FVec F S6400000x10 .f32) (dst : IVec S6400000 32) : FVec F S200000x10 .f32 :=
  Host.scatterAdd scatter_S200000x10_S6400000x1_S6400000x10_1_0_0_1
    (broadcastInDim S200000x10 ![] bcast_S_S200000x10 (constant S_ .f32 0x00000000#32))
    (broadcastInDim S6400000x1 ![0] bcast_S6400000_S6400000x1_0 dst) msg

/-- The update layer: [state | summed messages] against the whole 20 × 10 weight matrix, rectified. -/
def updateR (h a : FVec F S200000x10 .f32) (uw : FVec F S20x10 .f32) : FVec F S200000x10 .f32 :=
  lreluN (Host.dotGeneral dot_S200000x20_S20x10_S200000x10_1_0_0_1_n_n none
    (concatenate S200000x20 1 [⟨S200000x10, h⟩, ⟨S200000x10, a⟩] concatenates_S200000x10_S200000x10_S200000x20_d1) uw)

/-- One round of message passing on the node state `h`. -/
def roundR (h : FVec F S200000x10 .f32) (ef : FVec F S6400000x6 .f32) (src dst : IVec S6400000 32)
    (gw : FVec F S16x10 .f32) (uw : FVec F S20x10 .f32) : FVec F S200000x10 .f32 :=
  updateR h (sumInto (messageR (takeR h src) ef gw) dst) uw

/-- The reference's result: two rounds from the embedding. -/
def outR (v : FVec F S200000x82 .f32) (ef : FVec F S6400000x6 .f32) (src dst : IVec S6400000 32)
    (wi : FVec F S82x10 .f32) (gw : FVec F S16x10 .f32) (uw : FVec F S20x10 .f32) : FVec F S200000x10 .f32 :=
  roundR (roundR (embedR v wi) ef src dst gw uw) ef src dst gw uw

end Cert.ReferenceIdeal.RefValue

end
-- ==== Proof.RefRun.lean ====
/-
  The reference program's run: its @main is a straight line of host operations (the rectifier's and the select's
  bodies inlined at their five call sites), so every weakly fair execution ends with the result buffer at the
  operations' composed term of the argument arrays, which is two rounds of message passing from the embedding, and
  with the arguments unchanged.
-/
import proofs.«409437_j15616501088483_1_alg».proof.Proof.Gen.ReferenceIdeal
import proofs.«409437_j15616501088483_1_alg».proof.Proof.RefTerms
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The join of the gathered rows with the edge features along the columns, as a function of its two operands. -/
def joinE (a : FVec F S6400000x10 .f32) (b : FVec F S6400000x6 .f32) : FVec F S6400000x16 .f32 :=
  concatenate S6400000x16 1 [⟨S6400000x10, a⟩, ⟨S6400000x6, b⟩] concatenates_S6400000x10_S6400000x6_S6400000x16_d1

/-- The join of the node state with the summed messages along the columns, as a function of its two operands. -/
def joinN (a b : FVec F S200000x10 .f32) : FVec F S200000x20 .f32 :=
  concatenate S200000x20 1 [⟨S200000x10, a⟩, ⟨S200000x10, b⟩] concatenates_S200000x10_S200000x10_S200000x20_d1

/-- @main's seventy-five operations in order. Each call of the rectifier is seven of them over that call's own
    buffers: the scalar zero, its broadcast, the comparison `x ≥ 0`, the slope converted to its own type, its
    broadcast, the product with `x`, and the select between `x` and that product. Around the five calls stand the
    embedding's product, and per round: the source indices wrapped when negative and made a column, the gather of
    the state's rows, the join with the edge features and the message product; the zero array, the destination
    indices as a column and the summation of the messages into their rows; the join with the state and the update
    product. -/
abbrev ops : List (HloOp τ sig (Elt F)) :=
  [ binary main_arg0 main_arg4 main_v0 ((fun l r => Host.dotGeneral dot_S200000x82_S82x10_S200000x10_1_0_0_1_n_n none l r) : (⟨S200000x82, .f32⟩ : BufTy).Contents (Elt F) → (⟨S82x10, .f32⟩ : BufTy).Contents (Elt F) → (⟨S200000x10, .f32⟩ : BufTy).Contents (Elt F)),
    nullary main_cst (constant S_ .f32 0x3DCCCCCD#32),
    TRef.nullary main_call0.cst (constant S_ .f32 0x00000000#32),
    TRef.unary main_call0.cst main_call0.v0 (broadcastInDim S200000x10 ![] bcast_S_S200000x10),
    TRef.binary (.of main_v0 : TRef sig ⟨S200000x10, .f32⟩) main_call0.v0 main_call0.v1 (cmpf .oge),
    TRef.unary (.of main_cst : TRef sig ⟨S_, .f32⟩) main_call0.v2 id,
    TRef.unary main_call0.v2 main_call0.v3 (broadcastInDim S200000x10 ![] bcast_S_S200000x10),
    TRef.binary main_call0.v3 (.of main_v0 : TRef sig ⟨S200000x10, .f32⟩) main_call0.v4 mulf,
    TRef.ternary main_call0.v1 (.of main_v0 : TRef sig ⟨S200000x10, .f32⟩) main_call0.v4 main_call0.call0.v0 select,
    nullary main_c (constantI S_ 32 0#32),
    unary main_c main_v2 (broadcastInDim S6400000 ![] bcast_S_S6400000 : (⟨S_, .i32⟩ : BufTy).Contents (Elt F) → (⟨S6400000, .i32⟩ : BufTy).Contents (Elt F)),
    binary main_arg2 main_v2 main_v3 (cmpi .slt : (⟨S6400000, .i32⟩ : BufTy).Contents (Elt F) → (⟨S6400000, .i32⟩ : BufTy).Contents (Elt F) → (⟨S6400000, .i1⟩ : BufTy).Contents (Elt F)),
    nullary main_c_0 (constantI S_ 32 200000#32),
    unary main_c_0 main_v4 (broadcastInDim S6400000 ![] bcast_S_S6400000 : (⟨S_, .i32⟩ : BufTy).Contents (Elt F) → (⟨S6400000, .i32⟩ : BufTy).Contents (Elt F)),
    binary main_arg2 main_v4 main_v5 (addi : (⟨S6400000, .i32⟩ : BufTy).Contents (Elt F) → (⟨S6400000, .i32⟩ : BufTy).Contents (Elt F) → (⟨S6400000, .i32⟩ : BufTy).Contents (Elt F)),
    ternary main_v3 main_v5 main_arg2 main_v6 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    unary main_v6 main_v7 (broadcastInDim S6400000x1 ![0] bcast_S6400000_S6400000x1_0 : (⟨S6400000, .i32⟩ : BufTy).Contents (Elt F) → (⟨S6400000x1, .i32⟩ : BufTy).Contents (Elt F)),
    binary main_v1 main_v7 main_v8 ((fun x i => Host.gather gather_S200000x10_S6400000x1_S6400000x10_1_0_n_n_0_1_110 x i) : (⟨S200000x10, .f32⟩ : BufTy).Contents (Elt F) → (⟨S6400000x1, .i32⟩ : BufTy).Contents (Elt F) → (⟨S6400000x10, .f32⟩ : BufTy).Contents (Elt F)),
    binary main_v8 main_arg1 main_v9 (joinE : (⟨S6400000x10, .f32⟩ : BufTy).Contents (Elt F) → (⟨S6400000x6, .f32⟩ : BufTy).Contents (Elt F) → (⟨S6400000x16, .f32⟩ : BufTy).Contents (Elt F)),
    binary main_v9 main_arg5 main_v10 ((fun l r => Host.dotGeneral dot_S6400000x16_S16x10_S6400000x10_1_0_0_1_n_n none l r) : (⟨S6400000x16, .f32⟩ : BufTy).Contents (Elt F) → (⟨S16x10, .f32⟩ : BufTy).Contents (Elt F) → (⟨S6400000x10, .f32⟩ : BufTy).Contents (Elt F)),
    nullary main_cst_1 (constant S_ .f32 0x3DCCCCCD#32),
    TRef.nullary main_call1.cst (constant S_ .f32 0x00000000#32),
    TRef.unary main_call1.cst main_call1.v0 (broadcastInDim S6400000x10 ![] bcast_S_S6400000x10),
    TRef.binary (.of main_v10 : TRef sig ⟨S6400000x10, .f32⟩) main_call1.v0 main_call1.v1 (cmpf .oge),
    TRef.unary (.of main_cst_1 : TRef sig ⟨S_, .f32⟩) main_call1.v2 id,
    TRef.unary main_call1.v2 main_call1.v3 (broadcastInDim S6400000x10 ![] bcast_S_S6400000x10),
    TRef.binary main_call1.v3 (.of main_v10 : TRef sig ⟨S6400000x10, .f32⟩) main_call1.v4 mulf,
    TRef.ternary main_call1.v1 (.of main_v10 : TRef sig ⟨S6400000x10, .f32⟩) main_call1.v4 main_call1.call0.v0 select,
    nullary main_cst_2 (constant S_ .f32 0x00000000#32),
    unary main_cst_2 main_v12 (broadcastInDim S200000x10 ![] bcast_S_S200000x10 : (⟨S_, .f32⟩ : BufTy).Contents (Elt F) → (⟨S200000x10, .f32⟩ : BufTy).Contents (Elt F)),
    unary main_arg3 main_v13 (broadcastInDim S6400000x1 ![0] bcast_S6400000_S6400000x1_0 : (⟨S6400000, .i32⟩ : BufTy).Contents (Elt F) → (⟨S6400000x1, .i32⟩ : BufTy).Contents (Elt F)),
    ternary main_v12 main_v13 main_v11 main_v14 ((fun x i u => Host.scatterAdd scatter_S200000x10_S6400000x1_S6400000x10_1_0_0_1 x i u) : (⟨S200000x10, .f32⟩ : BufTy).Contents (Elt F) → (⟨S6400000x1, .i32⟩ : BufTy).Contents (Elt F) → (⟨S6400000x10, .f32⟩ : BufTy).Contents (Elt F) → (⟨S200000x10, .f32⟩ : BufTy).Contents (Elt F)),
    binary main_v1 main_v14 main_v15 (joinN : (⟨S200000x10, .f32⟩ : BufTy).Contents (Elt F) → (⟨S200000x10, .f32⟩ : BufTy).Contents (Elt F) → (⟨S200000x20, .f32⟩ : BufTy).Contents (Elt F)),
    binary main_v15 main_arg6 main_v16 ((fun l r => Host.dotGeneral dot_S200000x20_S20x10_S200000x10_1_0_0_1_n_n none l r) : (⟨S200000x20, .f32⟩ : BufTy).Contents (Elt F) → (⟨S20x10, .f32⟩ : BufTy).Contents (Elt F) → (⟨S200000x10, .f32⟩ : BufTy).Contents (Elt F)),
    nullary main_cst_3 (constant S_ .f32 0x3DCCCCCD#32),
    TRef.nullary main_call2.cst (constant S_ .f32 0x00000000#32),
    TRef.unary main_call2.cst main_call2.v0 (broadcastInDim S200000x10 ![] bcast_S_S200000x10),
    TRef.binary (.of main_v16 : TRef sig ⟨S200000x10, .f32⟩) main_call2.v0 main_call2.v1 (cmpf .oge),
    TRef.unary (.of main_cst_3 : TRef sig ⟨S_, .f32⟩) main_call2.v2 id,
    TRef.unary main_call2.v2 main_call2.v3 (broadcastInDim S200000x10 ![] bcast_S_S200000x10),
    TRef.binary main_call2.v3 (.of main_v16 : TRef sig ⟨S200000x10, .f32⟩) main_call2.v4 mulf,
    TRef.ternary main_call2.v1 (.of main_v16 : TRef sig ⟨S200000x10, .f32⟩) main_call2.v4 main_call2.call0.v0 select,
    nullary main_c_4 (constantI S_ 32 0#32),
    unary main_c_4 main_v18 (broadcastInDim S6400000 ![] bcast_S_S6400000 : (⟨S_, .i32⟩ : BufTy).Contents (Elt F) → (⟨S6400000, .i32⟩ : BufTy).Contents (Elt F)),
    binary main_arg2 main_v18 main_v19 (cmpi .slt : (⟨S6400000, .i32⟩ : BufTy).Contents (Elt F) → (⟨S6400000, .i32⟩ : BufTy).Contents (Elt F) → (⟨S6400000, .i1⟩ : BufTy).Contents (Elt F)),
    nullary main_c_5 (constantI S_ 32 200000#32),
    unary main_c_5 main_v20 (broadcastInDim S6400000 ![] bcast_S_S6400000 : (⟨S_, .i32⟩ : BufTy).Contents (Elt F) → (⟨S6400000, .i32⟩ : BufTy).Contents (Elt F)),
    binary main_arg2 main_v20 main_v21 (addi : (⟨S6400000, .i32⟩ : BufTy).Contents (Elt F) → (⟨S6400000, .i32⟩ : BufTy).Contents (Elt F) → (⟨S6400000, .i32⟩ : BufTy).Contents (Elt F)),
    ternary main_v19 main_v21 main_arg2 main_v22 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    unary main_v22 main_v23 (broadcastInDim S6400000x1 ![0] bcast_S6400000_S6400000x1_0 : (⟨S6400000, .i32⟩ : BufTy).Contents (Elt F) → (⟨S6400000x1, .i32⟩ : BufTy).Contents (Elt F)),
    binary main_v17 main_v23 main_v24 ((fun x i => Host.gather gather_S200000x10_S6400000x1_S6400000x10_1_0_n_n_0_1_110 x i) : (⟨S200000x10, .f32⟩ : BufTy).Contents (Elt F) → (⟨S6400000x1, .i32⟩ : BufTy).Contents (Elt F) → (⟨S6400000x10, .f32⟩ : BufTy).Contents (Elt F)),
    binary main_v24 main_arg1 main_v25 (joinE : (⟨S6400000x10, .f32⟩ : BufTy).Contents (Elt F) → (⟨S6400000x6, .f32⟩ : BufTy).Contents (Elt F) → (⟨S6400000x16, .f32⟩ : BufTy).Contents (Elt F)),
    binary main_v25 main_arg5 main_v26 ((fun l r => Host.dotGeneral dot_S6400000x16_S16x10_S6400000x10_1_0_0_1_n_n none l r) : (⟨S6400000x16, .f32⟩ : BufTy).Contents (Elt F) → (⟨S16x10, .f32⟩ : BufTy).Contents (Elt F) → (⟨S6400000x10, .f32⟩ : BufTy).Contents (Elt F)),
    nullary main_cst_6 (constant S_ .f32 0x3DCCCCCD#32),
    TRef.nullary main_call3.cst (constant S_ .f32 0x00000000#32),
    TRef.unary main_call3.cst main_call3.v0 (broadcastInDim S6400000x10 ![] bcast_S_S6400000x10),
    TRef.binary (.of main_v26 : TRef sig ⟨S6400000x10, .f32⟩) main_call3.v0 main_call3.v1 (cmpf .oge),
    TRef.unary (.of main_cst_6 : TRef sig ⟨S_, .f32⟩) main_call3.v2 id,
    TRef.unary main_call3.v2 main_call3.v3 (broadcastInDim S6400000x10 ![] bcast_S_S6400000x10),
    TRef.binary main_call3.v3 (.of main_v26 : TRef sig ⟨S6400000x10, .f32⟩) main_call3.v4 mulf,
    TRef.ternary main_call3.v1 (.of main_v26 : TRef sig ⟨S6400000x10, .f32⟩) main_call3.v4 main_call3.call0.v0 select,
    nullary main_cst_7 (constant S_ .f32 0x00000000#32),
    unary main_cst_7 main_v28 (broadcastInDim S200000x10 ![] bcast_S_S200000x10 : (⟨S_, .f32⟩ : BufTy).Contents (Elt F) → (⟨S200000x10, .f32⟩ : BufTy).Contents (Elt F)),
    unary main_arg3 main_v29 (broadcastInDim S6400000x1 ![0] bcast_S6400000_S6400000x1_0 : (⟨S6400000, .i32⟩ : BufTy).Contents (Elt F) → (⟨S6400000x1, .i32⟩ : BufTy).Contents (Elt F)),
    ternary main_v28 main_v29 main_v27 main_v30 ((fun x i u => Host.scatterAdd scatter_S200000x10_S6400000x1_S6400000x10_1_0_0_1 x i u) : (⟨S200000x10, .f32⟩ : BufTy).Contents (Elt F) → (⟨S6400000x1, .i32⟩ : BufTy).Contents (Elt F) → (⟨S6400000x10, .f32⟩ : BufTy).Contents (Elt F) → (⟨S200000x10, .f32⟩ : BufTy).Contents (Elt F)),
    binary main_v17 main_v30 main_v31 (joinN : (⟨S200000x10, .f32⟩ : BufTy).Contents (Elt F) → (⟨S200000x10, .f32⟩ : BufTy).Contents (Elt F) → (⟨S200000x20, .f32⟩ : BufTy).Contents (Elt F)),
    binary main_v31 main_arg6 main_v32 ((fun l r => Host.dotGeneral dot_S200000x20_S20x10_S200000x10_1_0_0_1_n_n none l r) : (⟨S200000x20, .f32⟩ : BufTy).Contents (Elt F) → (⟨S20x10, .f32⟩ : BufTy).Contents (Elt F) → (⟨S200000x10, .f32⟩ : BufTy).Contents (Elt F)),
    nullary main_cst_8 (constant S_ .f32 0x3DCCCCCD#32),
    TRef.nullary main_call4.cst (constant S_ .f32 0x00000000#32),
    TRef.unary main_call4.cst main_call4.v0 (broadcastInDim S200000x10 ![] bcast_S_S200000x10),
    TRef.binary (.of main_v32 : TRef sig ⟨S200000x10, .f32⟩) main_call4.v0 main_call4.v1 (cmpf .oge),
    TRef.unary (.of main_cst_8 : TRef sig ⟨S_, .f32⟩) main_call4.v2 id,
    TRef.unary main_call4.v2 main_call4.v3 (broadcastInDim S200000x10 ![] bcast_S_S200000x10),
    TRef.binary main_call4.v3 (.of main_v32 : TRef sig ⟨S200000x10, .f32⟩) main_call4.v4 mulf,
    TRef.ternary main_call4.v1 (.of main_v32 : TRef sig ⟨S200000x10, .f32⟩) main_call4.v4 main_call4.call0.v0 select ]

/-- @main is that straight line: the rectifier's and the select's definitions opened at their calls and each record at
    its fields, sequencing is a computation on the program tree, so the two sides reduce to one chain of steps. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., nullary_bufs_sub .., nullary_bufs_sub .., unary_bufs_sub .., binary_bufs_sub .., unary_bufs_sub ..,
    unary_bufs_sub .., binary_bufs_sub .., ternary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., binary_bufs_sub .., nullary_bufs_sub .., nullary_bufs_sub .., unary_bufs_sub .., binary_bufs_sub ..,
    unary_bufs_sub .., unary_bufs_sub .., binary_bufs_sub .., ternary_bufs_sub .., nullary_bufs_sub .., unary_bufs_sub ..,
    unary_bufs_sub .., ternary_bufs_sub .., binary_bufs_sub .., binary_bufs_sub .., nullary_bufs_sub .., nullary_bufs_sub ..,
    unary_bufs_sub .., binary_bufs_sub .., unary_bufs_sub .., unary_bufs_sub .., binary_bufs_sub .., ternary_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub .., binary_bufs_sub .., nullary_bufs_sub ..,
    nullary_bufs_sub .., unary_bufs_sub .., binary_bufs_sub .., unary_bufs_sub .., unary_bufs_sub .., binary_bufs_sub ..,
    ternary_bufs_sub .., nullary_bufs_sub .., unary_bufs_sub .., unary_bufs_sub .., ternary_bufs_sub .., binary_bufs_sub ..,
    binary_bufs_sub .., nullary_bufs_sub .., nullary_bufs_sub .., unary_bufs_sub .., binary_bufs_sub .., unary_bufs_sub ..,
    unary_bufs_sub .., binary_bufs_sub .., ternary_bufs_sub ..⟩

-- the composed term is deep (the node state occurs twice in each round, each round's state twice in the next)
set_option maxRecDepth 8192 in
set_option maxHeartbeats 1000000 in
/-- The fold of the operations at the result buffer is `outR` of the contents at the argument buffers: each
    operation's result is rewritten at its own buffer to its function's value and at every other buffer to what
    was there (the buffers told apart as references); what is left composes the same operations in the same
    order as `outR` does — the typed references' transports along a type equation that holds by computation
    are the identity, the two joins are the two-operand concatenations — so the two sides agree by unfolding. -/
theorem out_eq (V : Valuation τ sig (Elt F)) :
    after ops V (main_v33 : DevRef τ sig)
      = outR (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) := by
  after_results_simp
  rfl

/-- On every device, for any float values, from any memory with zero counters: every weakly fair execution of the
    reference's @main terminates with its result at `outR` of the argument arrays and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v33)
        = outR (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v33).trans (out_eq _),
      (h c main_arg0).trans (by after_results_simp),
      (h c main_arg1).trans (by after_results_simp),
      (h c main_arg2).trans (by after_results_simp),
      (h c main_arg3).trans (by after_results_simp),
      (h c main_arg4).trans (by after_results_simp),
      (h c main_arg5).trans (by after_results_simp),
      (h c main_arg6).trans (by after_results_simp)⟩)
    (run_seq scopedRefs_eq scopedSems_eq defs main (fun _ => ops) main_eq (fun _ => ops_sub) m ρ)

end Cert.ReferenceIdeal.RefValue

end
-- ==== Proof.RefLayers.lean ====
/-
  The reference's three dense stages, read index by index on the extended reals, are the three layers: its product of a
  concatenation [a | b] with a whole weight matrix is the sum of a's product with the matrix's first rows and b's with
  its last rows (a finite sum split in two, which needs no finiteness), and its rectifier is the layers'.
-/
import proofs.«409437_j15616501088483_1_alg».proof.Proof.Gen.ReferenceIdeal
import proofs.«409437_j15616501088483_1_alg».proof.Proof.RefTerms
import proofs.«409437_j15616501088483_1_alg».proof.Proof.Layers
import Idealize.ShloMosaic.Lib.Pipeline.Value
import Idealize.ShloMosaic.Lib.ValueIdx
import Idealize.ShloMosaic.PureOps.Ideal.Laws

noncomputable section

namespace Cert.ReferenceIdeal.RefValue

open Idealize.ShloMosaic Idealize.ShloMosaic.ValueIdx Cert.ReferenceIdeal Cert.ReferenceIdeal.Gen

open scoped BigOperators

/-! ## The rectifier at an index

A rank-0 splat broadcast to an array reads its one word everywhere, so the select on `x ≥ 0` between `x` and the slope
times `x` is, entry by entry, the layers' rectifier. -/

theorem lreluN_apply (x : FVec Ideal S200000x10 .f32) (i : S200000x10.Idx) :
    lreluN (F := Ideal) x i = Cert.Layers.lrelu (x i) := by
  unfold lreluN
  rw [select_apply, cmpf_apply, mulf_apply]
  exact Cert.Layers.select_ge_zero (x i)

theorem lreluE_apply (x : FVec Ideal S6400000x10 .f32) (i : S6400000x10.Idx) :
    lreluE (F := Ideal) x i = Cert.Layers.lrelu (x i) := by
  unfold lreluE
  rw [select_apply, cmpf_apply, mulf_apply]
  exact Cert.Layers.select_ge_zero (x i)

/-! ## Row blocks of a weight matrix

The block that starts at row 0 reads the matrix at the same row. -/

theorem rowsFrom_zero_ix2 {R c : Nat} (r : Nat) (h : 0 + r ≤ R) (w : Cert.Layers.Mat R c) (k : Fin r) (j : Fin c) (hk : k.val < R) :
    Cert.Layers.rowsFrom 0 r h w (ix2 k j) = w (ix2 ⟨k.val, hk⟩ j) := by
  rw [Cert.Layers.rowsFrom_ix2]
  exact congrArg (fun a => w (ix2 a j)) (Fin.ext (Nat.zero_add k.val))

/-! ## The three products at an index

Each product contracts the left operand's axis 1 with the right operand's axis 0 and has no batch axis: at the result
index (n, j) and contraction coordinate k the left operand is read at (n, k) and the right one at (k, j). -/

/-! ### Node features against the embedding weights: 82 terms -/

theorem lhs_emb_0 (i : S200000x10.Idx) (q : dot_S200000x82_S82x10_S200000x10_1_0_0_1_n_n.contr.Idx) :
    (dot_S200000x82_S82x10_S200000x10_1_0_0_1_n_n.lhsIdx i q 0).val = (i 0).val := by
  unfold DotDims.lhsIdx
  rw [dif_neg (show ¬(0 : Fin S200000x82.rank) ∈ dot_S200000x82_S82x10_S200000x10_1_0_0_1_n_n.lhsBatch by decide),
    dif_pos (show (0 : Fin S200000x82.rank) ∈ dot_S200000x82_S82x10_S200000x10_1_0_0_1_n_n.lhsNonContracting by decide)]
  rfl
theorem lhs_emb_1 (i : S200000x10.Idx) (q : dot_S200000x82_S82x10_S200000x10_1_0_0_1_n_n.contr.Idx) :
    (dot_S200000x82_S82x10_S200000x10_1_0_0_1_n_n.lhsIdx i q 1).val = (q ⟨0, by decide⟩).val :=
  dot_S200000x82_S82x10_S200000x10_1_0_0_1_n_n.lhsIdx_val_of_single rfl i q
theorem rhs_emb_0 (i : S200000x10.Idx) (q : dot_S200000x82_S82x10_S200000x10_1_0_0_1_n_n.contr.Idx) :
    (dot_S200000x82_S82x10_S200000x10_1_0_0_1_n_n.rhsIdx i q 0).val = (q ⟨0, by decide⟩).val :=
  dot_S200000x82_S82x10_S200000x10_1_0_0_1_n_n.rhsIdx_val_of_single rfl i q
theorem rhs_emb_1 (i : S200000x10.Idx) (q : dot_S200000x82_S82x10_S200000x10_1_0_0_1_n_n.contr.Idx) :
    (dot_S200000x82_S82x10_S200000x10_1_0_0_1_n_n.rhsIdx i q 1).val = (i 1).val := by
  unfold DotDims.rhsIdx
  rw [dif_neg (show ¬(1 : Fin S82x10.rank) ∈ dot_S200000x82_S82x10_S200000x10_1_0_0_1_n_n.rhsBatch by decide),
    dif_pos (show (1 : Fin S82x10.rank) ∈ dot_S200000x82_S82x10_S200000x10_1_0_0_1_n_n.rhsNonContracting by decide)]
  rfl

theorem dot_emb_apply (l : FVec Ideal S200000x82 .f32) (r : FVec Ideal S82x10 .f32) (n : Fin 200000) (j : Fin 10) :
    Host.dotGeneral (F := Ideal) dot_S200000x82_S82x10_S200000x10_1_0_0_1_n_n none l r (ix2 n j)
      = ∑ k : Fin 82, l (ix2 n k) * r (ix2 k j) := by
  simp only [Host.dotGeneral]
  rw [Ideal.dotGeneral_apply, ← Equiv.sum_comp (contrEquiv1 dot_S200000x82_S82x10_S200000x10_1_0_0_1_n_n 82 rfl rfl).symm]
  refine Finset.sum_congr rfl fun k _ => ?_
  have hk := contrEquiv1_symm_val dot_S200000x82_S82x10_S200000x10_1_0_0_1_n_n 82 rfl rfl k
  have el : dot_S200000x82_S82x10_S200000x10_1_0_0_1_n_n.lhsIdx (ix2 n j)
      ((contrEquiv1 dot_S200000x82_S82x10_S200000x10_1_0_0_1_n_n 82 rfl rfl).symm k) = ix2 n k := funext fun a => Fin.ext (by
    match a with
    | ⟨0, _⟩ => exact lhs_emb_0 _ _
    | ⟨1, _⟩ => exact (lhs_emb_1 _ _).trans hk)
  have er : dot_S200000x82_S82x10_S200000x10_1_0_0_1_n_n.rhsIdx (ix2 n j)
      ((contrEquiv1 dot_S200000x82_S82x10_S200000x10_1_0_0_1_n_n 82 rfl rfl).symm k) = ix2 k j := funext fun a => Fin.ext (by
    match a with
    | ⟨0, _⟩ => exact (rhs_emb_0 _ _).trans hk
    | ⟨1, _⟩ => exact rhs_emb_1 _ _)
  rw [el, er]

/-! ### [gathered rows | edge features] against the whole 16 × 10 matrix: 16 terms -/

theorem lhs_msg_0 (i : S6400000x10.Idx) (q : dot_S6400000x16_S16x10_S6400000x10_1_0_0_1_n_n.contr.Idx) :
    (dot_S6400000x16_S16x10_S6400000x10_1_0_0_1_n_n.lhsIdx i q 0).val = (i 0).val := by
  unfold DotDims.lhsIdx
  rw [dif_neg (show ¬(0 : Fin S6400000x16.rank) ∈ dot_S6400000x16_S16x10_S6400000x10_1_0_0_1_n_n.lhsBatch by decide),
    dif_pos (show (0 : Fin S6400000x16.rank) ∈ dot_S6400000x16_S16x10_S6400000x10_1_0_0_1_n_n.lhsNonContracting by decide)]
  rfl
theorem lhs_msg_1 (i : S6400000x10.Idx) (q : dot_S6400000x16_S16x10_S6400000x10_1_0_0_1_n_n.contr.Idx) :
    (dot_S6400000x16_S16x10_S6400000x10_1_0_0_1_n_n.lhsIdx i q 1).val = (q ⟨0, by decide⟩).val :=
  dot_S6400000x16_S16x10_S6400000x10_1_0_0_1_n_n.lhsIdx_val_of_single rfl i q
theorem rhs_msg_0 (i : S6400000x10.Idx) (q : dot_S6400000x16_S16x10_S6400000x10_1_0_0_1_n_n.contr.Idx) :
    (dot_S6400000x16_S16x10_S6400000x10_1_0_0_1_n_n.rhsIdx i q 0).val = (q ⟨0, by decide⟩).val :=
  dot_S6400000x16_S16x10_S6400000x10_1_0_0_1_n_n.rhsIdx_val_of_single rfl i q
theorem rhs_msg_1 (i : S6400000x10.Idx) (q : dot_S6400000x16_S16x10_S6400000x10_1_0_0_1_n_n.contr.Idx) :
    (dot_S6400000x16_S16x10_S6400000x10_1_0_0_1_n_n.rhsIdx i q 1).val = (i 1).val := by
  unfold DotDims.rhsIdx
  rw [dif_neg (show ¬(1 : Fin S16x10.rank) ∈ dot_S6400000x16_S16x10_S6400000x10_1_0_0_1_n_n.rhsBatch by decide),
    dif_pos (show (1 : Fin S16x10.rank) ∈ dot_S6400000x16_S16x10_S6400000x10_1_0_0_1_n_n.rhsNonContracting by decide)]
  rfl

theorem dot_msg_apply (l : FVec Ideal S6400000x16 .f32) (r : FVec Ideal S16x10 .f32) (n : Fin 6400000) (j : Fin 10) :
    Host.dotGeneral (F := Ideal) dot_S6400000x16_S16x10_S6400000x10_1_0_0_1_n_n none l r (ix2 n j)
      = ∑ k : Fin 16, l (ix2 n k) * r (ix2 k j) := by
  simp only [Host.dotGeneral]
  rw [Ideal.dotGeneral_apply, ← Equiv.sum_comp (contrEquiv1 dot_S6400000x16_S16x10_S6400000x10_1_0_0_1_n_n 16 rfl rfl).symm]
  refine Finset.sum_congr rfl fun k _ => ?_
  have hk := contrEquiv1_symm_val dot_S6400000x16_S16x10_S6400000x10_1_0_0_1_n_n 16 rfl rfl k
  have el : dot_S6400000x16_S16x10_S6400000x10_1_0_0_1_n_n.lhsIdx (ix2 n j) ((contrEquiv1 dot_S6400000x16_S16x10_S6400000x10_1_0_0_1_n_n 16 rfl rfl).symm k) = ix2 n k :=
    funext fun a => Fin.ext (by
      match a with
      | ⟨0, _⟩ => exact lhs_msg_0 _ _
      | ⟨1, _⟩ => exact (lhs_msg_1 _ _).trans hk)
  have er : dot_S6400000x16_S16x10_S6400000x10_1_0_0_1_n_n.rhsIdx (ix2 n j) ((contrEquiv1 dot_S6400000x16_S16x10_S6400000x10_1_0_0_1_n_n 16 rfl rfl).symm k) = ix2 k j :=
    funext fun a => Fin.ext (by
      match a with
      | ⟨0, _⟩ => exact (rhs_msg_0 _ _).trans hk
      | ⟨1, _⟩ => exact rhs_msg_1 _ _)
  rw [el, er]

/-! ### [state | summed messages] against the whole 20 × 10 matrix: 20 terms -/

theorem lhs_upd_0 (i : S200000x10.Idx) (q : dot_S200000x20_S20x10_S200000x10_1_0_0_1_n_n.contr.Idx) :
    (dot_S200000x20_S20x10_S200000x10_1_0_0_1_n_n.lhsIdx i q 0).val = (i 0).val := by
  unfold DotDims.lhsIdx
  rw [dif_neg (show ¬(0 : Fin S200000x20.rank) ∈ dot_S200000x20_S20x10_S200000x10_1_0_0_1_n_n.lhsBatch by decide),
    dif_pos (show (0 : Fin S200000x20.rank) ∈ dot_S200000x20_S20x10_S200000x10_1_0_0_1_n_n.lhsNonContracting by decide)]
  rfl
theorem lhs_upd_1 (i : S200000x10.Idx) (q : dot_S200000x20_S20x10_S200000x10_1_0_0_1_n_n.contr.Idx) :
    (dot_S200000x20_S20x10_S200000x10_1_0_0_1_n_n.lhsIdx i q 1).val = (q ⟨0, by decide⟩).val :=
  dot_S200000x20_S20x10_S200000x10_1_0_0_1_n_n.lhsIdx_val_of_single rfl i q
theorem rhs_upd_0 (i : S200000x10.Idx) (q : dot_S200000x20_S20x10_S200000x10_1_0_0_1_n_n.contr.Idx) :
    (dot_S200000x20_S20x10_S200000x10_1_0_0_1_n_n.rhsIdx i q 0).val = (q ⟨0, by decide⟩).val :=
  dot_S200000x20_S20x10_S200000x10_1_0_0_1_n_n.rhsIdx_val_of_single rfl i q
theorem rhs_upd_1 (i : S200000x10.Idx) (q : dot_S200000x20_S20x10_S200000x10_1_0_0_1_n_n.contr.Idx) :
    (dot_S200000x20_S20x10_S200000x10_1_0_0_1_n_n.rhsIdx i q 1).val = (i 1).val := by
  unfold DotDims.rhsIdx
  rw [dif_neg (show ¬(1 : Fin S20x10.rank) ∈ dot_S200000x20_S20x10_S200000x10_1_0_0_1_n_n.rhsBatch by decide),
    dif_pos (show (1 : Fin S20x10.rank) ∈ dot_S200000x20_S20x10_S200000x10_1_0_0_1_n_n.rhsNonContracting by decide)]
  rfl

theorem dot_upd_apply (l : FVec Ideal S200000x20 .f32) (r : FVec Ideal S20x10 .f32) (n : Fin 200000) (j : Fin 10) :
    Host.dotGeneral (F := Ideal) dot_S200000x20_S20x10_S200000x10_1_0_0_1_n_n none l r (ix2 n j)
      = ∑ k : Fin 20, l (ix2 n k) * r (ix2 k j) := by
  simp only [Host.dotGeneral]
  rw [Ideal.dotGeneral_apply, ← Equiv.sum_comp (contrEquiv1 dot_S200000x20_S20x10_S200000x10_1_0_0_1_n_n 20 rfl rfl).symm]
  refine Finset.sum_congr rfl fun k _ => ?_
  have hk := contrEquiv1_symm_val dot_S200000x20_S20x10_S200000x10_1_0_0_1_n_n 20 rfl rfl k
  have el : dot_S200000x20_S20x10_S200000x10_1_0_0_1_n_n.lhsIdx (ix2 n j) ((contrEquiv1 dot_S200000x20_S20x10_S200000x10_1_0_0_1_n_n 20 rfl rfl).symm k) = ix2 n k :=
    funext fun a => Fin.ext (by
      match a with
      | ⟨0, _⟩ => exact lhs_upd_0 _ _
      | ⟨1, _⟩ => exact (lhs_upd_1 _ _).trans hk)
  have er : dot_S200000x20_S20x10_S200000x10_1_0_0_1_n_n.rhsIdx (ix2 n j) ((contrEquiv1 dot_S200000x20_S20x10_S200000x10_1_0_0_1_n_n 20 rfl rfl).symm k) = ix2 k j :=
    funext fun a => Fin.ext (by
      match a with
      | ⟨0, _⟩ => exact (rhs_upd_0 _ _).trans hk
      | ⟨1, _⟩ => exact rhs_upd_1 _ _)
  rw [el, er]

/-! ## The concatenations along the columns, and the sums split at column 10

The array [x | y] read at a column below x's width is x there; from that width on it is y at the column less the width.
A sum over all the columns is then the sum over x's columns plus the sum over y's. -/

/-! ### An edge array of 10 columns beside one of 6 -/

theorem cat_msg_left (x : FVec Ideal S6400000x10 .f32) (y : FVec Ideal S6400000x6 .f32) (h : Shape.Concatenates [S6400000x10, S6400000x6] S6400000x16 1)
    (e : Fin 6400000) (k : Fin 10) (hk : k.val < 16) :
    concatenate S6400000x16 1 [⟨S6400000x10, x⟩, ⟨S6400000x6, y⟩] h (ix2 e ⟨k.val, hk⟩) = x (ix2 e k) :=
  concatenate_pair_apply_left (1 : Fin S6400000x16.rank) x y h (ix2 e ⟨k.val, hk⟩) rfl (ix2 e k) (fun b => by
    match b with
    | ⟨0, _⟩ => rfl
    | ⟨1, _⟩ => rfl)

theorem cat_msg_right (x : FVec Ideal S6400000x10 .f32) (y : FVec Ideal S6400000x6 .f32) (h : Shape.Concatenates [S6400000x10, S6400000x6] S6400000x16 1)
    (e : Fin 6400000) (k : Fin 6) (hk : 10 + k.val < 16) :
    concatenate S6400000x16 1 [⟨S6400000x10, x⟩, ⟨S6400000x6, y⟩] h (ix2 e ⟨10 + k.val, hk⟩) = y (ix2 e k) :=
  concatenate_pair_apply_right (1 : Fin S6400000x16.rank) x y h (ix2 e ⟨10 + k.val, hk⟩) rfl rfl (ix2 e k)
    (fun b => by
      match b with
      | ⟨0, _⟩ => exact fun _ => rfl
      | ⟨1, _⟩ => exact fun hne => absurd rfl hne)
    (Nat.add_comm k.val 10)

/-- A sum of 16 terms is the sum of its first 10 and its last 6, the positions written as numbers. -/
theorem sum_msg (f : Fin 16 → EReal) :
    ∑ k, f k = ∑ k : Fin 10, f ⟨k.val, by have := k.isLt; omega⟩ + ∑ k : Fin 6, f ⟨10 + k.val, by have := k.isLt; omega⟩ :=
  Cert.Layers.sum_split 10 6 f

/-! ### Two node arrays of 10 columns side by side -/

theorem cat_upd_left (x : FVec Ideal S200000x10 .f32) (y : FVec Ideal S200000x10 .f32) (h : Shape.Concatenates [S200000x10, S200000x10] S200000x20 1)
    (e : Fin 200000) (k : Fin 10) (hk : k.val < 20) :
    concatenate S200000x20 1 [⟨S200000x10, x⟩, ⟨S200000x10, y⟩] h (ix2 e ⟨k.val, hk⟩) = x (ix2 e k) :=
  concatenate_pair_apply_left (1 : Fin S200000x20.rank) x y h (ix2 e ⟨k.val, hk⟩) rfl (ix2 e k) (fun b => by
    match b with
    | ⟨0, _⟩ => rfl
    | ⟨1, _⟩ => rfl)

theorem cat_upd_right (x : FVec Ideal S200000x10 .f32) (y : FVec Ideal S200000x10 .f32) (h : Shape.Concatenates [S200000x10, S200000x10] S200000x20 1)
    (e : Fin 200000) (k : Fin 10) (hk : 10 + k.val < 20) :
    concatenate S200000x20 1 [⟨S200000x10, x⟩, ⟨S200000x10, y⟩] h (ix2 e ⟨10 + k.val, hk⟩) = y (ix2 e k) :=
  concatenate_pair_apply_right (1 : Fin S200000x20.rank) x y h (ix2 e ⟨10 + k.val, hk⟩) rfl rfl (ix2 e k)
    (fun b => by
      match b with
      | ⟨0, _⟩ => exact fun _ => rfl
      | ⟨1, _⟩ => exact fun hne => absurd rfl hne)
    (Nat.add_comm k.val 10)

/-- A sum of 20 terms is the sum of its first 10 and its last 10, the positions written as numbers. -/
theorem sum_upd (f : Fin 20 → EReal) :
    ∑ k, f k = ∑ k : Fin 10, f ⟨k.val, by have := k.isLt; omega⟩ + ∑ k : Fin 10, f ⟨10 + k.val, by have := k.isLt; omega⟩ :=
  Cert.Layers.sum_split 10 10 f

/-! ## The three stages -/

/-- The reference's embedding stage is the embedding layer. -/
theorem embedR_eq (v : FVec Ideal S200000x82 .f32) (w : FVec Ideal S82x10 .f32) :
    embedR (F := Ideal) v w = Cert.Layers.embed v w := by
  funext i
  obtain ⟨n, j, rfl⟩ : ∃ (n : Fin 200000) (j : Fin 10), i = ix2 n j := ⟨i 0, i 1, eq_ix2 i⟩
  rw [Cert.Layers.embed_ix2]
  unfold embedR Cert.Layers.embedAt
  rw [lreluN_apply, dot_emb_apply]

/-- The reference's message stage against the whole 16 × 10 matrix is the message layer against its rows 0..9 and 10..15. -/
theorem messageR_eq (g : FVec Ideal S6400000x10 .f32) (ef : FVec Ideal S6400000x6 .f32) (gw : FVec Ideal S16x10 .f32) :
    messageR (F := Ideal) g ef gw
      = Cert.Layers.message g ef (Cert.Layers.rowsFrom 0 10 (by norm_num) gw) (Cert.Layers.rowsFrom 10 6 (by norm_num) gw) := by
  funext i
  obtain ⟨e, j, rfl⟩ : ∃ (e : Fin 6400000) (j : Fin 10), i = ix2 e j := ⟨i 0, i 1, eq_ix2 i⟩
  rw [Cert.Layers.message_ix2]
  unfold messageR Cert.Layers.messageAt
  rw [lreluE_apply, dot_msg_apply, sum_msg]
  congr 2
  · refine Finset.sum_congr rfl fun k _ => ?_
    rw [cat_msg_left, rowsFrom_zero_ix2]
  · refine Finset.sum_congr rfl fun k _ => ?_
    rw [cat_msg_right, Cert.Layers.rowsFrom_ix2]

/-- The reference's update stage against the whole 20 × 10 matrix is the update layer against its rows 0..9 and 10..19. -/
theorem updateR_eq (h a : FVec Ideal S200000x10 .f32) (uw : FVec Ideal S20x10 .f32) :
    updateR (F := Ideal) h a uw
      = Cert.Layers.update h a (Cert.Layers.rowsFrom 0 10 (by norm_num) uw) (Cert.Layers.rowsFrom 10 10 (by norm_num) uw) := by
  funext i
  obtain ⟨n, j, rfl⟩ : ∃ (n : Fin 200000) (j : Fin 10), i = ix2 n j := ⟨i 0, i 1, eq_ix2 i⟩
  rw [Cert.Layers.update_ix2]
  unfold updateR Cert.Layers.updateAt
  rw [lreluN_apply, dot_upd_apply, sum_upd]
  congr 2
  · refine Finset.sum_congr rfl fun k _ => ?_
    rw [cat_upd_left, rowsFrom_zero_ix2]
  · refine Finset.sum_congr rfl fun k _ => ?_
    rw [cat_upd_right, Cert.Layers.rowsFrom_ix2]

end Cert.ReferenceIdeal.RefValue

end
-- ==== Proof.Bridge.lean ====
/-
  The kernel program's composed term and the reference's are one function of the seven argument arrays, wherever every
  source index is in range. Stage by stage: the two gathers differ only by the kernel program's guard, which holds at
  every edge under the range; the sums into destination rows are the same term; the reference's message and update
  stages against a whole weight matrix are the layers against its two row blocks, which are what the kernel program
  cuts out of it; and the reference's embedding stage is the embedding layer.
-/
import proofs.«409437_j15616501088483_1_alg».proof.Proof.Gen.KernelIdeal
import proofs.«409437_j15616501088483_1_alg».proof.Proof.Gen.ReferenceIdeal
import proofs.«409437_j15616501088483_1_alg».proof.Proof.KChain
import proofs.«409437_j15616501088483_1_alg».proof.Proof.TakePre
import proofs.«409437_j15616501088483_1_alg».proof.Proof.RefTerms
import proofs.«409437_j15616501088483_1_alg».proof.Proof.RefLayers
import Idealize.ShloMosaic.Lib.Pipeline.Value
import Idealize.ShloMosaic.Lib.ValueIdx

noncomputable section

namespace Cert.Bridge

open Idealize.ShloMosaic Idealize.ShloMosaic.ValueIdx
open Cert.Layers (Mat)

/-! ## The weight blocks the kernel program cuts are the matrices' row blocks -/

theorem msgW0_eq (gw : Mat 16 10) :
    Cert.KernelIdeal.KValue.msgW0 (F := Ideal) gw = Cert.Layers.rowsFrom 0 10 (by norm_num) gw := by
  funext j
  unfold Cert.KernelIdeal.KValue.msgW0
  exact extractStridedSlice_apply _ _ _ j _ (by intro a; fin_cases a <;> simp [ix2])

theorem msgW1_eq (gw : Mat 16 10) :
    Cert.KernelIdeal.KValue.msgW1 (F := Ideal) gw = Cert.Layers.rowsFrom 10 6 (by norm_num) gw := by
  funext j
  unfold Cert.KernelIdeal.KValue.msgW1
  exact extractStridedSlice_apply _ _ _ j _ (by intro a; fin_cases a <;> simp [ix2])

theorem updW0_eq (uw : Mat 20 10) :
    Cert.KernelIdeal.KValue.updW0 (F := Ideal) uw = Cert.Layers.rowsFrom 0 10 (by norm_num) uw := by
  funext j
  unfold Cert.KernelIdeal.KValue.updW0
  exact extractStridedSlice_apply _ _ _ j _ (by intro a; fin_cases a <;> simp [ix2])

theorem updW1_eq (uw : Mat 20 10) :
    Cert.KernelIdeal.KValue.updW1 (F := Ideal) uw = Cert.Layers.rowsFrom 10 10 (by norm_num) uw := by
  funext j
  unfold Cert.KernelIdeal.KValue.updW1
  exact extractStridedSlice_apply _ _ _ j _ (by intro a; fin_cases a <;> simp [ix2])

/-! ## The gathers and the sums -/

/-- The two programs name one gather: the same dimension numbers … -/
theorem gatherDims_eq : Cert.KernelIdeal.gather_S200000x10_S6400000x1_S6400000x10_1_0_n_n_0_1_110
    = Cert.ReferenceIdeal.gather_S200000x10_S6400000x1_S6400000x10_1_0_n_n_0_1_110 := rfl

/-- … at the same start indices. -/
theorem startIdx_eq (src : IVec Cert.KernelIdeal.S6400000 32) :
    Cert.KernelIdeal.KValue.startIdx src = Cert.ReferenceIdeal.RefValue.startIdx src := rfl

/-- Under the range of the source indices the kernel program's guarded gather is the reference's gather. -/
theorem take_eq (h : Mat 200000 10) (src : IVec Cert.KernelIdeal.S6400000 32) (hs : Cert.KernelIdeal.KValue.SrcOk src) :
    Cert.KernelIdeal.KValue.takeK (F := Ideal) h src = Cert.ReferenceIdeal.RefValue.takeR (F := Ideal) h src := by
  rw [Cert.KernelIdeal.KValue.takeK_eq_gather (F := Ideal) h src hs]
  unfold Cert.KernelIdeal.KValue.gatherRows Cert.ReferenceIdeal.RefValue.takeR
  rw [gatherDims_eq, startIdx_eq]

/-- The two programs sum the messages into their destination rows by the same term. -/
theorem sumInto_eq (msg : Mat 6400000 10) (dst : IVec Cert.KernelIdeal.S6400000 32) :
    Cert.KernelIdeal.KValue.sumInto (F := Ideal) msg dst = Cert.ReferenceIdeal.RefValue.sumInto (F := Ideal) msg dst := rfl

/-! ## One round, and the whole -/

theorem round_eq (h : Mat 200000 10) (ef : Mat 6400000 6) (src dst : IVec Cert.KernelIdeal.S6400000 32)
    (gw : Mat 16 10) (uw : Mat 20 10) (hs : Cert.KernelIdeal.KValue.SrcOk src) :
    Cert.KernelIdeal.KValue.roundK h ef src dst gw uw = Cert.ReferenceIdeal.RefValue.roundR (F := Ideal) h ef src dst gw uw := by
  unfold Cert.KernelIdeal.KValue.roundK Cert.ReferenceIdeal.RefValue.roundR
  rw [Cert.ReferenceIdeal.RefValue.updateR_eq, Cert.ReferenceIdeal.RefValue.messageR_eq, take_eq h src hs, msgW0_eq, msgW1_eq,
    updW0_eq, updW1_eq, sumInto_eq]

/-- The kernel program's result term is the reference's, wherever every source index is in range. -/
theorem out_eq (v : Mat 200000 82) (ef : Mat 6400000 6) (src dst : IVec Cert.KernelIdeal.S6400000 32)
    (wi : Mat 82 10) (gw : Mat 16 10) (uw : Mat 20 10) (hs : Cert.KernelIdeal.KValue.SrcOk src) :
    Cert.KernelIdeal.KValue.outK v ef src dst wi gw uw = Cert.ReferenceIdeal.RefValue.outR (F := Ideal) v ef src dst wi gw uw := by
  unfold Cert.KernelIdeal.KValue.outK Cert.ReferenceIdeal.RefValue.outR
  rw [Cert.ReferenceIdeal.RefValue.embedR_eq, round_eq _ _ _ _ _ _ hs, round_eq _ _ _ _ _ _ hs]

end Cert.Bridge

end
-- ==== Proof.lean ====
/-
  Two rounds of message passing on a graph of 200000 nodes and 6400000 edges, hidden width 10: the kernel program runs
  the three dense layers (embedding, message, update) as five pallas_calls and leaves the gather of source rows and the
  sum into destination rows to the host; the reference is plain array code. Over the extended reals the two compute one
  function of the seven argument arrays wherever every source index is one the reference's `h[src]` accepts
  (-200000 ≤ src < 200000, the precondition's last conjunct):

  * each kernel's row blocks together are its layer of the whole arrays, and a change of float format is the identity;
  * the reference multiplies a concatenation [a | b] by a whole weight matrix where the kernel program adds a's product with
    the matrix's first rows to b's product with its last rows: one finite sum split in two, which holds on the extended
    reals with no finiteness assumed;
  * the kernel program's gather fills a row with the quiet-NaN word where its source index, counted from the end when
    negative, leaves 0 … 199999, and the reference's gather clamps there instead: under the range neither happens;
  * the sum into destination rows is the same term on both sides.

  The frames of the two kernel programs are the launch over their ten segments; the reference's frame is its run with the
  result dropped. The idealization rewrote nothing, so there is nothing to preserve.
-/
import proofs.«409437_j15616501088483_1_alg».proof.Defs
import proofs.«409437_j15616501088483_1_alg».proof.Proof.Gen.Kernel
import proofs.«409437_j15616501088483_1_alg».proof.Proof.Gen.Kernel.Frame
import proofs.«409437_j15616501088483_1_alg».proof.Proof.Gen.KernelIdeal
import proofs.«409437_j15616501088483_1_alg».proof.Proof.Gen.KernelIdeal.Frame
import proofs.«409437_j15616501088483_1_alg».proof.Proof.Gen.ReferenceIdeal
import proofs.«409437_j15616501088483_1_alg».proof.Proof.Gen.Pre_finite_inputs
import proofs.«409437_j15616501088483_1_alg».proof.Proof.KRun
import proofs.«409437_j15616501088483_1_alg».proof.Proof.KChain
import proofs.«409437_j15616501088483_1_alg».proof.Proof.TakePre
import proofs.«409437_j15616501088483_1_alg».proof.Proof.RefRun
import proofs.«409437_j15616501088483_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RefValue.run (F := Ideal) m ρ)

theorem preserves : Cert.preserves_Kernel_KernelIdeal := trivial

/-- Both programs end with the reference's term of the argument arrays in their result buffers: the kernel program's
    composed term is that term under the range of the source indices, which the precondition states. -/
theorem algebraic : Cert.algebraic_KernelIdeal_ReferenceIdeal := by
  intro m ρ m' ρ' hpre hagree
  refine ⟨fun c => Cert.KernelIdeal.KValue.outK (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.KValue.result_eq m ρ c), (h c).2⟩)
      (Cert.KernelIdeal.KValue.run_result (F := Ideal) m ρ)
  · refine (θ_run Cert.ReferenceIdeal.defs _ _).mono (fun r h c => ⟨(h c).1.trans ?_, (h c).2⟩)
      (Cert.ReferenceIdeal.RefValue.run (F := Ideal) m' ρ')
    obtain ⟨e0, e1, e2, e3, e4, e5, e6⟩ := hagree c
    rw [e0, e1, e2, e3, e4, e5, e6]
    exact (Cert.Bridge.out_eq _ _ _ _ _ _ _ (Cert.KernelIdeal.KValue.srcOk_of_pre _ _ _ _ _ _ _ (hpre c))).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
